-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S512x768 : Shape := ⟨2, ![512, 768]⟩
abbrev S768 : Shape := ⟨1, ![768]⟩
abbrev S768x10 : Shape := ⟨2, ![768, 10]⟩
abbrev S10 : Shape := ⟨1, ![10]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x768 : S_.BroadcastsInDim S512x768 (![] : Fin 0 → Fin S512x768.rank)
  reducesTo_S512x768_S_d0_1 : S512x768.ReducesTo [0, 1] S_
  bcast_S_S768 : S_.BroadcastsInDim S768 (![] : Fin 0 → Fin S768.rank)
  reducesTo_S768_S_d0 : S768.ReducesTo [0] S_
  bcast_S_S768x10 : S_.BroadcastsInDim S768x10 (![] : Fin 0 → Fin S768x10.rank)
  reducesTo_S768x10_S_d0_1 : S768x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg8 : FVec F S256 .f32) (main_arg16 : FVec F S256 .f32) (main_v98 : IVec S_ 1) (main_v101 : IVec S10 1) (main_c_39 : IVec S_ 1) : IVec S_ 1 :=
  let main_v102 : IVec S_ 1 := (fun x v => Host.reduce IntOp.andi x v reducesTo_S10_S_d0 h_S_) main_v101 main_c_39
  let main_v103 : IVec S_ 1 := andi main_v98 main_v102
  let main_cst_40 : FVec F S_ .f32 := constant S_ .f32 0x3727C5AC#32
  let main_v104 : FVec F S256 .f32 := broadcastInDim S256 ![] bcast_S_S256 main_cst_40
  let main_v105 : FVec F S256 .f32 := addf main_arg8 main_v104
  let main_cst_41 : FVec F S_ .f32 := constant S_ .f32 0x00000000#32
  let main_v106 : FVec F S256 .f32 := broadcastInDim S256 ![] bcast_S_S256 main_cst_41
  let main_v107 : IVec S256 1 := cmpf .ogt main_v105 main_v106
  let main_c_42 : IVec S_ 1 := constantI S_ 1 1#1
  let main_v108 : IVec S_ 1 := (fun x v => Host.reduce IntOp.andi x v reducesTo_S256_S_d0 h_S_) main_v107 main_c_42
  let main_v109 : IVec S_ 1 := andi main_v103 main_v108
  let main_cst_43 : FVec F S_ .f32 := constant S_ .f32 0x3727C5AC#32
  let main_v110 : FVec F S256 .f32 := broadcastInDim S256 ![] bcast_S_S256 main_cst_43
  let main_v111 : FVec F S256 .f32 := addf main_arg16 main_v110
  let main_cst_44 : FVec F S_ .f32 := constant S_ .f32 0x00000000#32
  let main_v112 : FVec F S256 .f32 := broadcastInDim S256 ![] bcast_S_S256 main_cst_44
  let main_v113 : IVec S256 1 := cmpf .ogt main_v111 main_v112
  let main_c_45 : IVec S_ 1 := constantI S_ 1 1#1
  let main_v114 : IVec S_ 1 := (fun x v => Host.reduce IntOp.andi x v reducesTo_S256_S_d0 h_S_) main_v113 main_c_45
  let main_v115 : IVec S_ 1 := andi main_v109 main_v114
  main_v115

def fn_part5 {F : FTy → Type} [FloatOps F] (main_arg8 : FVec F S256 .f32) (main_arg16 : FVec F S256 .f32) (main_arg20 : FVec F S768 .f32) (main_arg21 : FVec F S768x10 .f32) (main_arg22 : FVec F S10 .f32) (main_v83 : IVec S_ 1) (main_v84 : FVec F S512x768 .f32) (main_cst_32 : FVec F S_ .f32) : IVec S_ 1 :=
  let main_v85 : FVec F S512x768 .f32 := broadcastInDim S512x768 ![] bcast_S_S512x768 main_cst_32
  let main_v86 : IVec S512x768 1 := cmpf .olt main_v84 main_v85
  let main_c_33 : IVec S_ 1 := constantI S_ 1 1#1
  let main_v87 : IVec S_ 1 := (fun x v => Host.reduce IntOp.andi x v reducesTo_S512x768_S_d0_1 h_S_) main_v86 main_c_33
  let main_v88 : IVec S_ 1 := andi main_v83 main_v87
  let main_v89 : FVec F S768 .f32 := Host.absf main_arg20
  let main_cst_34 : FVec F S_ .f32 := constant S_ .f32 0x7F800000#32
  let main_v90 : FVec F S768 .f32 := broadcastInDim S768 ![] bcast_S_S768 main_cst_34
  let main_v91 : IVec S768 1 := cmpf .olt main_v89 main_v90
  let main_c_35 : IVec S_ 1 := constantI S_ 1 1#1
  let main_v92 : IVec S_ 1 := (fun x v => Host.reduce IntOp.andi x v reducesTo_S768_S_d0 h_S_) main_v91 main_c_35
  let main_v93 : IVec S_ 1 := andi main_v88 main_v92
  let main_v94 : FVec F S768x10 .f32 := Host.absf main_arg21
  let main_cst_36 : FVec F S_ .f32 := constant S_ .f32 0x7F800000#32
  let main_v95 : FVec F S768x10 .f32 := broadcastInDim S768x10 ![] bcast_S_S768x10 main_cst_36
  let main_v96 : IVec S768x10 1 := cmpf .olt main_v94 main_v95
  let main_c_37 : IVec S_ 1 := constantI S_ 1 1#1
  let main_v97 : IVec S_ 1 := (fun x v => Host.reduce IntOp.andi x v reducesTo_S768x10_S_d0_1 h_S_) main_v96 main_c_37
  let main_v98 : IVec S_ 1 := andi main_v93 main_v97
  let main_v99 : FVec F S10 .f32 := Host.absf main_arg22
  let main_cst_38 : FVec F S_ .f32 := constant S_ .f32 0x7F800000#32
  let main_v100 : FVec F S10 .f32 := broadcastInDim S10 ![] bcast_S_S10 main_cst_38
  let main_v101 : IVec S10 1 := cmpf .olt main_v99 main_v100
  let main_c_39 : IVec S_ 1 := constantI S_ 1 1#1
  fn_part6 (F := F) main_arg8 main_arg16 main_v98 main_v101 main_c_39

def fn_part4 {F : FTy → Type} [FloatOps F] (main_arg8 : FVec F S256 .f32) (main_arg16 : FVec F S256 .f32) (main_arg17 : FVec F S256x256 .f32) (main_arg18 : FVec F S256 .f32) (main_arg19 : FVec F S512x768 .f32) (main_arg20 : FVec F S768 .f32) (main_arg21 : FVec F S768x10 .f32) (main_arg22 : FVec F S10 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg17
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S512x768 .f32 := Host.absf main_arg19
  let main_cst_32 : FVec F S_ .f32 := constant S_ .f32 0x7F800000#32
  fn_part5 (F := F) main_arg8 main_arg16 main_arg20 main_arg21 main_arg22 main_v83 main_v84 main_cst_32

def fn_part3 {F : FTy → Type} [FloatOps F] (main_arg8 : FVec F S256 .f32) (main_arg13 : FVec F S256 .f32) (main_arg14 : FVec F S256 .f32) (main_arg15 : FVec F S256 .f32) (main_arg16 : FVec F S256 .f32) (main_arg17 : FVec F S256x256 .f32) (main_arg18 : FVec F S256 .f32) (main_arg19 : FVec F S512x768 .f32) (main_arg20 : FVec F S768 .f32) (main_arg21 : FVec F S768x10 .f32) (main_arg22 : FVec F S10 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg8 main_arg16 main_arg17 main_arg18 main_arg19 main_arg20 main_arg21 main_arg22 main_v63 main_v67

def fn_part2 {F : FTy → Type} [FloatOps F] (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) (main_arg17 : FVec F S256x256 .f32) (main_arg18 : FVec F S256 .f32) (main_arg19 : FVec F S512x768 .f32) (main_arg20 : FVec F S768 .f32) (main_arg21 : FVec F S768x10 .f32) (main_arg22 : FVec F S10 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg8 main_arg13 main_arg14 main_arg15 main_arg16 main_arg17 main_arg18 main_arg19 main_arg20 main_arg21 main_arg22 main_v48 main_v49 main_v50

def fn_part1 {F : FTy → Type} [FloatOps F] (main_arg6 : FVec F S256 .f32) (main_arg7 : FVec F S256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) (main_arg17 : FVec F S256x256 .f32) (main_arg18 : FVec F S256 .f32) (main_arg19 : FVec F S512x768 .f32) (main_arg20 : FVec F S768 .f32) (main_arg21 : FVec F S768x10 .f32) (main_arg22 : FVec F S10 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x256 .f32) (main_arg1 : IVec S2x800000 32) (main_arg2 : IVec S50000 32) (main_arg3 : FVec F S256x256 .f32) (main_arg4 : FVec F S256 .f32) (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) (main_arg17 : FVec F S256x256 .f32) (main_arg18 : FVec F S256 .f32) (main_arg19 : FVec F S512x768 .f32) (main_arg20 : FVec F S768 .f32) (main_arg21 : FVec F S768x10 .f32) (main_arg22 : FVec F S10 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S512x768 : Shape := ⟨2, ![512, 768]⟩
abbrev S768 : Shape := ⟨1, ![768]⟩
abbrev S768x10 : Shape := ⟨2, ![768, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1000x256 : Shape := ⟨2, ![1000, 256]⟩
abbrev S1x256 : Shape := ⟨2, ![1, 256]⟩
abbrev S50000x1 : Shape := ⟨2, ![50000, 1]⟩
abbrev S2x512x256 : Shape := ⟨3, ![2, 512, 256]⟩
abbrev S1000x1 : Shape := ⟨2, ![1000, 1]⟩
abbrev S1x512x256 : Shape := ⟨3, ![1, 512, 256]⟩
abbrev S512x256 : Shape := ⟨2, ![512, 256]⟩
abbrev S1000x512 : Shape := ⟨2, ![1000, 512]⟩
abbrev S500x256 : Shape := ⟨2, ![500, 256]⟩
abbrev S500x512 : Shape := ⟨2, ![500, 512]⟩
abbrev S500x768 : Shape := ⟨2, ![500, 768]⟩
abbrev S1x768 : Shape := ⟨2, ![1, 768]⟩
abbrev S500x10 : Shape := ⟨2, ![500, 10]⟩
abbrev S1x10 : Shape := ⟨2, ![1, 10]⟩
abbrev S500 : Shape := ⟨1, ![500]⟩
abbrev S500x1 : Shape := ⟨2, ![500, 1]⟩

abbrev nBuf : Space → Nat
  | .hbm => 104
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S512x768, .f32⟩
  | .hbm, ⟨20, _⟩ => ⟨S768, .f32⟩
  | .hbm, ⟨21, _⟩ => ⟨S768x10, .f32⟩
  | .hbm, ⟨22, _⟩ => ⟨S10, .f32⟩
  | .hbm, ⟨23, _⟩ => ⟨S1x800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x256, .f32⟩
  | .hbm, ⟨36, _⟩ => ⟨S_, .f32⟩
  | .hbm, ⟨37, _⟩ => ⟨S50000x256, .f32⟩
  | .hbm, ⟨38, _⟩ => ⟨S800000x1, .i32⟩
  | .hbm, ⟨39, _⟩ => ⟨S50000x256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S50000x1, .i32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S256, .f32⟩
  | .hbm, ⟨67, _⟩ => ⟨S256, .f32⟩
  | .hbm, ⟨68, _⟩ => ⟨S256, .f32⟩
  | .hbm, ⟨69, _⟩ => ⟨S2x512x256, .f32⟩
  | .hbm, ⟨70, _⟩ => ⟨S2x512x256, .f32⟩
  | .hbm, ⟨71, _⟩ => ⟨S_, .f32⟩
  | .hbm, ⟨72, _⟩ => ⟨S512x256, .f32⟩
  | .hbm, ⟨73, _⟩ => ⟨S_, .f32⟩
  | .hbm, ⟨74, _⟩ => ⟨S512x256, .f32⟩
  | .hbm, ⟨75, _⟩ => ⟨S500x256, .f32⟩
  | .hbm, ⟨76, _⟩ => ⟨S500x256, .f32⟩
  | .hbm, ⟨77, _⟩ => ⟨S500x512, .f32⟩
  | .hbm, ⟨78, _⟩ => ⟨S500x768, .f32⟩
  | .hbm, ⟨79, _⟩ => ⟨S1x768, .f32⟩
  | .hbm, ⟨80, _⟩ => ⟨S500x768, .f32⟩
  | .hbm, ⟨81, _⟩ => ⟨S500x768, .f32⟩
  | .hbm, ⟨82, _⟩ => ⟨S_, .f32⟩
  | .hbm, ⟨83, _⟩ => ⟨S500x768, .f32⟩
  | .hbm, ⟨84, _⟩ => ⟨S500x768, .f32⟩
  | .hbm, ⟨85, _⟩ => ⟨S500x10, .f32⟩
  | .hbm, ⟨86, _⟩ => ⟨S1x10, .f32⟩
  | .hbm, ⟨87, _⟩ => ⟨S500x10, .f32⟩
  | .hbm, ⟨88, _⟩ => ⟨S500x10, .f32⟩
  | .hbm, ⟨89, _⟩ => ⟨S_, .f32⟩
  | .hbm, ⟨90, _⟩ => ⟨S500, .f32⟩
  | .hbm, ⟨91, _⟩ => ⟨S_, .f32⟩
  | .hbm, ⟨92, _⟩ => ⟨S500, .f32⟩
  | .hbm, ⟨93, _⟩ => ⟨S500, .f32⟩
  | .hbm, ⟨94, _⟩ => ⟨S500x1, .f32⟩
  | .hbm, ⟨95, _⟩ => ⟨S500x10, .f32⟩
  | .hbm, ⟨96, _⟩ => ⟨S500x10, .f32⟩
  | .hbm, ⟨97, _⟩ => ⟨S500x10, .f32⟩
  | .hbm, ⟨98, _⟩ => ⟨S_, .f32⟩
  | .hbm, ⟨99, _⟩ => ⟨S500, .f32⟩
  | .hbm, ⟨100, _⟩ => ⟨S500x1, .f32⟩
  | .hbm, ⟨101, _⟩ => ⟨S500x1, .f32⟩
  | .hbm, ⟨102, _⟩ => ⟨S500x10, .f32⟩
  | .hbm, ⟨103, _⟩ => ⟨S500x10, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S256x256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x1, .i32⟩
  | .local _ .vmem, ⟨17, _⟩ => ⟨S1000x1, .i32⟩
  | .local _ .vmem, ⟨18, _⟩ => ⟨S256x256, .f32⟩
  | .local _ .vmem, ⟨19, _⟩ => ⟨S256, .f32⟩
  | .local _ .vmem, ⟨20, _⟩ => ⟨S256, .f32⟩
  | .local _ .vmem, ⟨21, _⟩ => ⟨S256, .f32⟩
  | .local _ .vmem, ⟨22, _⟩ => ⟨S256x256, .f32⟩
  | .local _ .vmem, ⟨23, _⟩ => ⟨S256, .f32⟩
  | .local _ .vmem, ⟨24, _⟩ => ⟨S1x512x256, .f32⟩
  | .local _ .vmem, ⟨25, _⟩ => ⟨S1x512x256, .f32⟩
  | .local _ .vmem, ⟨26, _⟩ => ⟨S1x512x256, .f32⟩
  | .local _ .vmem, ⟨27, _⟩ => ⟨S1x512x256, .f32⟩
  | .local _ .vmem, ⟨28, _⟩ => ⟨S512x256, .f32⟩
  | .local _ .vmem, ⟨29, _⟩ => ⟨S512x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_2 : Ref sig .tc := ⟨.hbm, 48, rfl⟩
abbrev main_v21 : Ref sig .tc := ⟨.hbm, 49, rfl⟩
abbrev main_v22 : Ref sig .tc := ⟨.hbm, 50, rfl⟩
abbrev main_c_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_4 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38_0 : Ref sig .tc := ⟨.hbm, 69, rfl⟩
abbrev main_v38_1 : Ref sig .tc := ⟨.hbm, 70, rfl⟩
abbrev main_cst_6 : Ref sig .tc := ⟨.hbm, 71, rfl⟩
abbrev main_v39 : Ref sig .tc := ⟨.hbm, 72, rfl⟩
abbrev main_cst_7 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_call0_cst : Ref sig .tc := ⟨.hbm, 82, rfl⟩
abbrev main_call0_v0 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_call1_cst : Ref sig .tc := ⟨.hbm, 89, rfl⟩
abbrev main_call1_v0 : Ref sig .tc := ⟨.hbm, 90, rfl⟩
abbrev main_call1_cst_0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_cst_1 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_v53 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc1_scratch0 : Ref sig .tc := ⟨.vmem, 28, rfl⟩
abbrev cc1_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![2, 25], ![false, false]⟩

def k1_cond2 (i : grid1.Coords) : BitVec 1 :=
  let arg1 : BitVec 32 := BitVec.ofNat 32 (i 1).val
  let c24_i32 : BitVec 32 := 24#32
  let v60 : BitVec 1 := Scalar.cmpi .eq arg1 c24_i32
  let v61 : BitVec 32 := Scalar.extui v60
  let c0_i32_27 : BitVec 32 := 0#32
  let v62 : BitVec 1 := Scalar.cmpi .ne v61 c0_i32_27
  v62

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x512x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x512x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S256 : S_.BroadcastsInDim S256 (![] : Fin 0 → Fin S256.rank)
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  shapeCasts_S256_S256 : S256.ShapeCasts S256
  shapeCasts_S50000_S50000x1 : S50000.ShapeCasts S50000x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x512_d1_w32 : S1000x512.Iotas .tc 32 [1]
  broadcasts_S1000x1_S1000x512 : S1000x1.Broadcasts S1000x512
  natLt_1_32 : 1 < 32
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  reducesTo_S2x512x256_S512x256_d0 : S2x512x256.ReducesTo [0] S512x256
  h_S_ : 0 < S_.numel
  slices_S512x256_S500x256_0_0 : S512x256.Slices ![0, 0] S500x256
  concatenates_S500x256_S500x256_S500x512_d1 : Shape.Concatenates [S500x256, S500x256] S500x512 1
  bcast_S768_S1x768_1 : S768.BroadcastsInDim S1x768 (![1] : Fin 1 → Fin S1x768.rank)
  bcast_S1x768_S500x768_0_1 : S1x768.BroadcastsInDim S500x768 (![0, 1] : Fin 2 → Fin S500x768.rank)
  bcast_S_S500x768 : S_.BroadcastsInDim S500x768 (![] : Fin 0 → Fin S500x768.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  reducesTo_S500x10_S500_d1 : S500x10.ReducesTo [1] S500
  bcast_S_S500 : S_.BroadcastsInDim S500 (![] : Fin 0 → Fin S500.rank)
  bcast_S500_S500x1_0 : S500.BroadcastsInDim S500x1 (![0] : Fin 1 → Fin S500x1.rank)
  bcast_S500x1_S500x10_0_1 : S500x1.BroadcastsInDim S500x10 (![0, 1] : Fin 2 → Fin S500x10.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S1000x256_S256x256_S1000x256_1_0_0_1_n_n_wf : DotDims.WF S1000x256 S256x256 S1000x256 [1] [0] [0] [1] [] []
  dot_S1000x512_S1000x256_S512x256_0_0_1_1_n_n_wf : DotDims.WF S1000x512 S1000x256 S512x256 [0] [0] [1] [1] [] []
  dot_S500x512_S512x768_S500x768_1_0_0_1_n_n_wf : DotDims.WF S500x512 S512x768 S500x768 [1] [0] [0] [1] [] []
  dot_S500x768_S768x10_S500x10_1_0_0_1_n_n_wf : DotDims.WF S500x768 S768x10 S500x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S50000x256.size a
  hwx0_1 : ∀ i : grid0.Coords, EltTy.bits .f32 = 32 ∨ (Rect.block (s := S50000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x256.size a ≤ S50000x256.size a
  hwx0_8 : ∀ i : grid0.Coords, EltTy.bits .f32 = 32 ∨ (Rect.block (s := S50000x256) S1000x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S50000x256.size a
  hwx1_1 : ∀ i : grid1.Coords, EltTy.bits .f32 = 32 ∨ (Rect.block (s := S50000x256) S1000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S50000x1.size a
  hwx1_2 : ∀ i : grid1.Coords, EltTy.bits .i32 = 32 ∨ (Rect.block (s := S50000x1) S1000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x512x256.size a ≤ S2x512x256.size a
  hwx1_9 : ∀ i : grid1.Coords, EltTy.bits .f32 = 32 ∨ (Rect.block (s := S2x512x256) S1x512x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x512x256.size a ≤ S2x512x256.size a
  hwx1_10 : ∀ i : grid1.Coords, EltTy.bits .f32 = 32 ∨ (Rect.block (s := S2x512x256) S1x512x256.size (cc1_transform_10 i) (hinb1_10 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x512_S1000x256_S512x256_0_0_1_1_n_n : DotDims S1000x512 S1000x256 S512x256 where
  lhsContracting := [0]
  rhsContracting := [0]
  lhsNonContracting := [1]
  rhsNonContracting := [1]
  lhsBatch := []
  rhsBatch := []
  wf := dot_S1000x512_S1000x256_S512x256_0_0_1_1_n_n_wf
def dot_S500x512_S512x768_S500x768_1_0_0_1_n_n : DotDims S500x512 S512x768 S500x768 where
  lhsContracting := [1]
  rhsContracting := [0]
  lhsNonContracting := [0]
  rhsNonContracting := [1]
  lhsBatch := []
  rhsBatch := []
  wf := dot_S500x512_S512x768_S500x768_1_0_0_1_n_n_wf
def dot_S500x768_S768x10_S500x10_1_0_0_1_n_n : DotDims S500x768 S768x10 S500x10 where
  lhsContracting := [1]
  rhsContracting := [0]
  lhsNonContracting := [0]
  rhsNonContracting := [1]
  lhsBatch := []
  rhsBatch := []
  wf := dot_S500x768_S768x10_S500x10_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v20) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg17) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg18) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v38_0) S1x512x256.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v38_1) S1x512x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | 10 => fun i => !(k1_cond2 i == 1#1) | ⟨_ + 11, h⟩ => absurd h (Nat.not_lt.2 (Nat.le_add_left _ _))

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S512x768 : Shape := ⟨2, ![512, 768]⟩
abbrev S768 : Shape := ⟨1, ![768]⟩
abbrev S768x10 : Shape := ⟨2, ![768, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S500x256 : Shape := ⟨2, ![500, 256]⟩
abbrev S50000x1 : Shape := ⟨2, ![50000, 1]⟩
abbrev S500x512 : Shape := ⟨2, ![500, 512]⟩
abbrev S500x768 : Shape := ⟨2, ![500, 768]⟩
abbrev S1x768 : Shape := ⟨2, ![1, 768]⟩
abbrev S500x10 : Shape := ⟨2, ![500, 10]⟩
abbrev S1x10 : Shape := ⟨2, ![1, 10]⟩
abbrev S500 : Shape := ⟨1, ![500]⟩
abbrev S500x1 : Shape := ⟨2, ![500, 1]⟩

abbrev nBuf : Space → Nat
  | .hbm => 146
  | .vmem => 0
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S256x256, .f32⟩
  | 4 => ⟨S256, .f32⟩
  | 5 => ⟨S256, .f32⟩
  | 6 => ⟨S256, .f32⟩
  | 7 => ⟨S256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256, .f32⟩
  | 14 => ⟨S256, .f32⟩
  | 15 => ⟨S256, .f32⟩
  | 16 => ⟨S256, .f32⟩
  | 17 => ⟨S256x256, .f32⟩
  | 18 => ⟨S256, .f32⟩
  | 19 => ⟨S512x768, .f32⟩
  | 20 => ⟨S768, .f32⟩
  | 21 => ⟨S768x10, .f32⟩
  | 22 => ⟨S10, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x256, .f32⟩
  | 36 => ⟨S_, .f32⟩
  | 37 => ⟨S50000x256, .f32⟩
  | 38 => ⟨S800000x1, .i32⟩
  | 39 => ⟨S50000x256, .f32⟩
  | 40 => ⟨S50000x256, .f32⟩
  | 41 => ⟨S50000x256, .f32⟩
  | 42 => ⟨S1x256, .f32⟩
  | 43 => ⟨S50000x256, .f32⟩
  | 44 => ⟨S50000x256, .f32⟩
  | 45 => ⟨S1x256, .f32⟩
  | 46 => ⟨S50000x256, .f32⟩
  | 47 => ⟨S50000x256, .f32⟩
  | 48 => ⟨S_, .f32⟩
  | 49 => ⟨S256, .f32⟩
  | 50 => ⟨S256, .f32⟩
  | 51 => ⟨S256, .f32⟩
  | 52 => ⟨S256, .f32⟩
  | 53 => ⟨S1x256, .f32⟩
  | 54 => ⟨S50000x256, .f32⟩
  | 55 => ⟨S50000x256, .f32⟩
  | 56 => ⟨S1x256, .f32⟩
  | 57 => ⟨S50000x256, .f32⟩
  | 58 => ⟨S50000x256, .f32⟩
  | 59 => ⟨S_, .f32⟩
  | 60 => ⟨S50000x256, .f32⟩
  | 61 => ⟨S50000x256, .f32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x256, .f32⟩
  | 78 => ⟨S_, .f32⟩
  | 79 => ⟨S50000x256, .f32⟩
  | 80 => ⟨S800000x1, .i32⟩
  | 81 => ⟨S50000x256, .f32⟩
  | 82 => ⟨S50000x256, .f32⟩
  | 83 => ⟨S50000x256, .f32⟩
  | 84 => ⟨S1x256, .f32⟩
  | 85 => ⟨S50000x256, .f32⟩
  | 86 => ⟨S50000x256, .f32⟩
  | 87 => ⟨S1x256, .f32⟩
  | 88 => ⟨S50000x256, .f32⟩
  | 89 => ⟨S50000x256, .f32⟩
  | 90 => ⟨S_, .f32⟩
  | 91 => ⟨S256, .f32⟩
  | 92 => ⟨S256, .f32⟩
  | 93 => ⟨S256, .f32⟩
  | 94 => ⟨S256, .f32⟩
  | 95 => ⟨S1x256, .f32⟩
  | 96 => ⟨S50000x256, .f32⟩
  | 97 => ⟨S50000x256, .f32⟩
  | 98 => ⟨S1x256, .f32⟩
  | 99 => ⟨S50000x256, .f32⟩
  | 100 => ⟨S50000x256, .f32⟩
  | 101 => ⟨S_, .f32⟩
  | 102 => ⟨S50000x256, .f32⟩
  | 103 => ⟨S50000x256, .f32⟩
  | 104 => ⟨S50000x256, .f32⟩
  | 105 => ⟨S1x256, .f32⟩
  | 106 => ⟨S50000x256, .f32⟩
  | 107 => ⟨S50000x256, .f32⟩
  | 108 => ⟨S_, .f32⟩
  | 109 => ⟨S50000x256, .f32⟩
  | 110 => ⟨S50000x256, .f32⟩
  | 111 => ⟨S_, .f32⟩
  | 112 => ⟨S500x256, .f32⟩
  | 113 => ⟨S50000x1, .i32⟩
  | 114 => ⟨S500x256, .f32⟩
  | 115 => ⟨S_, .f32⟩
  | 116 => ⟨S500x256, .f32⟩
  | 117 => ⟨S50000x1, .i32⟩
  | 118 => ⟨S500x256, .f32⟩
  | 119 => ⟨S500x512, .f32⟩
  | 120 => ⟨S500x768, .f32⟩
  | 121 => ⟨S1x768, .f32⟩
  | 122 => ⟨S500x768, .f32⟩
  | 123 => ⟨S500x768, .f32⟩
  | 124 => ⟨S_, .f32⟩
  | 125 => ⟨S500x768, .f32⟩
  | 126 => ⟨S500x768, .f32⟩
  | 127 => ⟨S500x10, .f32⟩
  | _ => ⟨S50000x256, .f32⟩

abbrev hbmTy0_1 (i : Nat) : BufTy := match i % 128 with
  | 0 => ⟨S1x10, .f32⟩
  | 1 => ⟨S500x10, .f32⟩
  | 2 => ⟨S500x10, .f32⟩
  | 3 => ⟨S_, .f32⟩
  | 4 => ⟨S500, .f32⟩
  | 5 => ⟨S_, .f32⟩
  | 6 => ⟨S500, .f32⟩
  | 7 => ⟨S500, .f32⟩
  | 8 => ⟨S500x1, .f32⟩
  | 9 => ⟨S500x10, .f32⟩
  | 10 => ⟨S500x10, .f32⟩
  | 11 => ⟨S500x10, .f32⟩
  | 12 => ⟨S_, .f32⟩
  | 13 => ⟨S500, .f32⟩
  | 14 => ⟨S500x1, .f32⟩
  | 15 => ⟨S500x1, .f32⟩
  | 16 => ⟨S500x10, .f32⟩
  | 17 => ⟨S500x10, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_1 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call0_cst : Ref sig .tc := ⟨.hbm, 59, rfl⟩
abbrev main_call0_v0 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call1_cst : Ref sig .tc := ⟨.hbm, 66, rfl⟩
abbrev main_call1_v0 : Ref sig .tc := ⟨.hbm, 67, rfl⟩
abbrev main_v37 : Ref sig .tc := ⟨.hbm, 68, rfl⟩
abbrev main_c_2 : Ref sig .tc := ⟨.hbm, 69, rfl⟩
abbrev main_v38 : Ref sig .tc := ⟨.hbm, 70, rfl⟩
abbrev main_v39 : Ref sig .tc := ⟨.hbm, 71, rfl⟩
abbrev main_c_3 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_4 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_5 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_call2_cst : Ref sig .tc := ⟨.hbm, 101, rfl⟩
abbrev main_call2_v0 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_call3_cst : Ref sig .tc := ⟨.hbm, 108, rfl⟩
abbrev main_call3_v0 : Ref sig .tc := ⟨.hbm, 109, rfl⟩
abbrev main_v71 : Ref sig .tc := ⟨.hbm, 110, rfl⟩
abbrev main_cst_6 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_7 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_call4_cst : Ref sig .tc := ⟨.hbm, 124, rfl⟩
abbrev main_call4_v0 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_call5_cst : Ref sig .tc := ⟨.hbm, 131, rfl⟩
abbrev main_call5_v0 : Ref sig .tc := ⟨.hbm, 132, rfl⟩
abbrev main_call5_cst_0 : Ref sig .tc := ⟨.hbm, 133, rfl⟩
abbrev main_call5_v1 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_v5 : Ref sig .tc := ⟨.hbm, 138, rfl⟩
abbrev main_call5_v6 : Ref sig .tc := ⟨.hbm, 139, rfl⟩
abbrev main_call5_cst_1 : Ref sig .tc := ⟨.hbm, 140, rfl⟩
abbrev main_call5_v7 : Ref sig .tc := ⟨.hbm, 141, rfl⟩
abbrev main_call5_v8 : Ref sig .tc := ⟨.hbm, 142, rfl⟩
abbrev main_call5_v9 : Ref sig .tc := ⟨.hbm, 143, rfl⟩
abbrev main_call5_v10 : Ref sig .tc := ⟨.hbm, 144, rfl⟩
abbrev main_v88 : Ref sig .tc := ⟨.hbm, 145, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S500x256 : S_.BroadcastsInDim S500x256 (![] : Fin 0 → Fin S500x256.rank)
  bcast_S50000_S50000x1_0 : S50000.BroadcastsInDim S50000x1 (![0] : Fin 1 → Fin S50000x1.rank)
  concatenates_S500x256_S500x256_S500x512_d1 : Shape.Concatenates [S500x256, S500x256] S500x512 1
  bcast_S768_S1x768_1 : S768.BroadcastsInDim S1x768 (![1] : Fin 1 → Fin S1x768.rank)
  bcast_S1x768_S500x768_0_1 : S1x768.BroadcastsInDim S500x768 (![0, 1] : Fin 2 → Fin S500x768.rank)
  bcast_S_S500x768 : S_.BroadcastsInDim S500x768 (![] : Fin 0 → Fin S500x768.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  reducesTo_S500x10_S500_d1 : S500x10.ReducesTo [1] S500
  h_S_ : 0 < S_.numel
  bcast_S_S500 : S_.BroadcastsInDim S500 (![] : Fin 0 → Fin S500.rank)
  bcast_S500_S500x1_0 : S500.BroadcastsInDim S500x1 (![0] : Fin 1 → Fin S500x1.rank)
  bcast_S500x1_S500x10_0_1 : S500x1.BroadcastsInDim S500x10 (![0, 1] : Fin 2 → Fin S500x10.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S500x256_S50000x1_S50000x256_1_0_0_1_wf : ScatterDims.WF S500x256 S50000x1 S50000x256 [1] [0] [0] 1
  dot_S500x512_S512x768_S500x768_1_0_0_1_n_n_wf : DotDims.WF S500x512 S512x768 S500x768 [1] [0] [0] [1] [] []
  dot_S500x768_S768x10_S500x10_1_0_0_1_n_n_wf : DotDims.WF S500x768 S768x10 S500x10 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S500x256_S50000x1_S50000x256_1_0_0_1 : ScatterDims S500x256 S50000x1 S50000x256 where
  updateWindowDims := [1]
  insertedWindowDims := [0]
  scatterDimsToOperandDims := [0]
  indexVectorDim := 1
  wf := scatter_S500x256_S50000x1_S50000x256_1_0_0_1_wf
def dot_S500x512_S512x768_S500x768_1_0_0_1_n_n : DotDims S500x512 S512x768 S500x768 where
  lhsContracting := [1]
  rhsContracting := [0]
  lhsNonContracting := [0]
  rhsNonContracting := [1]
  lhsBatch := []
  rhsBatch := []
  wf := dot_S500x512_S512x768_S500x768_1_0_0_1_n_n_wf
def dot_S500x768_S768x10_S500x10_1_0_0_1_n_n : DotDims S500x768 S768x10 S500x10 where
  lhsContracting := [1]
  rhsContracting := [0]
  lhsNonContracting := [0]
  rhsNonContracting := [1]
  lhsBatch := []
  rhsBatch := []
  wf := dot_S500x768_S768x10_S500x10_1_0_0_1_n_n_wf

class Facts : Prop extends Facts₀ where

variable [Facts]
-- ==== Proof.Spec.lean ====
/-
  The reference's result as a composition of four named maps (at any float instance):
  * aggOp x e — the neighbour sum: row n of the result is the sum of the rows x[src(k)] over the edges k with dst(k) = n
    (a gather by the wrapped source index, scatter-added by the destination index onto zeros);
  * mlpR h … — Linear, batch norm in evaluation mode (h − mean)·(γ/√(var+ε)) + β, ReLU, Linear, ReLU, row by row;
  * poolR batch h — the sum of the rows of h per graph id (a scatter-add onto zeros of 500 rows);
  * tailOp cat … — the classifier on the concatenated pooled features and the log-softmax over its 10 columns.
  The reference computes tailOp [poolR batch h₁ ‖ poolR batch h₂] with h₁ = mlpR (x + aggOp x e), h₂ = mlpR (h₁ + aggOp h₁ e).
-/
import proofs.«420545_j11647951307430_3_alg».proof.Proof.Gen.ReferenceIdeal
import Idealize.ShloMosaic.Lib.StableHlo.Run

noncomputable section

namespace Cert.ReferenceIdeal.Spec

open Cert.ReferenceIdeal Cert.ReferenceIdeal.Gen Idealize.ShloMosaic Idealize.ShloMosaic.TcCoe Idealize.SL.Sem Idealize.ShloMosaic.StableHlo

variable {F : FTy → Type} [FloatOps F]

/-- The neighbour sum of the rows of `x` along the edge list `e` (row 0 the sources, row 1 the destinations). -/
def aggOp (x : FVec F S50000x256 .f32) (e : IVec S2x800000 32) : FVec F S50000x256 .f32 :=
  (Host.scatterAdd scatter_S50000x256_S800000x1_S800000x256_1_0_0_1 (broadcastInDim S50000x256 ![] bcast_S_S50000x256 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x256_S800000x1_S800000x256_1_0_n_n_0_1_1256 x (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000)))))

/-- One GIN block on every row of `h`: Linear, batch norm with running statistics, ReLU, Linear, ReLU. -/
def mlpR (h : FVec F S50000x256 .f32) (W1 : FVec F S256x256 .f32) (b1 mm g v be : FVec F S256 .f32) (W2 : FVec F S256x256 .f32) (b2 : FVec F S256 .f32) : FVec F S50000x256 .f32 :=
  (maximumf (addf (Host.dotGeneral dot_S50000x256_S256x256_S50000x256_1_0_0_1_n_n none (maximumf (addf (mulf (subf (addf (Host.dotGeneral dot_S50000x256_S256x256_S50000x256_1_0_0_1_n_n none h W1) (broadcastInDim S50000x256 ![0, 1] bcast_S1x256_S50000x256_0_1 (broadcastInDim S1x256 ![1] bcast_S256_S1x256_1 b1))) (broadcastInDim S50000x256 ![0, 1] bcast_S1x256_S50000x256_0_1 (broadcastInDim S1x256 ![1] bcast_S256_S1x256_1 mm))) (broadcastInDim S50000x256 ![0, 1] bcast_S1x256_S50000x256_0_1 (broadcastInDim S1x256 ![1] bcast_S256_S1x256_1 (Host.divf g (Host.sqrt (addf v (broadcastInDim S256 ![] bcast_S_S256 (constant S_ .f32 0x3727C5AC#32)))))))) (broadcastInDim S50000x256 ![0, 1] bcast_S1x256_S50000x256_0_1 (broadcastInDim S1x256 ![1] bcast_S256_S1x256_1 be))) (broadcastInDim S50000x256 ![] bcast_S_S50000x256 (constant S_ .f32 0x00000000#32))) W2) (broadcastInDim S50000x256 ![0, 1] bcast_S1x256_S50000x256_0_1 (broadcastInDim S1x256 ![1] bcast_S256_S1x256_1 b2))) (broadcastInDim S50000x256 ![] bcast_S_S50000x256 (constant S_ .f32 0x00000000#32)))

/-- The sum of the rows of `h` per graph id. -/
def poolR (batch : IVec S50000 32) (h : FVec F S50000x256 .f32) : FVec F S500x256 .f32 :=
  Host.scatterAdd scatter_S500x256_S50000x1_S50000x256_1_0_0_1 (broadcastInDim S500x256 ![] bcast_S_S500x256 (constant S_ .f32 0x00000000#32)) (broadcastInDim S50000x1 ![0] bcast_S50000_S50000x1_0 batch) h

/-- The classifier and the log-softmax on the concatenated pooled features. -/
def tailOp (cat : FVec F S500x512 .f32) (a19 : FVec F S512x768 .f32) (a20 : FVec F S768 .f32) (a21 : FVec F S768x10 .f32) (a22 : FVec F S10 .f32) : FVec F S500x10 .f32 :=
  subf (subf (addf (Host.dotGeneral dot_S500x768_S768x10_S500x10_1_0_0_1_n_n none (maximumf (addf (Host.dotGeneral dot_S500x512_S512x768_S500x768_1_0_0_1_n_n none cat a19) (broadcastInDim S500x768 ![0, 1] bcast_S1x768_S500x768_0_1 (broadcastInDim S1x768 ![1] bcast_S768_S1x768_1 a20))) (broadcastInDim S500x768 ![] bcast_S_S500x768 (constant S_ .f32 0x00000000#32))) a21) (broadcastInDim S500x10 ![0, 1] bcast_S1x10_S500x10_0_1 (broadcastInDim S1x10 ![1] bcast_S10_S1x10_1 a22))) (broadcastInDim S500x10 ![0, 1] bcast_S500x1_S500x10_0_1 (broadcastInDim S500x1 ![0] bcast_S500_S500x1_0 (maximumf (broadcastInDim S500 ![] bcast_S_S500 (constant S_ .f32 0xFF800000#32)) (Host.reduce FloatOps.maximumf (addf (Host.dotGeneral dot_S500x768_S768x10_S500x10_1_0_0_1_n_n none (maximumf (addf (Host.dotGeneral dot_S500x512_S512x768_S500x768_1_0_0_1_n_n none cat a19) (broadcastInDim S500x768 ![0, 1] bcast_S1x768_S500x768_0_1 (broadcastInDim S1x768 ![1] bcast_S768_S1x768_1 a20))) (broadcastInDim S500x768 ![] bcast_S_S500x768 (constant S_ .f32 0x00000000#32))) a21) (broadcastInDim S500x10 ![0, 1] bcast_S1x10_S500x10_0_1 (broadcastInDim S1x10 ![1] bcast_S10_S1x10_1 a22))) (constant S_ .f32 0xFF800000#32) reducesTo_S500x10_S500_d1 h_S_))))) (broadcastInDim S500x10 ![0, 1] bcast_S500x1_S500x10_0_1 (Host.log (broadcastInDim S500x1 ![0] bcast_S500_S500x1_0 (Host.reduceAdd (Host.exp (subf (addf (Host.dotGeneral dot_S500x768_S768x10_S500x10_1_0_0_1_n_n none (maximumf (addf (Host.dotGeneral dot_S500x512_S512x768_S500x768_1_0_0_1_n_n none cat a19) (broadcastInDim S500x768 ![0, 1] bcast_S1x768_S500x768_0_1 (broadcastInDim S1x768 ![1] bcast_S768_S1x768_1 a20))) (broadcastInDim S500x768 ![] bcast_S_S500x768 (constant S_ .f32 0x00000000#32))) a21) (broadcastInDim S500x10 ![0, 1] bcast_S1x10_S500x10_0_1 (broadcastInDim S1x10 ![1] bcast_S10_S1x10_1 a22))) (broadcastInDim S500x10 ![0, 1] bcast_S500x1_S500x10_0_1 (broadcastInDim S500x1 ![0] bcast_S500_S500x1_0 (maximumf (broadcastInDim S500 ![] bcast_S_S500 (constant S_ .f32 0xFF800000#32)) (Host.reduce FloatOps.maximumf (addf (Host.dotGeneral dot_S500x768_S768x10_S500x10_1_0_0_1_n_n none (maximumf (addf (Host.dotGeneral dot_S500x512_S512x768_S500x768_1_0_0_1_n_n none cat a19) (broadcastInDim S500x768 ![0, 1] bcast_S1x768_S500x768_0_1 (broadcastInDim S1x768 ![1] bcast_S768_S1x768_1 a20))) (broadcastInDim S500x768 ![] bcast_S_S500x768 (constant S_ .f32 0x00000000#32))) a21) (broadcastInDim S500x10 ![0, 1] bcast_S1x10_S500x10_0_1 (broadcastInDim S1x10 ![1] bcast_S10_S1x10_1 a22))) (constant S_ .f32 0xFF800000#32) reducesTo_S500x10_S500_d1 h_S_)))))) (constant S_ .f32 0x00000000#32) reducesTo_S500x10_S500_d1 h_S_))))

/-- The first block's output on the arguments. -/
def h1R (a0 : FVec F S50000x256 .f32) (a1 : IVec S2x800000 32) (a3 : FVec F S256x256 .f32) (a4 a5 a6 a7 a8 : FVec F S256 .f32) (a9 : FVec F S256x256 .f32) (a10 : FVec F S256 .f32) : FVec F S50000x256 .f32 :=
  mlpR (addf a0 (aggOp a0 a1)) a3 a4 a7 a5 a8 a6 a9 a10

end Cert.ReferenceIdeal.Spec

end
-- ==== Proof.SpecEq.lean ====
/-
  The reference's composed result term is the composition of the four named maps of the specification.
-/
import proofs.«420545_j11647951307430_3_alg».proof.Proof.Spec
import proofs.«420545_j11647951307430_3_alg».proof.Proof.Gen.ReferenceIdeal.Run

noncomputable section

namespace Cert.ReferenceIdeal.Spec

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The reference's composed term is the composition of the four maps. -/
theorem res_eq (m : (ℓ : Loc nD τ sig) → Buf (Elt F) ℓ) (c : Dev nD) :
    Cert.ReferenceIdeal.Value.res_main_v88 m c =
      let a (r : Ref sig .tc) := m ((c.tc : Thread nD τ).loc r)
      let h1 : FVec F S50000x256 .f32 := h1R (a main_arg0) (a main_arg1) (a main_arg3) (a main_arg4) (a main_arg5) (a main_arg6) (a main_arg7) (a main_arg8) (a main_arg9) (a main_arg10)
      let h2 : FVec F S50000x256 .f32 := mlpR (addf h1 (aggOp h1 (a main_arg1))) (a main_arg11) (a main_arg12) (a main_arg15) (a main_arg13) (a main_arg16) (a main_arg14) (a main_arg17) (a main_arg18)
      tailOp (concatenate S500x512 1 [⟨S500x256, poolR (a main_arg2) h1⟩, ⟨S500x256, poolR (a main_arg2) h2⟩] concatenates_S500x256_S500x256_S500x512_d1) (a main_arg19) (a main_arg20) (a main_arg21) (a main_arg22) := by
  unfold Cert.ReferenceIdeal.Value.res_main_v88 tailOp poolR h1R mlpR aggOp
  rfl

end Cert.ReferenceIdeal.Spec

end
-- ==== Proof.KernelIdeal.Region0.lean ====
/- REGION 0 of @main (pallas_call 0, the first GIN layer's MLP over 50 row blocks), at a PARAMETER `V` — the
   TensorCore's buffer contents when the region is entered —: each window's block at a point (`iblk0`), what the body
   leaves in the output window's buffer as a function of the input blocks (`out0_8`), the body's triple
   (`sound_kernel0`), the pipeline's proof data (`dat0`) and the body obligation at every point (`body_obligation0`).
   The kernel loads its 8 input windows whole and stores its 1 output window whole, once. -/
import proofs.«420545_j11647951307430_3_alg».proof.Proof.Gen.KernelIdeal.Launch
import proofs.«420545_j11647951307430_3_alg».proof.Proof.Gen.KernelIdeal.Skeleton
import proofs.«420545_j11647951307430_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block index has
    not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): unfetched, the block index has
    not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): unfetched, the block index has
    not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s (`hA`) and whose body leaves the block in place (`hafter`): unfetched, the block index has
    not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is `V`'s (`hA`) and whose body leaves the block in place (`hafter`): unfetched, the block index has
    not moved; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1000x256 := Rect.unit (s := S1000x256) ![0, 0] S1000x256.size inb_S1000x256_S1000x256_0_0
abbrev r0_1 : Rect S256x256 := Rect.unit (s := S256x256) ![0, 0] S256x256.size inb_S256x256_S256x256_0_0
abbrev r0_2 : Rect S256 := Rect.unit (s := S256) ![0] S256.size inb_S256_S256_0

/-! ## What the body leaves in the output window's buffer -/

/-- Window 8's staging buffer after the body, from the input windows' blocks: its 1 store as a piece over the whole
    buffer, the payload the layer's value on the blocks read whole. -/
def out0_8 (x0 : Vec F S1000x256 .f32) (x1 : Vec F S1000x256 .f32) (x2 : Vec F S256x256 .f32) (x3 : Vec F S256 .f32) (x4 : Vec F S256 .f32) (x5 : Vec F S256 .f32) (x6 : Vec F S256x256 .f32) (x7 : Vec F S256 .f32) : Vec F S1000x256 .f32 :=
  View.canon [⟨r0_0, k0_pay1 (View.ld x0 r0_0) (View.ld x1 r0_0) (View.ld x2 r0_1) (View.ld x3 r0_2) (View.ld x4 r0_2) (View.ld x5 r0_2) (View.ld x6 r0_1) (View.ld x7 r0_2)⟩]

/-- The store tiles the buffer, so it covers it. -/
theorem cover0_8 (p0 : Vec F S1000x256 .f32) (y : S1000x256.Idx) :
    ∃ pc ∈ ([⟨r0_0, p0⟩] : List (View.Piece (Elt F) S1000x256 .f32)), y ∈ pc.1.set :=
  View.cover_of_tiled [⟨r0_0, p0⟩] S1000x256.size (by rfl) y

/-! ## The body's triple -/

set_option maxHeartbeats 4000000 in
/-- The kernel body on whole staging memrefs, the inputs' at read contents `xW` and the output's at anything, runs to
    the continuation holding the inputs' as they were and the output's at `out0_8` of the inputs': the printed function
    is its skeleton, a sequence of whole loads (the last one of the output buffer, its value unused) and one whole
    store. -/
theorem sound_kernel0 (c : Dev nD) (E : Set ℕ) (i : grid0.Coords) (arg0 : Memref sig .tc .vmem S1000x256 .f32) (harg0 : arg0.IsWhole) (arg1 : Memref sig .tc .vmem S1000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S1000x256 .f32) (harg8 : arg8.IsWhole)
    (x0 : Vec F S1000x256 .f32) (x1 : Vec F S1000x256 .f32) (x2 : Vec F S256x256 .f32) (x3 : Vec F S256 .f32) (x4 : Vec F S256 .f32) (x5 : Vec F S256 .f32) (x6 : Vec F S256x256 .f32) (x7 : Vec F S256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out0_8 x0 x1 x2 x3 x4 x5 x6 x7)) -∗ K ⟨⟩))
      ⊢ wp frame (wpE (defs₀ (F := F)) Variants.none c none) E (cc0__mlp_kernel i arg0 harg0 arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The pipeline's proof data -/

/-- The proof data of pipeline 0 on core `c`: the arrays as the region finds them (`V`); after the body at point `t`
    each input's buffer at its block and the output's at `out0_8` of the input blocks; the invariant the scoped rest
    and the core's pseudo-random number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks, so `sound_kernel0` applies; the invariant and the
    core's owed transfers pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdeal.Region1.Runs.lean ====
/- REGION 1 of @main (pallas_call 1: the second GIN layer's MLP and the add-pool over a grid of 2 groups of 25 row
   blocks), the kernel body's three CASE RUNS and what they share with the region's frame data: the body's two branch conditions
   as propositions over the grid coordinates, the two accumulators as memrefs, the launch's invariant with the
   accumulators split off the other scoped buffers; then, per control case (first point of a group / inside a group /
   last point of a group), the body's triple on whole memrefs with every buffer's final contents in closed form over the
   skeleton's payloads. -/
import proofs.«420545_j11647951307430_3_alg».proof.Proof.Gen.KernelIdeal.Launch
import proofs.«420545_j11647951307430_3_alg».proof.Proof.Gen.KernelIdeal.Skeleton
import proofs.«420545_j11647951307430_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first conditional (the accumulators' reset), from the grid coordinates: coordinate 1
    (the position in the group) is 0. -/
abbrev cond1_0 (i : grid1.Coords) : Prop := (Scalar.cmpi .ne (Scalar.extui (Scalar.cmpi .eq (BitVec.ofNat 32 (i 1).val) 0#32)) 0#32) = 1#1
/-- The condition of the body's second conditional (the outputs' store): coordinate 1 is 24. -/
abbrev cond1_1 (i : grid1.Coords) : Prop := k1_cond2 i = 1#1

/-- The zero offsets of a whole-buffer access of rank 1, of rank 2, and of rank 3. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The accumulators -/

/-- The two scratch operands: whole scoped buffers of the kernel's own, passed beside the windows; the kernel carries
    both between points. -/
abbrev scM1_0 : Memref sig .tc .vmem S512x256 .f32 := Memref.whole cc1_scratch0
abbrev scM1_1 : Memref sig .tc .vmem S512x256 .f32 := Memref.whole cc1_scratch1

/-- The core's scoped buffers that are neither a staging buffer of this call nor one of its two accumulators (the
    first call's staging buffers), each at some contents: carried unopened. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- What the launch hands the region, with the accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 (F := F) c) ∗ (∃ r, prngReg c r)) := by
  unfold Pipeline.ΦA
  rw [Pipeline.scopedRest_split_of_list spec1 c [cc1_scratch0, cc1_scratch1] (by decide) (by decide)]
  simp only [scM1_0, scM1_1, owns_whole]; try rfl

/-! ## Whole-buffer stores read back -/

/-- After a store through the whole-shape rectangle at zero offsets, made LAST, a buffer reads that store's payload,
    whatever the earlier stores and the prior contents were. -/
theorem read_store_whole {S : Shape} {e : EltTy} {sp : Space} {off : Fin S.rank → Nat} (hz : off = fun _ => 0)
    (inb : ∀ a, off a + S.size a ≤ S.size a) (v : View sig .tc sp S e) (f : v.ty.Contents (Elt F))
    (p : S.Idx → Elt F e) (L : List (View.Piece (Elt F) S e)) :
    v.read (Elt F) (v.writes (Elt F) f ((⟨Rect.unit off S.size inb, p⟩ : View.Piece (Elt F) S e) :: L)) = p := by
  rw [View.read_writes_eq_canon _ _ _ (fun y => ⟨_, List.Mem.head _, View.mem_set_unit_zero hz inb y⟩),
    View.canon_cons_unit_zero hz]

/-! ## The case runs -/

set_option maxHeartbeats 4000000 in
/-- CASE A (the first point of a group: the reset taken, the outputs' store not). On whole memrefs — the inputs' at
    their blocks, the two outputs' at contents `xi·` handed back untouched, the accumulators at anything — the body runs
    to the continuation holding the inputs' as they were and each accumulator at the reset value plus the point's
    pooled product. -/
theorem kernelRun1_A (c : Dev nD) (i : grid1.Coords) (arg2 : Memref sig .tc .vmem S1000x256 .f32) (harg2 : arg2.IsWhole) (arg3 : Memref sig .tc .vmem S1000x256 .f32) (harg3 : arg3.IsWhole) (arg4 : Memref sig .tc .vmem S1000x1 .i32) (harg4 : arg4.IsWhole) (arg5 : Memref sig .tc .vmem S256x256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S1x512x256 .f32) (harg11 : arg11.IsWhole) (arg12 : Memref sig .tc .vmem S1x512x256 .f32) (harg12 : arg12.IsWhole) (arg13 : Memref sig .tc .vmem S512x256 .f32) (harg13 : arg13.IsWhole) (arg14 : Memref sig .tc .vmem S512x256 .f32) (harg14 : arg14.IsWhole) (hc0 : cond1_0 i) (hc1 : ¬cond1_1 i)
    (x0 : Vec F S1000x256 .f32) (x1 : Vec F S1000x256 .f32) (x2 : Vec F S1000x1 .i32) (x3 : Vec F S256x256 .f32) (x4 : Vec F S256 .f32) (x5 : Vec F S256 .f32) (x6 : Vec F S256 .f32) (x7 : Vec F S256x256 .f32) (x8 : Vec F S256 .f32)
    (xi9 : Vec F S1x512x256 .f32) (xi10 : Vec F S1x512x256 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare xi9
        ∗ owns (c : Thread nD τ) arg12 fullShare xi10
        ∗ (∃ d, owns (c : Thread nD τ) arg13 fullShare d)
        ∗ (∃ d, owns (c : Thread nD τ) arg14 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare xi9
            ∗ owns (c : Thread nD τ) arg12 fullShare xi10
            ∗ owns (c : Thread nD τ) arg13 fullShare (k1_pay2 (k1_pay8 x0) x2 (k1_pay6 (F := F)))
            ∗ owns (c : Thread nD τ) arg14 fullShare (k1_pay3 (k1_pay9 x0 x1 x3 x4 x5 x6 x7 x8) x2 (k1_pay7 (F := F)))) -∗ K ⟨⟩))
      ⊢ wp frame (wpE (defs₀ (F := F)) Variants.none c none) E (cc1__mlp2_pool_kernel i arg2 harg2 arg3 harg3 arg4 harg4 arg5 harg5 arg6 harg6 arg7 harg7 arg8 harg8 arg9 harg9 arg10 harg10 arg11 harg11 arg12 harg12 arg13 harg13 arg14 harg14) K := by
  simp only [cc1__mlp2_pool_kernel_eq_skeleton]; unfold cc1__mlp2_pool_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HS0]
  · iexists _; isplitr
    swap; · iexact HS0
    ipureintro
    refine (read_store_whole hz2 _ _ _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
      View.readCov_unit_zero (S := S512x256) _ hz2,
      View.ld_unit_zero (S := S1000x256) hz2, View.ld_unit_zero (S := S1000x1) hz2, View.ld_unit_zero (S := S256x256) hz2,
      View.ld_unit_zero (S := S256) hz1, View.ld_unit_zero (S := S512x256) hz2, View.ld_unit_zero (S := S1x512x256) hz3]
  iexists _; isplitr
  swap; · iexact HS1
  ipureintro
  refine (read_store_whole hz2 _ _ _ _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.readCov_unit_zero (S := S512x256) _ hz2,
    View.ld_unit_zero (S := S1000x256) hz2, View.ld_unit_zero (S := S1000x1) hz2, View.ld_unit_zero (S := S256x256) hz2,
    View.ld_unit_zero (S := S256) hz1, View.ld_unit_zero (S := S512x256) hz2, View.ld_unit_zero (S := S1x512x256) hz3]

set_option maxHeartbeats 4000000 in
/-- CASE B (inside a group: neither conditional taken). On whole memrefs — the inputs' at their blocks, the two
    outputs' at contents `xi·` handed back untouched, the accumulators at what the point before left (`xs·`) — the body
    runs to the continuation holding the inputs' as they were and each accumulator at its old contents plus the point's
    pooled product. -/
theorem kernelRun1_B (c : Dev nD) (i : grid1.Coords) (arg2 : Memref sig .tc .vmem S1000x256 .f32) (harg2 : arg2.IsWhole) (arg3 : Memref sig .tc .vmem S1000x256 .f32) (harg3 : arg3.IsWhole) (arg4 : Memref sig .tc .vmem S1000x1 .i32) (harg4 : arg4.IsWhole) (arg5 : Memref sig .tc .vmem S256x256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S1x512x256 .f32) (harg11 : arg11.IsWhole) (arg12 : Memref sig .tc .vmem S1x512x256 .f32) (harg12 : arg12.IsWhole) (arg13 : Memref sig .tc .vmem S512x256 .f32) (harg13 : arg13.IsWhole) (arg14 : Memref sig .tc .vmem S512x256 .f32) (harg14 : arg14.IsWhole) (hc0 : ¬cond1_0 i) (hc1 : ¬cond1_1 i)
    (x0 : Vec F S1000x256 .f32) (x1 : Vec F S1000x256 .f32) (x2 : Vec F S1000x1 .i32) (x3 : Vec F S256x256 .f32) (x4 : Vec F S256 .f32) (x5 : Vec F S256 .f32) (x6 : Vec F S256 .f32) (x7 : Vec F S256x256 .f32) (x8 : Vec F S256 .f32)
    (xi9 : Vec F S1x512x256 .f32) (xi10 : Vec F S1x512x256 .f32) (xs0 : Vec F S512x256 .f32) (xs1 : Vec F S512x256 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare xi9
        ∗ owns (c : Thread nD τ) arg12 fullShare xi10
        ∗ owns (c : Thread nD τ) arg13 fullShare xs0
        ∗ owns (c : Thread nD τ) arg14 fullShare xs1
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare xi9
            ∗ owns (c : Thread nD τ) arg12 fullShare xi10
            ∗ owns (c : Thread nD τ) arg13 fullShare (k1_pay2 (k1_pay8 x0) x2 xs0)
            ∗ owns (c : Thread nD τ) arg14 fullShare (k1_pay3 (k1_pay9 x0 x1 x3 x4 x5 x6 x7 x8) x2 xs1)) -∗ K ⟨⟩))
      ⊢ wp frame (wpE (defs₀ (F := F)) Variants.none c none) E (cc1__mlp2_pool_kernel i arg2 harg2 arg3 harg3 arg4 harg4 arg5 harg5 arg6 harg6 arg7 harg7 arg8 harg8 arg9 harg9 arg10 harg10 arg11 harg11 arg12 harg12 arg13 harg13 arg14 harg14) K := by
  simp only [cc1__mlp2_pool_kernel_eq_skeleton]; unfold cc1__mlp2_pool_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HS0]
  · iexists _; isplitr
    swap; · iexact HS0
    ipureintro
    refine (read_store_whole hz2 _ _ _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
      View.readCov_unit_zero (S := S512x256) _ hz2,
      View.ld_unit_zero (S := S1000x256) hz2, View.ld_unit_zero (S := S1000x1) hz2, View.ld_unit_zero (S := S256x256) hz2,
      View.ld_unit_zero (S := S256) hz1, View.ld_unit_zero (S := S512x256) hz2, View.ld_unit_zero (S := S1x512x256) hz3]
  iexists _; isplitr
  swap; · iexact HS1
  ipureintro
  refine (read_store_whole hz2 _ _ _ _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.readCov_unit_zero (S := S512x256) _ hz2,
    View.ld_unit_zero (S := S1000x256) hz2, View.ld_unit_zero (S := S1000x1) hz2, View.ld_unit_zero (S := S256x256) hz2,
    View.ld_unit_zero (S := S256) hz1, View.ld_unit_zero (S := S512x256) hz2, View.ld_unit_zero (S := S1x512x256) hz3]

set_option maxHeartbeats 4000000 in
/-- CASE C (the last point of a group: the reset not taken, the outputs' store taken). On whole memrefs — the
    inputs' at their blocks, the two outputs' at anything, the accumulators at what the point before left (`xs·`) — the
    body runs to the continuation holding the inputs' as they were, each accumulator at its old contents plus the point's
    pooled product, and each output at its accumulator's copy. -/
theorem kernelRun1_C (c : Dev nD) (i : grid1.Coords) (arg2 : Memref sig .tc .vmem S1000x256 .f32) (harg2 : arg2.IsWhole) (arg3 : Memref sig .tc .vmem S1000x256 .f32) (harg3 : arg3.IsWhole) (arg4 : Memref sig .tc .vmem S1000x1 .i32) (harg4 : arg4.IsWhole) (arg5 : Memref sig .tc .vmem S256x256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S1x512x256 .f32) (harg11 : arg11.IsWhole) (arg12 : Memref sig .tc .vmem S1x512x256 .f32) (harg12 : arg12.IsWhole) (arg13 : Memref sig .tc .vmem S512x256 .f32) (harg13 : arg13.IsWhole) (arg14 : Memref sig .tc .vmem S512x256 .f32) (harg14 : arg14.IsWhole) (hc0 : ¬cond1_0 i) (hc1 : cond1_1 i)
    (x0 : Vec F S1000x256 .f32) (x1 : Vec F S1000x256 .f32) (x2 : Vec F S1000x1 .i32) (x3 : Vec F S256x256 .f32) (x4 : Vec F S256 .f32) (x5 : Vec F S256 .f32) (x6 : Vec F S256 .f32) (x7 : Vec F S256x256 .f32) (x8 : Vec F S256 .f32)
    (xs0 : Vec F S512x256 .f32) (xs1 : Vec F S512x256 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ (∃ d, owns (c : Thread nD τ) arg11 fullShare d)
        ∗ (∃ d, owns (c : Thread nD τ) arg12 fullShare d)
        ∗ owns (c : Thread nD τ) arg13 fullShare xs0
        ∗ owns (c : Thread nD τ) arg14 fullShare xs1
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare (k1_pay4 (k1_pay2 (k1_pay8 x0) x2 xs0))
            ∗ owns (c : Thread nD τ) arg12 fullShare (k1_pay5 (k1_pay3 (k1_pay9 x0 x1 x3 x4 x5 x6 x7 x8) x2 xs1))
            ∗ owns (c : Thread nD τ) arg13 fullShare (k1_pay2 (k1_pay8 x0) x2 xs0)
            ∗ owns (c : Thread nD τ) arg14 fullShare (k1_pay3 (k1_pay9 x0 x1 x3 x4 x5 x6 x7 x8) x2 xs1)) -∗ K ⟨⟩))
      ⊢ wp frame (wpE (defs₀ (F := F)) Variants.none c none) E (cc1__mlp2_pool_kernel i arg2 harg2 arg3 harg3 arg4 harg4 arg5 harg5 arg6 harg6 arg7 harg7 arg8 harg8 arg9 harg9 arg10 harg10 arg11 harg11 arg12 harg12 arg13 harg13 arg14 harg14) K := by
  simp only [cc1__mlp2_pool_kernel_eq_skeleton]; unfold cc1__mlp2_pool_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs0; obtain rfl := harg14.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    refine (read_store_whole hz3 _ _ _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
      View.readCov_unit_zero (S := S512x256) _ hz2,
      View.ld_unit_zero (S := S1000x256) hz2, View.ld_unit_zero (S := S1000x1) hz2, View.ld_unit_zero (S := S256x256) hz2,
      View.ld_unit_zero (S := S256) hz1, View.ld_unit_zero (S := S512x256) hz2, View.ld_unit_zero (S := S1x512x256) hz3]
  isplitl [H10]
  · iexists _; isplitr
    swap; · iexact H10
    ipureintro
    refine (read_store_whole hz3 _ _ _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
      View.readCov_unit_zero (S := S512x256) _ hz2,
      View.ld_unit_zero (S := S1000x256) hz2, View.ld_unit_zero (S := S1000x1) hz2, View.ld_unit_zero (S := S256x256) hz2,
      View.ld_unit_zero (S := S256) hz1, View.ld_unit_zero (S := S512x256) hz2, View.ld_unit_zero (S := S1x512x256) hz3]
  isplitl [HS0]
  · iexists _; isplitr
    swap; · iexact HS0
    ipureintro
    refine (read_store_whole hz2 _ _ _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
      View.readCov_unit_zero (S := S512x256) _ hz2,
      View.ld_unit_zero (S := S1000x256) hz2, View.ld_unit_zero (S := S1000x1) hz2, View.ld_unit_zero (S := S256x256) hz2,
      View.ld_unit_zero (S := S256) hz1, View.ld_unit_zero (S := S512x256) hz2, View.ld_unit_zero (S := S1x512x256) hz3]
  iexists _; isplitr
  swap; · iexact HS1
  ipureintro
  refine (read_store_whole hz2 _ _ _ _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.readCov_unit_zero (S := S512x256) _ hz2,
    View.ld_unit_zero (S := S1000x256) hz2, View.ld_unit_zero (S := S1000x1) hz2, View.ld_unit_zero (S := S256x256) hz2,
    View.ld_unit_zero (S := S256) hz1, View.ld_unit_zero (S := S512x256) hz2, View.ld_unit_zero (S := S1x512x256) hz3]

end Cert.KernelIdeal.Hand

end
-- ==== Proof.KernelIdeal.Region1.lean ====
/- REGION 1 of @main (pallas_call 1: the second GIN layer's MLP and the add-pool over a grid of 2 groups of 25 row
   blocks), at a PARAMETER `V` — the TensorCore's buffer contents when the region is entered —: each window's block at a
   point (`iblk1`); what the two output windows' buffers and the two accumulators the kernel carries between points hold
   after each point (`outsAt1`, with its equations at the first point of a group, inside a group, and at its last
   point); the pipeline's proof data (`dat1`), whose invariant tracks the accumulators; and the body obligation at every
   point (`body_obligation1`) by the three case runs of the kernel body. -/
import proofs.«420545_j11647951307430_3_alg».proof.Proof.KernelIdeal.Region1.Runs

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index has
    not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index has
    not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index has
    not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block index has
    not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block index has
    not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): unfetched, the block index has
    not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): unfetched, the block index has
    not moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s (`hA`) and whose body leaves the block in place (`hafter`): unfetched, the block index has
    not moved; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is `V`'s (`hA`) and whose body leaves the block in place (`hafter`): unfetched, the block index has
    not moved; the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, in closed form over the grid (50 points: 2 groups of 25) -/

/-- At the points ≡ 0 (mod 25) — the first of each group — the first conditional (the accumulators' reset) is taken. -/
theorem hcond1_0 : ∀ t : Fin cfg1.N, cond1_0 (grid1.coords t) ↔ t.val % 25 = 0 :=
  (by decide +kernel : ∀ t : Fin grid1.N, cond1_0 (grid1.coords t) ↔ t.val % 25 = 0)
/-- At the points ≡ 24 (mod 25) — the last of each group — the second conditional (the outputs' store) is taken. -/
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
/-- Off the last point of a group the configuration calls the two outputs idle, and the pipeline does not write them back. -/
theorem idleAt1_9 : ∀ t : Fin cfg1.N, ¬cond1_1 (grid1.coords t) → cfg1.idle 9 (grid1.coords t) = true := by decide +kernel
theorem idleAt1_10 : ∀ t : Fin cfg1.N, ¬cond1_1 (grid1.coords t) → cfg1.idle 10 (grid1.coords t) = true := by decide +kernel
theorem noFlush1_9 : ∀ t : Fin cfg1.N, ¬cond1_1 (grid1.coords t) → (cfg1.win 9).flush t = false := by decide +kernel
theorem noFlush1_10 : ∀ t : Fin cfg1.N, ¬cond1_1 (grid1.coords t) → (cfg1.win 10).flush t = false := by decide +kernel
/-- At the last point of a group they are live: the body stores them whole. -/
theorem liveAt1_9 : ∀ t : Fin cfg1.N, cond1_1 (grid1.coords t) → cfg1.idle 9 (grid1.coords t) = false := by decide +kernel
theorem liveAt1_10 : ∀ t : Fin cfg1.N, cond1_1 (grid1.coords t) → cfg1.idle 10 (grid1.coords t) = false := by decide +kernel

/-! ## What the outputs' buffers and the two accumulators hold after each point -/

/-- Accumulator 13 after the body at point `t`, from what it held when the addition began (`a`): `a` plus the
    pooled one-hot product of the point's `x` block (window 0) with its `batch` block (window 2). -/
abbrev scr13 (c : Dev nD) (t : Fin cfg1.N) (a : Vec F S512x256 .f32) : Vec F S512x256 .f32 :=
  k1_pay2 (k1_pay8 (iblk1 V c 0 t)) (iblk1 V c 2 t) a
/-- Accumulator 14 after the body at point `t`, from what it held when the addition began (`a`): `a` plus the
    pooled one-hot product of the point's second-layer MLP output (windows 0, 1, 3 to 8) with its `batch` block. -/
abbrev scr14 (c : Dev nD) (t : Fin cfg1.N) (a : Vec F S512x256 .f32) : Vec F S512x256 .f32 :=
  k1_pay3 (k1_pay9 (iblk1 V c 0 t) (iblk1 V c 1 t) (iblk1 V c 3 t) (iblk1 V c 4 t) (iblk1 V c 5 t) (iblk1 V c 6 t) (iblk1 V c 7 t) (iblk1 V c 8 t)) (iblk1 V c 2 t) a

/-- THE ACCUMULATION. After the body at position `n`: (output window 9's buffer, output window 10's buffer), (accumulator
    13, accumulator 14). At the first point of a group the accumulators restart from the reset value; elsewhere from what
    the point before left. At the last point of a group the outputs are the accumulators' copies; elsewhere (the
    windows idle, not written back) they keep the previous point's entry — at point 0 a placeholder nothing consults. -/
def outsAt1 (c : Dev nD) : (n : ℕ) → n < cfg1.N →
    (Vec F S1x512x256 .f32 × Vec F S1x512x256 .f32) × (Vec F S512x256 .f32 × Vec F S512x256 .f32)
  | 0, hn => ((k1_pay4 (k1_pay6 (F := F)), k1_pay5 (k1_pay7 (F := F))),
      (scr13 V c ⟨0, hn⟩ (k1_pay6 (F := F)), scr14 V c ⟨0, hn⟩ (k1_pay7 (F := F))))
  | n + 1, hn =>
    if h0 : (n + 1) % 25 = 0 then
      ((outsAt1 c n (Nat.lt_of_succ_lt hn)).1,
        (scr13 V c ⟨n + 1, hn⟩ (k1_pay6 (F := F)), scr14 V c ⟨n + 1, hn⟩ (k1_pay7 (F := F))))
    else
      if h1 : (n + 1) % 25 = 24 then
        ((k1_pay4 (scr13 V c ⟨n + 1, hn⟩ (outsAt1 c n (Nat.lt_of_succ_lt hn)).2.1),
          k1_pay5 (scr14 V c ⟨n + 1, hn⟩ (outsAt1 c n (Nat.lt_of_succ_lt hn)).2.2)),
         (scr13 V c ⟨n + 1, hn⟩ (outsAt1 c n (Nat.lt_of_succ_lt hn)).2.1,
          scr14 V c ⟨n + 1, hn⟩ (outsAt1 c n (Nat.lt_of_succ_lt hn)).2.2))
      else
        ((outsAt1 c n (Nat.lt_of_succ_lt hn)).1,
         (scr13 V c ⟨n + 1, hn⟩ (outsAt1 c n (Nat.lt_of_succ_lt hn)).2.1,
          scr14 V c ⟨n + 1, hn⟩ (outsAt1 c n (Nat.lt_of_succ_lt hn)).2.2))

/-- The entry of the point before `t` (of `t` itself at point 0, where nothing reads it). -/
abbrev prevAt1 (c : Dev nD) (t : Fin cfg1.N) :=
  outsAt1 V c (t.val - 1) (Nat.lt_of_le_of_lt (Nat.sub_le _ _) t.isLt)

/-- `outsAt1` at the first point of a group (case A): the accumulators restart from the reset value. -/
theorem outsAt1_A (c : Dev nD) (t : Fin cfg1.N) (h0 : t.val % 25 = 0) :
    (outsAt1 V c t.val t.isLt).2 = (scr13 V c t (k1_pay6 (F := F)), scr14 V c t (k1_pay7 (F := F))) := by
  obtain ⟨n, hn⟩ := t
  cases n with
  | zero => rfl
  | succ n => exact congrArg Prod.snd (dif_pos h0)

/-- `outsAt1` at a point neither first nor last of its group (case B): the accumulators go on from the point before;
    the outputs' entry is the previous point's. -/
theorem outsAt1_B (c : Dev nD) (t : Fin cfg1.N) (h0 : ¬t.val % 25 = 0) (h1 : ¬t.val % 25 = 24) :
    outsAt1 V c t.val t.isLt = ((prevAt1 V c t).1,
      (scr13 V c t (prevAt1 V c t).2.1, scr14 V c t (prevAt1 V c t).2.2)) := by
  obtain ⟨n, hn⟩ := t
  cases n with
  | zero => exact absurd (Nat.zero_mod _) h0
  | succ n => exact (dif_neg h0).trans (dif_neg h1)

/-- `outsAt1` at the last point of a group (case C): the accumulators go on from the point before, and the outputs are
    their copies. -/
theorem outsAt1_C (c : Dev nD) (t : Fin cfg1.N) (h1 : t.val % 25 = 24) :
    outsAt1 V c t.val t.isLt =
      ((k1_pay4 (scr13 V c t (prevAt1 V c t).2.1), k1_pay5 (scr14 V c t (prevAt1 V c t).2.2)),
       (scr13 V c t (prevAt1 V c t).2.1, scr14 V c t (prevAt1 V c t).2.2)) := by
  obtain ⟨n, hn⟩ := t
  cases n with
  | zero =>
    have h1' : 0 % 25 = 24 := h1
    exact absurd h1' (by decide)
  | succ n =>
    have h1' : (n + 1) % 25 = 24 := h1
    have h0' : ¬(n + 1) % 25 = 0 := by omega
    exact (dif_neg h0').trans (dif_pos h1')

/-! ## The accumulators in the region invariant -/

/-- The region invariant before position `n`: before the first point what the launch hands the region (every scoped
    buffer that is no staging buffer at anything, the generator register at some state); afterwards the two accumulators
    at what the point before left in them (`outsAt1`'s accumulator components), the other scoped buffers at anything,
    and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2)) ∗ rest1 (F := F) c) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2)) ∗ rest1 (F := F) c) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the two outputs' at `outsAt1`'s output components; the invariant `PhiS1`
    (the accumulators tracked point by point); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1.1
    | ⟨10, _⟩ => (outsAt1 V c t.val t.isLt).1.2
  Φ t := PhiS1 V c t.val (Nat.le_of_lt_succ t.isLt)
  q _ := fullShare
  owed _ := 0

/-- The proof data's arrays are the region-entry contents (the definition projected, never unfolding `V`). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1.1 := by dsimp only [dat1]
theorem after1_10 (c : Dev nD) (t : Fin cfg1.N) : (dat1 V c).after 10 t = (outsAt1 V c t.val t.isLt).1.2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 4800000 in
/-- The body at any point: the inputs' memrefs hold their blocks (`before1_W`); the closed forms of the two conditions
    say which case the point is in, and that case's run applies; the invariant hands the body the two accumulators at what
    the point before left (at anything at the first point, where the reset overwrites them) and takes them back at this
    point's contents; off the last point of a group the outputs' buffers are handed back as found; the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  rw [show (dat1 V c).leavesExact 7 t = owns (c : Thread nD τ) (st1_7 t) fullShare ((dat1 V c).after 7 t) from by
    unfold Dat.leavesExact; rw [liveAt1_7 t], after1_7]
  rw [show (dat1 V c).leavesExact 8 t = owns (c : Thread nD τ) (st1_8 t) fullShare ((dat1 V c).after 8 t) from by
    unfold Dat.leavesExact; rw [liveAt1_8 t], after1_8]
  by_cases h0 : t.val % 25 = 0
  · -- the first point of a group
    have hc0 : cond1_0 (grid1.coords t) := (hcond1_0 t).mpr h0
    have hc1 : ¬cond1_1 (grid1.coords t) := fun h => by have := (hcond1_1 t).mp h; omega
    rw [Dat.leavesExact_idle (dat1 V c) 9 t (idleAt1_9 t hc1) (noFlush1_9 t hc1),
      Dat.leavesExact_idle (dat1 V c) 10 t (idleAt1_10 t hc1) (noFlush1_10 t hc1)]
    rw [outsAt1_A V c t h0]
    dsimp only
    by_cases hz : t.val = 0
    · rw [PhiS1_castSucc V c t, PhiS1_zero V c _ _ hz, PhiA1_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (kernelRun1_A c (grid1.coords t) _ _ _ _ _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10
    · rw [PhiS1_castSucc V c t, PhiS1_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (kernelRun1_A c (grid1.coords t) _ _ _ _ _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexists _; iexact HS0
      isplitl [HS1]; · iexists _; iexact HS1
      iintro ⟨H0, H1, H2, H3, H4, H5, H6, H7, H8, H9, H10, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10
  · have hc0 : ¬cond1_0 (grid1.coords t) := fun h => h0 ((hcond1_0 t).mp h)
    have hz : t.val ≠ 0 := fun e => h0 (by rw [e])
    by_cases h1 : t.val % 25 = 24
    · -- the last point of a group
      have hc1 : cond1_1 (grid1.coords t) := (hcond1_1 t).mpr h1
      rw [show (dat1 V c).leavesExact 9 t = owns (c : Thread nD τ) (st1_9 t) fullShare ((dat1 V c).after 9 t) from by
      unfold Dat.leavesExact; rw [liveAt1_9 t hc1], after1_9,
      show (dat1 V c).leavesExact 10 t = owns (c : Thread nD τ) (st1_10 t) fullShare ((dat1 V c).after 10 t) from by
      unfold Dat.leavesExact; rw [liveAt1_10 t hc1], after1_10]
      rw [outsAt1_C V c t h1]
      dsimp only
      rw [PhiS1_castSucc V c t, PhiS1_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (kernelRun1_C c (grid1.coords t) _ _ _ _ _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) ((prevAt1 V c t).2.1) ((prevAt1 V c t).2.2) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · -- inside a group
      have hc1 : ¬cond1_1 (grid1.coords t) := fun h => h1 ((hcond1_1 t).mp h)
      rw [Dat.leavesExact_idle (dat1 V c) 9 t (idleAt1_9 t hc1) (noFlush1_9 t hc1),
      Dat.leavesExact_idle (dat1 V c) 10 t (idleAt1_10 t hc1) (noFlush1_10 t hc1)]
      rw [outsAt1_B V c t h0 h1]
      dsimp only
      rw [PhiS1_castSucc V c t, PhiS1_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (kernelRun1_B c (grid1.coords t) _ _ _ _ _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) _ _ ((prevAt1 V c t).2.1) ((prevAt1 V c t).2.2) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 50 := N_1; omega)

end Region1

end Cert.KernelIdeal.Hand

end
-- ==== Proof.KernelIdeal.Run.lean ====
/- THE RUN of @main over its eight items, at any float instance: the contents the two kernel regions leave in the
   buffers they write (`outs`), each region as a segment between the buffer contents before it and after it
   (`reg0`, `reg1`), and the launch: every weakly fair execution terminates and every unscoped buffer of every core
   ends at the last contents `Gen.V8 m (outs m ρ)` (`run_all`); hence every argument ends as launched (`frame`) and the
   result buffer ends at its last contents (`result_v53`). -/
import proofs.«420545_j11647951307430_3_alg».proof.Proof.KernelIdeal.Region0
import proofs.«420545_j11647951307430_3_alg».proof.Proof.KernelIdeal.Region1
import proofs.«420545_j11647951307430_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided memberships among the program's references recurse past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents the regions leave -/

/-- Region 0's entry contents at the TensorCore's references: the launch memory after the first host stretch. -/
abbrev ent0 : (c : Dev nD) → (b : Ref sig .tc) → Buf (Elt F) ((c : Thread nD τ).loc b) := fun c b => Gen.V1 m c b

/-- At region 0's exit: its arrays at what the write-backs of all points leave (an input's as entered), every other
    buffer as entered. -/
def X2 (c : Dev nD) : Valuation τ sig (Elt F) :=
  Pipeline.withArrays spec0 c (Gen.V1 m c) fun w => (dat0 (ent0 m) c).arrAt w cfg0.N
theorem X2_arr (c : Dev nD) (w : Fin cfg0.W) :
    X2 m c (Proc.devRef .tc (Pipeline.arrRef spec0 w)) = (dat0 (ent0 m) c).arrAt w cfg0.N := by
  unfold X2; exact Pipeline.withArrays_arr spec0 launch0.win.arr_inj c _ _ w

/-- What region 0 leaves, read at every reference: all that the contents before region 1 depend on. -/
def outsA : Gen.Outs (F := F) := fun _ r c => X2 m c (Proc.devRef .tc r)

/-- Region 1's entry contents at the TensorCore's references: region 0's exit contents after the second host stretch. -/
abbrev ent1 : (c : Dev nD) → (b : Ref sig .tc) → Buf (Elt F) ((c : Thread nD τ).loc b) := fun c b => Gen.V3 m (outsA m) c b

/-- At region 1's exit: its arrays at what the write-backs of all points leave (an input's as entered; an output's
    block is written back only at the last point of its core's half of the grid), every other buffer as entered. -/
def X4 (c : Dev nD) : Valuation τ sig (Elt F) :=
  Pipeline.withArrays spec1 c (Gen.V3 m (outsA m) c) fun w => (dat1 (ent1 m) c).arrAt w cfg1.N
theorem X4_arr (c : Dev nD) (w : Fin cfg1.W) :
    X4 m c (Proc.devRef .tc (Pipeline.arrRef spec1 w)) = (dat1 (ent1 m) c).arrAt w cfg1.N := by
  unfold X4; exact Pipeline.withArrays_arr spec1 launch1.win.arr_inj c _ _ w

/-- THE CONTENTS THE REGIONS LEAVE: after item 1 (region 0) the exit contents `X2`, after item 3 (region 1) the exit
    contents `X4`, each read at the reference asked for. -/
def outs (ρ : Dev nD → PrngReg) : Gen.Outs (F := F) := fun J r c =>
  if J = 2 then X2 m c (Proc.devRef .tc r) else X4 m c (Proc.devRef .tc r)

variable (ρ : Dev nD → PrngReg)

theorem outs_two (r : Ref sig .tc) (c : Dev nD) : outs m ρ 2 r c = X2 m c (Proc.devRef .tc r) := if_pos rfl
theorem outs_four (r : Ref sig .tc) (c : Dev nD) : outs m ρ 4 r c = X4 m c (Proc.devRef .tc r) := if_neg (by decide)

/-- The contents before region 1 read only what region 0 leaves. -/
theorem V3_outs (c : Dev nD) : Gen.V3 m (outs m ρ) c = Gen.V3 m (outsA m) c := rfl

theorem ent1_eq : (fun (c : Dev nD) (b : Ref sig .tc) => Gen.V3 m (outs m ρ) c b) = ent1 m :=
  funext fun c => funext fun b => congrFun (V3_outs m ρ c) _

/-- Region 0 leaves in `main_v20` what its write-backs leave in window 8's array. -/
theorem outs_v20 (c : Dev nD) : outs m ρ 2 main_v20 c = (dat0 (fun c b => Gen.V1 m c b) c).arrAt 8 cfg0.N :=
  (outs_two m ρ main_v20 c).trans (X2_arr m c 8)

/-- Region 1 leaves in `main_v38_0` what its write-backs leave in window 9's array, -/
theorem outs_v38_0 (c : Dev nD) :
    outs m ρ 4 main_v38_0 c = (dat1 (fun c b => Gen.V3 m (outs m ρ) c b) c).arrAt 9 cfg1.N := by
  rw [ent1_eq]; exact (outs_four m ρ main_v38_0 c).trans (X4_arr m c 9)

/-- and in `main_v38_1` what they leave in window 10's array. -/
theorem outs_v38_1 (c : Dev nD) :
    outs m ρ 4 main_v38_1 c = (dat1 (fun c b => Gen.V3 m (outs m ρ) c b) c).arrAt 10 cfg1.N := by
  rw [ent1_eq]; exact (outs_four m ρ main_v38_1 c).trans (X4_arr m c 10)

/-! ## The exit contents against the regions' arrays -/

/-- Region 0's exit contents at the TensorCore's references. -/
abbrev ex0 : (c : Dev nD) → (b : Ref sig .tc) → Buf (Elt F) ((c : Thread nD τ).loc b) := fun c b => Gen.V2 m (outs m ρ) c b
/-- Region 1's exit contents at the TensorCore's references. -/
abbrev ex1 : (c : Dev nD) → (b : Ref sig .tc) → Buf (Elt F) ((c : Thread nD τ).loc b) := fun c b => Gen.V4 m (outs m ρ) c b

/-- At region 0's exit each of its arrays holds what the write-backs leave: the output's by the definition of `outs`,
    an input's its entry contents, which the exit contents keep. -/
theorem hF0 (c : Dev nD) (w : Fin cfg0.W) : (dat0 (ent0 m) c).arrAt w cfg0.N = ex0 m ρ c (Pipeline.arrRef spec0 w) := by
  by_cases h8 : w = 8
  · subst h8
    show (dat0 (ent0 m) c).arrAt 8 cfg0.N
      = Function.update (Gen.V1 m c) (Proc.devRef .tc main_v20) (outs m ρ 2 main_v20 c) (Proc.devRef .tc main_v20)
    rw [Function.update_self]
    exact (outs_v20 m ρ c).symm
  · have hin : (cfg0.win w).isOut = false := by revert w; decide
    have hne : Pipeline.arrRef spec0 w ∉ ([main_v20] : List (Ref sig .tc)) := by revert w; decide
    exact ((dat0 (ent0 m) c).arrAt_in w hin _).trans ((A_eq0 (ent0 m) c w).trans (Gen.V2_of m (outs m ρ) c _ hne).symm)
/-- Every other buffer holds at region 0's exit what it held at entry. -/
theorem hrest0 (c : Dev nD) : ∀ b, b ∉ Finset.univ.image (Pipeline.arrRef spec0) → ex0 m ρ c b = ent0 m c b :=
  fun b hb => Gen.V2_of m (outs m ρ) c b fun h =>
    hb (Finset.mem_image.mpr ⟨8, Finset.mem_univ _, (List.mem_singleton.mp h).symm ▸ rfl⟩)

/-- At region 1's exit each of its arrays holds what the write-backs leave: the two outputs' by the definition of
    `outs`, an input's its entry contents, which the exit contents keep. -/
theorem hF1 (c : Dev nD) (w : Fin cfg1.W) : (dat1 (ent1 m) c).arrAt w cfg1.N = ex1 m ρ c (Pipeline.arrRef spec1 w) := by
  by_cases h9 : w = 9
  · subst h9
    show (dat1 (ent1 m) c).arrAt 9 cfg1.N
      = Function.update (Function.update (Gen.V3 m (outs m ρ) c) (Proc.devRef .tc main_v38_0) (outs m ρ 4 main_v38_0 c))
          (Proc.devRef .tc main_v38_1) (outs m ρ 4 main_v38_1 c) (Proc.devRef .tc main_v38_0)
    rw [Function.update_of_ne (StableHlo.devRef_ne_of_ne (by decide)), Function.update_self]
    exact ((outs_four m ρ main_v38_0 c).trans (X4_arr m c 9)).symm
  · by_cases h10 : w = 10
    · subst h10
      show (dat1 (ent1 m) c).arrAt 10 cfg1.N
        = Function.update (Function.update (Gen.V3 m (outs m ρ) c) (Proc.devRef .tc main_v38_0) (outs m ρ 4 main_v38_0 c))
            (Proc.devRef .tc main_v38_1) (outs m ρ 4 main_v38_1 c) (Proc.devRef .tc main_v38_1)
      rw [Function.update_self]
      exact ((outs_four m ρ main_v38_1 c).trans (X4_arr m c 10)).symm
    · have hin : (cfg1.win w).isOut = false := by revert w; decide
      have hne : Pipeline.arrRef spec1 w ∉ ([main_v38_0, main_v38_1] : List (Ref sig .tc)) := by revert w; decide
      exact ((dat1 (ent1 m) c).arrAt_in w hin _).trans ((A_eq1 (ent1 m) c w).trans
        ((Gen.V4_of m (outs m ρ) c _ hne).trans (congrFun (V3_outs m ρ c) _)).symm)
/-- Every other buffer holds at region 1's exit what it held at entry. -/
theorem hrest1 (c : Dev nD) : ∀ b, b ∉ Finset.univ.image (Pipeline.arrRef spec1) → ex1 m ρ c b = ent1 m c b :=
  fun b hb => (Gen.V4_of m (outs m ρ) c b fun h => by
    rcases List.mem_cons.mp h with h | h
    · exact hb (Finset.mem_image.mpr ⟨9, Finset.mem_univ _, h.symm ▸ rfl⟩)
    · exact hb (Finset.mem_image.mpr ⟨10, Finset.mem_univ _, (List.mem_singleton.mp h).symm ▸ rfl⟩)).trans
    (congrFun (V3_outs m ρ c) _)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (ent0 m) c
  | ⟨1, _⟩ => fun c => dat1 (ent1 m) c
abbrev run𝒱 : Variants := Variants.none
/-- No core owes another anything: no level is assigned. -/
abbrev runL : GSem nD τ sig → Finset Unit := fun _ => ∅
abbrev runLv : GSem nD τ sig → Unit → ℕ := fun _ _ => 0
/-- What rides beside the buffers through every item: the core's generator register at some state (a region's
    invariant takes it in and gives it back) and the core owing nothing. -/
abbrev runR (c : Dev nD) : sProp 𝕄 := iprop((∃ r, prngReg c r) ∗ ∃ W, owes (c : Thread nD τ) (0 : CellTallies nD τ sig Unit) W)
/-- The same beside every item. -/
abbrev runE : Fin 3 → Dev nD → sProp 𝕄 := fun _ c => runR c
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may
-- unfold plain definitions in a metavariable's type
set_option backward.isDefEq.respectTransparency.types false in
/-- REGION 0 over the thread state: entered from every unscoped buffer at the contents before it, left at the contents
    after it. Its arrays are split out of the unscoped buffers and put back at what the write-backs leave; the generator
    register goes into the invariant and comes back; nothing is owed; the kernel has no semaphore of its own. -/
def reg0 : Pipeline.RegionSeg (pcfgs (F := F)) Gen.adm (pdats m) () defs₀ run𝒱 runL runLv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ runL runLv 0 fun _ _ => rfl
  pre c := iprop(StableHlo.held (c : Thread nD τ) (Pipeline.ucRefs τ sig) (Gen.V1 m c) ∗ runR c)
  post c := iprop(StableHlo.held (c : Thread nD τ) (Pipeline.ucRefs τ sig) (Gen.V2 m (outs m ρ) c) ∗ runR c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (ent0 m c) (ex0 m ρ c) ((pdats m 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at the contents before it, left at the contents
    after it. Its arrays are split out of the unscoped buffers and put back at what the write-backs leave; the generator
    register goes into the invariant and comes back; nothing is owed; the kernel has no semaphore of its own. -/
def reg1 : Pipeline.RegionSeg (pcfgs (F := F)) Gen.adm (pdats m) () defs₀ run𝒱 runL runLv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ runL runLv 1 fun _ _ => rfl
  pre c := iprop(StableHlo.held (c : Thread nD τ) (Pipeline.ucRefs τ sig) (Gen.V3 m (outsA m) c) ∗ runR c)
  post c := iprop(StableHlo.held (c : Thread nD τ) (Pipeline.ucRefs τ sig) (Gen.V4 m (outs m ρ) c) ∗ runR c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (ent1 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (ent1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (ent1 m c) (ex1 m ρ c) ((pdats m 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

-- the launch rule's implicit arguments are found by unifying its conclusion with this one, which takes unfolding
-- plain definitions in a metavariable's type
set_option backward.isDefEq.respectTransparency.types false in
/-- THE RUN: from any memory `m` with zero counters and generator registers `ρ`, every weakly fair execution of @main
    terminates, and in every final memory every unscoped buffer of every core holds the last contents: the host
    stretches fold `StableHlo.after` over the contents before them, the regions leave `outs`. -/
theorem run_all : θ_run defs (onTc (τ := τ) (main (F := F))) ⟨m, fun _ => 0, ρ⟩
    (fun r => ∀ c : Dev nD, ∀ b ∈ Pipeline.ucRefs τ sig, r.2.mem ((c : Thread nD τ).1, b) = Gen.V8 m (outs m ρ) c b) := by
  refine Pipeline.θ_run_regions_kit_dev (pcfgs (F := F)) Gen.adm (pdats m) () cellOf_inj emb₁ defs₀ run𝒱 runL runLv m ρ main
    (Gen.segs m (outs m ρ) run𝒱 runL runLv (runE (F := F)) () (pdats m) (reg0 m ρ) (reg1 m ρ))
    (fun c Q => by
      rewrite [main_chain c, Pipeline.Seg.run_eq_chain,
        show (Gen.segs m (outs m ρ) run𝒱 runL runLv (runE (F := F)) () (pdats m) (reg0 m ρ) (reg1 m ρ) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ runR c))
    (Tₙ := fun c => StableHlo.held (c : Thread nD τ) (Pipeline.ucRefs τ sig) (Gen.V8 m (outs m ρ) c))
    (hch := fun c => ⟨.rfl, .rfl, .rfl, .rfl, .rfl, .rfl, .rfl, .rfl,
      sep_mono .rfl (by iintro ⟨-, HO⟩; iexact HO)⟩)
    (hinit := by
      refine Pipeline.initEach runL runLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m (outs m ρ) c b)
    (hfin := fun c s' => by
      iintro ⟨Hh, HSI⟩
      unfold StableHlo.held
      imodintro
      iapply (pointsTo_read_all (Pipeline.ucRefs τ sig) (fun b => (((c : Thread nD τ)).1, b)) (Gen.V8 m (outs m ρ) c) s')
      isplitl [Hh] <;> iassumption)
    (hQ := fun s h c => h c)

/-- THE FRAME: every argument array ends as launched — no host stretch writes one and no region may change one, so the
    last contents at an argument walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨
    (h c _ (mem_uc main_arg0 (by decide))).trans (Gen.V8_main_arg0 m (outs m ρ) c),
    (h c _ (mem_uc main_arg1 (by decide))).trans (Gen.V8_main_arg1 m (outs m ρ) c),
    (h c _ (mem_uc main_arg2 (by decide))).trans (Gen.V8_main_arg2 m (outs m ρ) c),
    (h c _ (mem_uc main_arg3 (by decide))).trans (Gen.V8_main_arg3 m (outs m ρ) c),
    (h c _ (mem_uc main_arg4 (by decide))).trans (Gen.V8_main_arg4 m (outs m ρ) c),
    (h c _ (mem_uc main_arg5 (by decide))).trans (Gen.V8_main_arg5 m (outs m ρ) c),
    (h c _ (mem_uc main_arg6 (by decide))).trans (Gen.V8_main_arg6 m (outs m ρ) c),
    (h c _ (mem_uc main_arg7 (by decide))).trans (Gen.V8_main_arg7 m (outs m ρ) c),
    (h c _ (mem_uc main_arg8 (by decide))).trans (Gen.V8_main_arg8 m (outs m ρ) c),
    (h c _ (mem_uc main_arg9 (by decide))).trans (Gen.V8_main_arg9 m (outs m ρ) c),
    (h c _ (mem_uc main_arg10 (by decide))).trans (Gen.V8_main_arg10 m (outs m ρ) c),
    (h c _ (mem_uc main_arg11 (by decide))).trans (Gen.V8_main_arg11 m (outs m ρ) c),
    (h c _ (mem_uc main_arg12 (by decide))).trans (Gen.V8_main_arg12 m (outs m ρ) c),
    (h c _ (mem_uc main_arg13 (by decide))).trans (Gen.V8_main_arg13 m (outs m ρ) c),
    (h c _ (mem_uc main_arg14 (by decide))).trans (Gen.V8_main_arg14 m (outs m ρ) c),
    (h c _ (mem_uc main_arg15 (by decide))).trans (Gen.V8_main_arg15 m (outs m ρ) c),
    (h c _ (mem_uc main_arg16 (by decide))).trans (Gen.V8_main_arg16 m (outs m ρ) c),
    (h c _ (mem_uc main_arg17 (by decide))).trans (Gen.V8_main_arg17 m (outs m ρ) c),
    (h c _ (mem_uc main_arg18 (by decide))).trans (Gen.V8_main_arg18 m (outs m ρ) c),
    (h c _ (mem_uc main_arg19 (by decide))).trans (Gen.V8_main_arg19 m (outs m ρ) c),
    (h c _ (mem_uc main_arg20 (by decide))).trans (Gen.V8_main_arg20 m (outs m ρ) c),
    (h c _ (mem_uc main_arg21 (by decide))).trans (Gen.V8_main_arg21 m (outs m ρ) c),
    (h c _ (mem_uc main_arg22 (by decide))).trans (Gen.V8_main_arg22 m (outs m ρ) c)⟩) (run_all m ρ)

/-- THE RESULT: the result buffer ends at the last contents, beside every argument as launched. -/
theorem result_v53 : θ_run defs (onTc (τ := τ) (main (F := F))) ⟨m, fun _ => 0, ρ⟩ (fun r => ∀ c : Dev nD,
      r.2.mem ((c.tc : Thread nD τ).loc main_v53) = Gen.V8 m (outs m ρ) c main_v53
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨h c _ (mem_uc main_v53 (by decide)),
    (h c _ (mem_uc main_arg0 (by decide))).trans (Gen.V8_main_arg0 m (outs m ρ) c),
    (h c _ (mem_uc main_arg1 (by decide))).trans (Gen.V8_main_arg1 m (outs m ρ) c),
    (h c _ (mem_uc main_arg2 (by decide))).trans (Gen.V8_main_arg2 m (outs m ρ) c),
    (h c _ (mem_uc main_arg3 (by decide))).trans (Gen.V8_main_arg3 m (outs m ρ) c),
    (h c _ (mem_uc main_arg4 (by decide))).trans (Gen.V8_main_arg4 m (outs m ρ) c),
    (h c _ (mem_uc main_arg5 (by decide))).trans (Gen.V8_main_arg5 m (outs m ρ) c),
    (h c _ (mem_uc main_arg6 (by decide))).trans (Gen.V8_main_arg6 m (outs m ρ) c),
    (h c _ (mem_uc main_arg7 (by decide))).trans (Gen.V8_main_arg7 m (outs m ρ) c),
    (h c _ (mem_uc main_arg8 (by decide))).trans (Gen.V8_main_arg8 m (outs m ρ) c),
    (h c _ (mem_uc main_arg9 (by decide))).trans (Gen.V8_main_arg9 m (outs m ρ) c),
    (h c _ (mem_uc main_arg10 (by decide))).trans (Gen.V8_main_arg10 m (outs m ρ) c),
    (h c _ (mem_uc main_arg11 (by decide))).trans (Gen.V8_main_arg11 m (outs m ρ) c),
    (h c _ (mem_uc main_arg12 (by decide))).trans (Gen.V8_main_arg12 m (outs m ρ) c),
    (h c _ (mem_uc main_arg13 (by decide))).trans (Gen.V8_main_arg13 m (outs m ρ) c),
    (h c _ (mem_uc main_arg14 (by decide))).trans (Gen.V8_main_arg14 m (outs m ρ) c),
    (h c _ (mem_uc main_arg15 (by decide))).trans (Gen.V8_main_arg15 m (outs m ρ) c),
    (h c _ (mem_uc main_arg16 (by decide))).trans (Gen.V8_main_arg16 m (outs m ρ) c),
    (h c _ (mem_uc main_arg17 (by decide))).trans (Gen.V8_main_arg17 m (outs m ρ) c),
    (h c _ (mem_uc main_arg18 (by decide))).trans (Gen.V8_main_arg18 m (outs m ρ) c),
    (h c _ (mem_uc main_arg19 (by decide))).trans (Gen.V8_main_arg19 m (outs m ρ) c),
    (h c _ (mem_uc main_arg20 (by decide))).trans (Gen.V8_main_arg20 m (outs m ρ) c),
    (h c _ (mem_uc main_arg21 (by decide))).trans (Gen.V8_main_arg21 m (outs m ρ) c),
    (h c _ (mem_uc main_arg22 (by decide))).trans (Gen.V8_main_arg22 m (outs m ρ) c)⟩) (run_all m ρ)

end Cert.KernelIdeal.Hand

end
-- ==== Proof.PreFacts.lean ====
/-
  The precondition, decoded.

  The printed predicate is a conjunction, folded to the left, of one "all entries" test per float
  argument — `|x| < +∞` at every entry of arguments 0 and 3 … 22 — and of two positivity tests,
  `v + ε > 0` at every entry of arguments 8 and 16 (the two variances), `ε` the word `0x3727C5AC`
  (`10995116 · 2⁻⁴⁰`, the float nearest `1e-5`). On the extended reals `|x| < +∞` says `x` is a real.
  From these: the batch-norm scale `g / √(v + ε)` is a real at every entry.
-/
import proofs.«420545_j11647951307430_3_alg».proof.Pre_finite_inputs
import Idealize.ShloMosaic.Lib.ReduceAll
import Idealize.ShloMosaic.Lib.ValueIdx
import Idealize.ShloMosaic.PureOps.Ideal
import Mathlib.Data.EReal.Basic
import Mathlib.Data.EReal.Operations
import Mathlib.Analysis.Real.Sqrt

noncomputable section

namespace Cert.Hand

open Idealize.ShloMosaic Cert.Pre_finite_inputs

namespace PreDecode

/-! ## The three words the predicate carries -/

/-- The word `0x7F800000` denotes `+∞`. -/
theorem inf_word_eq : Ideal.ofBits .f32 0x7F800000#32 = (⊤ : EReal) := by
  simp [Ideal.ofBits, Ideal.ieee]

/-- The word `0x00000000` denotes `0`. -/
theorem zero_word_eq : Ideal.ofBits .f32 0x00000000#32 = (0 : EReal) := by
  simp [Ideal.ofBits, Ideal.ieee]

/-- The stabiliser's word `0x3727C5AC` denotes the real `10995116 · 2⁻⁴⁰`. -/
theorem eps_word_eq :
    Ideal.ofBits .f32 0x3727C5AC#32 = ((10995116 * ((2 : ℝ) ^ 40)⁻¹ : ℝ) : EReal) := by
  simp [Ideal.ofBits, Ideal.ieee]

/-- The stabiliser is a positive real. -/
theorem eps_word_pos : (0 : ℝ) < 10995116 * ((2 : ℝ) ^ 40)⁻¹ := by positivity

/-! ## One test, read back -/

theorem ofBool_eq_one_true {b : Bool} (h : BitVec.ofBool b = 1#1) : b = true := by
  cases b
  · exact absurd h (by decide)
  · rfl

/-- A conjunction of two `i1` vectors that is 1 at an index: both are. -/
theorem andi_apply_eq_one {s : Shape} {x y : IVec s 1} {j : s.Idx} (h : andi x y j = 1#1) :
    x j = 1#1 ∧ y j = 1#1 := IntOp.andi_eq_one.1 h

/-- `|x| < +∞` on the extended reals: `x` is a real. -/
theorem abs_lt_inf_real (x : EReal)
    (h : Ideal.cmp .olt (max x (-x)) (Ideal.ofBits .f32 0x7F800000#32) = 1#1) :
    ∃ r : ℝ, x = (r : EReal) := by
  rw [inf_word_eq] at h
  induction x using EReal.rec with
  | bot => simp [Ideal.cmp] at h
  | coe r => exact ⟨r, rfl⟩
  | top => simp [Ideal.cmp] at h

/-- "All entries have `|x| < +∞`" came out 1: every entry is a real. -/
theorem real_of_all {s : Shape} {axes : List (Fin s.rank)} (x : FVec Ideal s .f32)
    (dims : Fin S_.rank → Fin s.rank) (hb : S_.BroadcastsInDim s dims) (hr : s.ReducesTo axes S_)
    (hu : 0 < S_.numel) (init : IVec S_ 1) (j : S_.Idx)
    (h : Host.reduce IntOp.andi (cmpf .olt (Host.absf x)
      (broadcastInDim s dims hb (constant S_ .f32 0x7F800000#32))) init hr hu j = 1#1) :
    ∀ i, ∃ r : ℝ, x i = (r : EReal) := by
  intro i
  haveI : Subsingleton S_.Idx := ⟨fun a b => funext fun d => d.elim0⟩
  exact abs_lt_inf_real _ (Host.reduce_andi_all _ init hr hu j h i)

/-- "All entries have `v + ε > 0`" came out 1: every entry has. -/
theorem pos_of_all {s : Shape} {axes : List (Fin s.rank)} (v : FVec Ideal s .f32)
    (dims : Fin S_.rank → Fin s.rank) (hb hb' : S_.BroadcastsInDim s dims) (hr : s.ReducesTo axes S_)
    (hu : 0 < S_.numel) (init : IVec S_ 1) (j : S_.Idx)
    (h : Host.reduce IntOp.andi
      (cmpf .ogt (addf v (broadcastInDim s dims hb (constant S_ .f32 0x3727C5AC#32)))
        (broadcastInDim s dims hb' (constant S_ .f32 0x00000000#32))) init hr hu j = 1#1) :
    ∀ i, (0 : EReal) < v i + Ideal.ofBits .f32 0x3727C5AC#32 := by
  intro i
  haveI : Subsingleton S_.Idx := ⟨fun a b => funext fun d => d.elim0⟩
  have e : Ideal.cmp .ogt (v i + Ideal.ofBits .f32 0x3727C5AC#32)
      (Ideal.ofBits .f32 0x00000000#32) = 1#1 :=
    Host.reduce_andi_all _ init hr hu j h i
  rw [zero_word_eq] at e
  exact of_decide_eq_true (ofBool_eq_one_true e)

end PreDecode

open PreDecode

/-! ## The whole predicate -/

section
variable [Cert.Pre_finite_inputs.Facts]
variable {a0 : FVec Ideal S50000x256 .f32} {a1 : IVec S2x800000 32} {a2 : IVec S50000 32} {a3 : FVec Ideal S256x256 .f32} {a4 : FVec Ideal S256 .f32} {a5 : FVec Ideal S256 .f32} {a6 : FVec Ideal S256 .f32} {a7 : FVec Ideal S256 .f32} {a8 : FVec Ideal S256 .f32} {a9 : FVec Ideal S256x256 .f32} {a10 : FVec Ideal S256 .f32} {a11 : FVec Ideal S256x256 .f32} {a12 : FVec Ideal S256 .f32} {a13 : FVec Ideal S256 .f32} {a14 : FVec Ideal S256 .f32} {a15 : FVec Ideal S256 .f32} {a16 : FVec Ideal S256 .f32} {a17 : FVec Ideal S256x256 .f32} {a18 : FVec Ideal S256 .f32} {a19 : FVec Ideal S512x768 .f32} {a20 : FVec Ideal S768 .f32} {a21 : FVec Ideal S768x10 .f32} {a22 : FVec Ideal S10 .f32}

/-- The predicate is all ones: every float argument is real entrywise, and both variances plus the
    stabiliser are positive entrywise. -/
theorem pre_decode (hpre : Cert.Pre_finite_inputs.fn (F := Ideal) a0 a1 a2 a3 a4 a5 a6 a7 a8 a9 a10 a11 a12 a13 a14 a15 a16 a17 a18 a19 a20 a21 a22 = (fun _ => 1#1)) :
    (∀ i, ∃ r : ℝ, a0 i = (r : EReal))
    ∧ (∀ i, ∃ r : ℝ, a3 i = (r : EReal))
    ∧ (∀ i, ∃ r : ℝ, a4 i = (r : EReal))
    ∧ (∀ i, ∃ r : ℝ, a5 i = (r : EReal))
    ∧ (∀ i, ∃ r : ℝ, a6 i = (r : EReal))
    ∧ (∀ i, ∃ r : ℝ, a7 i = (r : EReal))
    ∧ (∀ i, ∃ r : ℝ, a8 i = (r : EReal))
    ∧ (∀ i, ∃ r : ℝ, a9 i = (r : EReal))
    ∧ (∀ i, ∃ r : ℝ, a10 i = (r : EReal))
    ∧ (∀ i, ∃ r : ℝ, a11 i = (r : EReal))
    ∧ (∀ i, ∃ r : ℝ, a12 i = (r : EReal))
    ∧ (∀ i, ∃ r : ℝ, a13 i = (r : EReal))
    ∧ (∀ i, ∃ r : ℝ, a14 i = (r : EReal))
    ∧ (∀ i, ∃ r : ℝ, a15 i = (r : EReal))
    ∧ (∀ i, ∃ r : ℝ, a16 i = (r : EReal))
    ∧ (∀ i, ∃ r : ℝ, a17 i = (r : EReal))
    ∧ (∀ i, ∃ r : ℝ, a18 i = (r : EReal))
    ∧ (∀ i, ∃ r : ℝ, a19 i = (r : EReal))
    ∧ (∀ i, ∃ r : ℝ, a20 i = (r : EReal))
    ∧ (∀ i, ∃ r : ℝ, a21 i = (r : EReal))
    ∧ (∀ i, ∃ r : ℝ, a22 i = (r : EReal))
    ∧ (∀ i, (0 : EReal) < a8 i + Ideal.ofBits .f32 0x3727C5AC#32)
    ∧ (∀ i, (0 : EReal) < a16 i + Ideal.ofBits .f32 0x3727C5AC#32) := by
  have h := congrFun hpre ValueIdx.ix0
  dsimp only [Cert.Pre_finite_inputs.fn, fn_part1, fn_part2, fn_part3, fn_part4, fn_part5, fn_part6] at h
  obtain ⟨h, p16⟩ := andi_apply_eq_one h
  obtain ⟨h, p8⟩ := andi_apply_eq_one h
  obtain ⟨h, r22⟩ := andi_apply_eq_one h
  obtain ⟨h, r21⟩ := andi_apply_eq_one h
  obtain ⟨h, r20⟩ := andi_apply_eq_one h
  obtain ⟨h, r19⟩ := andi_apply_eq_one h
  obtain ⟨h, r18⟩ := andi_apply_eq_one h
  obtain ⟨h, r17⟩ := andi_apply_eq_one h
  obtain ⟨h, r16⟩ := andi_apply_eq_one h
  obtain ⟨h, r15⟩ := andi_apply_eq_one h
  obtain ⟨h, r14⟩ := andi_apply_eq_one h
  obtain ⟨h, r13⟩ := andi_apply_eq_one h
  obtain ⟨h, r12⟩ := andi_apply_eq_one h
  obtain ⟨h, r11⟩ := andi_apply_eq_one h
  obtain ⟨h, r10⟩ := andi_apply_eq_one h
  obtain ⟨h, r9⟩ := andi_apply_eq_one h
  obtain ⟨h, r8⟩ := andi_apply_eq_one h
  obtain ⟨h, r7⟩ := andi_apply_eq_one h
  obtain ⟨h, r6⟩ := andi_apply_eq_one h
  obtain ⟨h, r5⟩ := andi_apply_eq_one h
  obtain ⟨h, r4⟩ := andi_apply_eq_one h
  obtain ⟨r0, r3⟩ := andi_apply_eq_one h
  exact ⟨real_of_all _ _ _ _ _ _ _ r0,
    real_of_all _ _ _ _ _ _ _ r3,
    real_of_all _ _ _ _ _ _ _ r4,
    real_of_all _ _ _ _ _ _ _ r5,
    real_of_all _ _ _ _ _ _ _ r6,
    real_of_all _ _ _ _ _ _ _ r7,
    real_of_all _ _ _ _ _ _ _ r8,
    real_of_all _ _ _ _ _ _ _ r9,
    real_of_all _ _ _ _ _ _ _ r10,
    real_of_all _ _ _ _ _ _ _ r11,
    real_of_all _ _ _ _ _ _ _ r12,
    real_of_all _ _ _ _ _ _ _ r13,
    real_of_all _ _ _ _ _ _ _ r14,
    real_of_all _ _ _ _ _ _ _ r15,
    real_of_all _ _ _ _ _ _ _ r16,
    real_of_all _ _ _ _ _ _ _ r17,
    real_of_all _ _ _ _ _ _ _ r18,
    real_of_all _ _ _ _ _ _ _ r19,
    real_of_all _ _ _ _ _ _ _ r20,
    real_of_all _ _ _ _ _ _ _ r21,
    real_of_all _ _ _ _ _ _ _ r22,
    pos_of_all _ _ _ _ _ _ _ _ p8,
    pos_of_all _ _ _ _ _ _ _ _ p16⟩

/-- Every entry of argument 0 is a real. -/
theorem pre_real0 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a0 j = (r : EReal) :=
  (pre_decode hpre).1

/-- Every entry of argument 3 is a real. -/
theorem pre_real3 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a3 j = (r : EReal) :=
  (pre_decode hpre).2.1

/-- Every entry of argument 4 is a real. -/
theorem pre_real4 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a4 j = (r : EReal) :=
  (pre_decode hpre).2.2.1

/-- Every entry of argument 5 is a real. -/
theorem pre_real5 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a5 j = (r : EReal) :=
  (pre_decode hpre).2.2.2.1

/-- Every entry of argument 6 is a real. -/
theorem pre_real6 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a6 j = (r : EReal) :=
  (pre_decode hpre).2.2.2.2.1

/-- Every entry of argument 7 is a real. -/
theorem pre_real7 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a7 j = (r : EReal) :=
  (pre_decode hpre).2.2.2.2.2.1

/-- Every entry of argument 8 is a real. -/
theorem pre_real8 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a8 j = (r : EReal) :=
  (pre_decode hpre).2.2.2.2.2.2.1

/-- Every entry of argument 9 is a real. -/
theorem pre_real9 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a9 j = (r : EReal) :=
  (pre_decode hpre).2.2.2.2.2.2.2.1

/-- Every entry of argument 10 is a real. -/
theorem pre_real10 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a10 j = (r : EReal) :=
  (pre_decode hpre).2.2.2.2.2.2.2.2.1

/-- Every entry of argument 11 is a real. -/
theorem pre_real11 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a11 j = (r : EReal) :=
  (pre_decode hpre).2.2.2.2.2.2.2.2.2.1

/-- Every entry of argument 12 is a real. -/
theorem pre_real12 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a12 j = (r : EReal) :=
  (pre_decode hpre).2.2.2.2.2.2.2.2.2.2.1

/-- Every entry of argument 13 is a real. -/
theorem pre_real13 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a13 j = (r : EReal) :=
  (pre_decode hpre).2.2.2.2.2.2.2.2.2.2.2.1

/-- Every entry of argument 14 is a real. -/
theorem pre_real14 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a14 j = (r : EReal) :=
  (pre_decode hpre).2.2.2.2.2.2.2.2.2.2.2.2.1

/-- Every entry of argument 15 is a real. -/
theorem pre_real15 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a15 j = (r : EReal) :=
  (pre_decode hpre).2.2.2.2.2.2.2.2.2.2.2.2.2.1

/-- Every entry of argument 16 is a real. -/
theorem pre_real16 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a16 j = (r : EReal) :=
  (pre_decode hpre).2.2.2.2.2.2.2.2.2.2.2.2.2.2.1

/-- Every entry of argument 17 is a real. -/
theorem pre_real17 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a17 j = (r : EReal) :=
  (pre_decode hpre).2.2.2.2.2.2.2.2.2.2.2.2.2.2.2.1

/-- Every entry of argument 18 is a real. -/
theorem pre_real18 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a18 j = (r : EReal) :=
  (pre_decode hpre).2.2.2.2.2.2.2.2.2.2.2.2.2.2.2.2.1

/-- Every entry of argument 19 is a real. -/
theorem pre_real19 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a19 j = (r : EReal) :=
  (pre_decode hpre).2.2.2.2.2.2.2.2.2.2.2.2.2.2.2.2.2.1

/-- Every entry of argument 20 is a real. -/
theorem pre_real20 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a20 j = (r : EReal) :=
  (pre_decode hpre).2.2.2.2.2.2.2.2.2.2.2.2.2.2.2.2.2.2.1

/-- Every entry of argument 21 is a real. -/
theorem pre_real21 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a21 j = (r : EReal) :=
  (pre_decode hpre).2.2.2.2.2.2.2.2.2.2.2.2.2.2.2.2.2.2.2.1

/-- Every entry of argument 22 is a real. -/
theorem pre_real22 (hpre : Cert.Pre_finite_inputs.fn (F := Ideal) a0 a1 a2 a3 a4 a5 a6 a7 a8 a9 a10 a11 a12 a13 a14 a15 a16 a17 a18 a19 a20 a21 a22 = (fun _ => 1#1)) :
    ∀ j, ∃ r : ℝ, a22 j = (r : EReal) :=
  (pre_decode hpre).2.2.2.2.2.2.2.2.2.2.2.2.2.2.2.2.2.2.2.2.1

/-- Every entry of argument 8 (the first layer's variance) plus the stabiliser is positive. -/
theorem pre_pos8 (hpre : Cert.Pre_finite_inputs.fn (F := Ideal) a0 a1 a2 a3 a4 a5 a6 a7 a8 a9 a10 a11 a12 a13 a14 a15 a16 a17 a18 a19 a20 a21 a22 = (fun _ => 1#1)) :
    ∀ j, (0 : EReal) < a8 j + Ideal.ofBits .f32 0x3727C5AC#32 :=
  (pre_decode hpre).2.2.2.2.2.2.2.2.2.2.2.2.2.2.2.2.2.2.2.2.2.1

/-- Every entry of argument 16 (the second layer's variance) plus the stabiliser is positive. -/
theorem pre_pos16 (hpre : Cert.Pre_finite_inputs.fn (F := Ideal) a0 a1 a2 a3 a4 a5 a6 a7 a8 a9 a10 a11 a12 a13 a14 a15 a16 a17 a18 a19 a20 a21 a22 = (fun _ => 1#1)) :
    ∀ j, (0 : EReal) < a16 j + Ideal.ofBits .f32 0x3727C5AC#32 :=
  (pre_decode hpre).2.2.2.2.2.2.2.2.2.2.2.2.2.2.2.2.2.2.2.2.2.2

end

/-! ## The batch-norm scale is a real -/

/-- With `g` and `v` real entrywise and `v + ε` positive entrywise, `g / √(v + ε)` is real entrywise:
    the square root of a positive real is a positive real, and a real over a nonzero real is a real. -/
theorem scale_real (g v : FVec Ideal S256 .f32) (dims : Fin S_.rank → Fin S256.rank)
    (hb : S_.BroadcastsInDim S256 dims)
    (hg : ∀ j, ∃ r : ℝ, g j = (r : EReal)) (hv : ∀ j, ∃ r : ℝ, v j = (r : EReal))
    (hpos : ∀ j, (0 : EReal) < v j + Ideal.ofBits .f32 0x3727C5AC#32) :
    ∀ j, ∃ r : ℝ, (Host.divf g (Host.sqrt (addf v
      (broadcastInDim S256 dims hb (constant S_ .f32 0x3727C5AC#32))))) j = (r : EReal) := by
  intro j
  obtain ⟨a, ha⟩ := hg j
  obtain ⟨b, hb'⟩ := hv j
  have hp := hpos j
  show ∃ r : ℝ, Ideal.div (g j) (Ideal.sqrt (v j + Ideal.ofBits .f32 0x3727C5AC#32)) = (r : EReal)
  rw [hb', eps_word_eq, ← EReal.coe_add, EReal.coe_pos] at hp
  rw [ha, hb', eps_word_eq, ← EReal.coe_add, Ideal.sqrt_coe, if_neg (not_lt.2 hp.le),
    Ideal.div_coe (Real.sqrt_pos.2 hp).ne', ← EReal.coe_mul]
  exact ⟨_, rfl⟩

end Cert.Hand
-- ==== Proof.BNLaw.lean ====
/-
  The batch-norm affine law on the extended reals.

  With a real mean `m` and a real scale `s`, folding the mean into the shift commutes with
  the centred form: `h * s + (β - m * s) = (h - m) * s + β` for EVERY extended real `h` and
  `β`, the infinite ones included. For `h` real every term but `β` is a real, and the sum
  is reassociated; for `h` infinite the product `h * s` is decided by the sign of `s`, and
  `h - m = h`.
-/
import Mathlib.Data.EReal.Basic
import Mathlib.Data.EReal.Operations

namespace Cert.Hand

/-- `⊤ + (β + c) = ⊤ + β` for a real `c`: both are `⊥` at `β = ⊥` and `⊤` otherwise. -/
theorem top_add_add_coe (β : EReal) (c : ℝ) : (⊤ : EReal) + (β + (c : EReal)) = ⊤ + β := by
  induction β using EReal.rec with
  | bot => rw [EReal.bot_add]
  | coe b => rw [← EReal.coe_add, EReal.top_add_coe, EReal.top_add_coe]
  | top => rw [EReal.top_add_coe]

/-- The batch-norm affine law, subtraction spelled `a + -b`. -/
theorem bn_law_neg (h β : EReal) (m s : ℝ) :
    h * (s : EReal) + (β + -((m : EReal) * (s : EReal)))
      = (h + -(m : EReal)) * (s : EReal) + β := by
  induction h using EReal.rec with
  | bot =>
    have hb : (⊥ : EReal) + -(m : EReal) = ⊥ := EReal.bot_add _
    rw [hb]
    rcases lt_trichotomy s 0 with hs | hs | hs
    · rw [EReal.bot_mul_coe_of_neg hs, ← EReal.coe_mul, ← EReal.coe_neg, top_add_add_coe]
    · subst hs
      rw [EReal.coe_zero, mul_zero, mul_zero, neg_zero, add_zero]
    · rw [EReal.bot_mul_coe_of_pos hs, EReal.bot_add, EReal.bot_add]
  | coe x =>
    rw [← EReal.coe_mul, ← EReal.coe_mul, ← EReal.coe_neg, ← EReal.coe_neg, ← EReal.coe_add,
      ← EReal.coe_mul, add_left_comm, ← EReal.coe_add, add_comm]
    congr 2
    ring
  | top =>
    have ht : (⊤ : EReal) + -(m : EReal) = ⊤ := by
      rw [← EReal.coe_neg]; exact EReal.top_add_coe _
    rw [ht]
    rcases lt_trichotomy s 0 with hs | hs | hs
    · rw [EReal.top_mul_coe_of_neg hs, EReal.bot_add, EReal.bot_add]
    · subst hs
      rw [EReal.coe_zero, mul_zero, mul_zero, neg_zero, add_zero]
    · rw [EReal.top_mul_coe_of_pos hs, ← EReal.coe_mul, ← EReal.coe_neg, top_add_add_coe]

/-- The batch-norm affine law: `h * s + (β - m * s) = (h - m) * s + β`, for every `h` and `β`. -/
theorem bn_law (h β : EReal) (m s : ℝ) :
    h * (s : EReal) + (β - (m : EReal) * (s : EReal)) = (h - (m : EReal)) * (s : EReal) + β := by
  rw [sub_eq_add_neg, sub_eq_add_neg]
  exact bn_law_neg h β m s

end Cert.Hand
-- ==== Proof.MlpRow.lean ====
/-
  One row of a GIN block's perceptron, as a function of the row and the parameters:
      rowMLP hrow W1 b1 sc sh W2 b2 q
        = max (Σ_k max ((Σ_j hrow j · W1[j,k] + b1[k]) · sc[k] + sh[k]) 0 · W2[k,q] + b2[q]) 0.
  Three reads end in it: the first region's body at an element (the row is the sum of the two loaded
  blocks' rows), the second region's body at an element, and the reference's block on 50000 rows, whose
  batch norm is written (h − mean) · (γ/√(var+ε)) + β: with a real mean and a real scale that is
  h · scale + (β − mean · scale), the form the kernel computes with the scale and the shift made on the host.
-/
import proofs.«420545_j11647951307430_3_alg».proof.Proof.Gen.KernelIdeal.Skeleton
import proofs.«420545_j11647951307430_3_alg».proof.Proof.Spec
import proofs.«420545_j11647951307430_3_alg».proof.Proof.BNLaw
import Idealize.ShloMosaic.Lib.Pipeline.Value
import Idealize.ShloMosaic.Lib.ValueIdx
import Idealize.ShloMosaic.Lib.ValueLayout
import Idealize.ShloMosaic.PureOps.Ideal.Laws

noncomputable section

namespace Cert.Hand

open Cert.KernelIdeal Cert.KernelIdeal.Gen Idealize.ShloMosaic Idealize.SL.Sem
open Idealize.ShloMosaic.ValueIdx

/-! ## The row function, the scale and the shift -/

/-- One row through Linear, the affine batch norm, ReLU, Linear, ReLU; column q of the result. -/
def rowMLP (hrow : Fin 256 → EReal) (W1 : FVec Ideal S256x256 .f32) (b1 sc sh : FVec Ideal S256 .f32)
    (W2 : FVec Ideal S256x256 .f32) (b2 : FVec Ideal S256 .f32) (q : Fin 256) : EReal :=
  max ((∑ k : Fin 256,
      max (((∑ j : Fin 256, hrow j * W1 (ix2 j k)) + b1 (ix1 k)) * sc (ix1 k) + sh (ix1 k)) 0 * W2 (ix2 k q))
    + b2 (ix1 q)) 0

/-- The batch norm's scale γ / √(var + ε), as the host computes it. -/
def scaleOf (g v : FVec Ideal S256 .f32) : FVec Ideal S256 .f32 :=
  Host.divf g (Host.sqrt (addf v (broadcastInDim S256 ![] bcast_S_S256 (constant (F := Ideal) S_ .f32 0x3727C5AC#32))))

/-- The batch norm's shift β − mean · scale, as the host computes it. -/
def shiftOf (be mm sc : FVec Ideal S256 .f32) : FVec Ideal S256 .f32 :=
  subf be (mulf mm sc)

/-! ## The contraction axes of the two products -/

theorem lhs_kdot_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhs_kdot_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
theorem rhs_kdot_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
theorem rhs_kdot_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- A block of 1000 rows times a 256 × 256 matrix, onto zero: the element (p, q) is the row's dot product
    with column q. -/
theorem kdot_apply (A : FVec Ideal S1000x256 .bf16) (B : FVec Ideal S256x256 .bf16) (p : Fin 1000) (q : Fin 256) :
    matmul dot_S1000x256_S256x256_S1000x256_1_0_0_1_n_n none A B (constant (F := Ideal) S1000x256 .f32 0x00000000#32) (ix2 p q)
      = ∑ k : Fin 256, A (ix2 p k) * B (ix2 k q) := by
  simp only [matmul]
  rw [Ideal.matmul_constant_zero_apply, ← Equiv.sum_comp (ValueIdx.contrEquiv1 dot_S1000x256_S256x256_S1000x256_1_0_0_1_n_n 256 rfl rfl).symm]
  refine Finset.sum_congr rfl fun k _ => ?_
  have hk := ValueIdx.contrEquiv1_symm_val dot_S1000x256_S256x256_S1000x256_1_0_0_1_n_n 256 rfl rfl k
  have el : dot_S1000x256_S256x256_S1000x256_1_0_0_1_n_n.lhsIdx (ix2 p q) ((ValueIdx.contrEquiv1 dot_S1000x256_S256x256_S1000x256_1_0_0_1_n_n 256 rfl rfl).symm k) = ix2 p k := funext fun a => Fin.ext (by
    match a with
    | ⟨0, _⟩ => exact lhs_kdot_0 _ _
    | ⟨1, _⟩ => exact (lhs_kdot_1 _ _).trans hk)
  have er : dot_S1000x256_S256x256_S1000x256_1_0_0_1_n_n.rhsIdx (ix2 p q) ((ValueIdx.contrEquiv1 dot_S1000x256_S256x256_S1000x256_1_0_0_1_n_n 256 rfl rfl).symm k) = ix2 k q := funext fun a => Fin.ext (by
    match a with
    | ⟨0, _⟩ => exact (rhs_kdot_0 _ _).trans hk
    | ⟨1, _⟩ => exact rhs_kdot_1 _ _)
  rw [el, er]

theorem lhs_hdot_0 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 0).val = (i 0).val := by
  unfold DotDims.lhsIdx
  rw [dif_neg (show ¬(0 : Fin S50000x256.rank) ∈ Cert.ReferenceIdeal.dot_S50000x256_S256x256_S50000x256_1_0_0_1_n_n.lhsBatch by decide), dif_pos (show (0 : Fin S50000x256.rank) ∈ Cert.ReferenceIdeal.dot_S50000x256_S256x256_S50000x256_1_0_0_1_n_n.lhsNonContracting by decide)]
  rfl
theorem lhs_hdot_1 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 1).val = (q ⟨0, by decide⟩).val :=
  Cert.ReferenceIdeal.dot_S50000x256_S256x256_S50000x256_1_0_0_1_n_n.lhsIdx_val_of_single rfl i q
theorem rhs_hdot_0 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 0).val = (q ⟨0, by decide⟩).val :=
  Cert.ReferenceIdeal.dot_S50000x256_S256x256_S50000x256_1_0_0_1_n_n.rhsIdx_val_of_single rfl i q
theorem rhs_hdot_1 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 1).val = (i 1).val := by
  unfold DotDims.rhsIdx
  rw [dif_neg (show ¬(1 : Fin S256x256.rank) ∈ Cert.ReferenceIdeal.dot_S50000x256_S256x256_S50000x256_1_0_0_1_n_n.rhsBatch by decide), dif_pos (show (1 : Fin S256x256.rank) ∈ Cert.ReferenceIdeal.dot_S50000x256_S256x256_S50000x256_1_0_0_1_n_n.rhsNonContracting by decide)]
  rfl

/-- All 50000 rows times a 256 × 256 matrix on the host: the element (n, q) is row n's dot product with
    column q. -/
theorem hdot_apply (A : FVec Ideal S50000x256 .f32) (B : FVec Ideal S256x256 .f32) (n : Fin 50000) (q : Fin 256) :
    Host.dotGeneral (F := Ideal) Cert.ReferenceIdeal.dot_S50000x256_S256x256_S50000x256_1_0_0_1_n_n none A B (ix2 n q)
      = ∑ k : Fin 256, A (ix2 n k) * B (ix2 k q) := by
  simp only [Host.dotGeneral]
  rw [Ideal.dotGeneral_apply, ← Equiv.sum_comp (ValueIdx.contrEquiv1 Cert.ReferenceIdeal.dot_S50000x256_S256x256_S50000x256_1_0_0_1_n_n 256 rfl rfl).symm]
  refine Finset.sum_congr rfl fun k _ => ?_
  have hk := ValueIdx.contrEquiv1_symm_val Cert.ReferenceIdeal.dot_S50000x256_S256x256_S50000x256_1_0_0_1_n_n 256 rfl rfl k
  have el : Cert.ReferenceIdeal.dot_S50000x256_S256x256_S50000x256_1_0_0_1_n_n.lhsIdx (ix2 n q) ((ValueIdx.contrEquiv1 Cert.ReferenceIdeal.dot_S50000x256_S256x256_S50000x256_1_0_0_1_n_n 256 rfl rfl).symm k) = ix2 n k := funext fun a => Fin.ext (by
    match a with
    | ⟨0, _⟩ => exact lhs_hdot_0 _ _
    | ⟨1, _⟩ => exact (lhs_hdot_1 _ _).trans hk)
  have er : Cert.ReferenceIdeal.dot_S50000x256_S256x256_S50000x256_1_0_0_1_n_n.rhsIdx (ix2 n q) ((ValueIdx.contrEquiv1 Cert.ReferenceIdeal.dot_S50000x256_S256x256_S50000x256_1_0_0_1_n_n 256 rfl rfl).symm k) = ix2 k q := funext fun a => Fin.ext (by
    match a with
    | ⟨0, _⟩ => exact (rhs_hdot_0 _ _).trans hk
    | ⟨1, _⟩ => exact rhs_hdot_1 _ _)
  rw [el, er]

/-! ## A vector of 256 parameters spread over the rows -/

/-- In the kernel: the vector as one row, repeated over the 1000 rows of the block. -/
theorem krow_apply (b : FVec Ideal S256 .f32) (h1 : S256.ShapeCasts S1x256) (h2 : S1x256.Broadcasts S1000x256)
    (p : Fin 1000) (q : Fin 256) :
    broadcastTo S1000x256 (shapeCast S1x256 b h1) h2 (ix2 p q) = b (ix1 q) := by
  rw [broadcastTo_1b_ab_apply, shapeCast_a_1a_apply]

/-- On the host: the vector as one row, repeated over the 50000 rows. -/
theorem hrow_apply (b : FVec Ideal Cert.ReferenceIdeal.S256 .f32)
    (h1 : Cert.ReferenceIdeal.S256.BroadcastsInDim Cert.ReferenceIdeal.S1x256 (![1] : Fin Cert.ReferenceIdeal.S256.rank → Fin Cert.ReferenceIdeal.S1x256.rank))
    (h2 : Cert.ReferenceIdeal.S1x256.BroadcastsInDim Cert.ReferenceIdeal.S50000x256 (![0, 1] : Fin Cert.ReferenceIdeal.S1x256.rank → Fin Cert.ReferenceIdeal.S50000x256.rank))
    (n : Fin 50000) (q : Fin 256) :
    broadcastInDim Cert.ReferenceIdeal.S50000x256 ![0, 1] h2 (broadcastInDim Cert.ReferenceIdeal.S1x256 ![1] h1 b) (ix2 n q) = b (ix1 q) := by
  rw [broadcastInDim_apply _ h2 _ (ix2 n q) (ix2 (0 : Fin 1) q) (fun a => match a with
    | ⟨0, _⟩ => by show 0 = if (1 : Nat) = 1 then 0 else n.val; rw [if_pos rfl]
    | ⟨1, _⟩ => by show q.val = if (256 : Nat) = 1 then 0 else q.val; rw [if_neg (by decide)])]
  exact broadcastInDim_apply _ h1 b (ix2 (0 : Fin 1) q) (ix1 q) (fun a => match a with
    | ⟨0, _⟩ => by show q.val = if (256 : Nat) = 1 then 0 else q.val; rw [if_neg (by decide)])

/-- On the host: the zero scalar spread over all 50000 × 256 elements. -/
theorem hzero_apply (h : Cert.ReferenceIdeal.S_.BroadcastsInDim Cert.ReferenceIdeal.S50000x256 (![] : Fin Cert.ReferenceIdeal.S_.rank → Fin Cert.ReferenceIdeal.S50000x256.rank))
    (i : Cert.ReferenceIdeal.S50000x256.Idx) :
    broadcastInDim Cert.ReferenceIdeal.S50000x256 ![] h (constant (F := Ideal) Cert.ReferenceIdeal.S_ .f32 0x00000000#32) i = 0 := by
  rw [broadcastInDim_apply _ h _ i ix0 (fun a => a.elim0), constant_apply, Ideal.ofBits_zero_f32]

/-! ## The two regions' bodies at an element -/

/-- The first region's body at row p, column q of its block: the perceptron on the sum of the two loaded rows. -/
theorem k0_pay1_apply (v0 v1 : Vec Ideal S1000x256 .f32) (v5 : Vec Ideal S256x256 .f32) (v8 v12 v17 : Vec Ideal S256 .f32)
    (v25 : Vec Ideal S256x256 .f32) (v28 : Vec Ideal S256 .f32) (p : Fin 1000) (q : Fin 256) :
    Cert.KernelIdeal.Gen.k0_pay1 (F := Ideal) v0 v1 v5 v8 v12 v17 v25 v28 (ValueIdx.ix2 p q)
      = rowMLP (fun j => v0 (ValueIdx.ix2 p j) + v1 (ValueIdx.ix2 p j)) v5 v8 v12 v17 v25 v28 q := by
  unfold Cert.KernelIdeal.Gen.k0_pay1 rowMLP
  simp only [maximumf_apply, addf_apply, mulf_apply, broadcast_apply, kdot_apply, krow_apply, truncf_apply,
    shapeCast_self, Ideal.ofBits_def, Ideal.ofBits_zero_f32]

/-- The second region's first loaded block, unchanged. -/
theorem k1_pay8_apply (v3 : Vec Ideal S1000x256 .f32) (p : Fin 1000) (j : Fin 256) :
    Cert.KernelIdeal.Gen.k1_pay8 (F := Ideal) v3 (ValueIdx.ix2 p j) = v3 (ValueIdx.ix2 p j) := by
  unfold Cert.KernelIdeal.Gen.k1_pay8
  rw [shapeCast_self]

/-- The second region's body at row p, column q of its block: the same perceptron. -/
theorem k1_pay9_apply (v3 v5 : Vec Ideal S1000x256 .f32) (v9 : Vec Ideal S256x256 .f32) (v12 v16 v21 : Vec Ideal S256 .f32)
    (v29 : Vec Ideal S256x256 .f32) (v32 : Vec Ideal S256 .f32) (p : Fin 1000) (q : Fin 256) :
    Cert.KernelIdeal.Gen.k1_pay9 (F := Ideal) v3 v5 v9 v12 v16 v21 v29 v32 (ValueIdx.ix2 p q)
      = rowMLP (fun j => v3 (ValueIdx.ix2 p j) + v5 (ValueIdx.ix2 p j)) v9 v12 v16 v21 v29 v32 q := by
  unfold Cert.KernelIdeal.Gen.k1_pay9 Cert.KernelIdeal.Gen.k1_pay8 rowMLP
  simp only [maximumf_apply, addf_apply, mulf_apply, broadcast_apply, kdot_apply, krow_apply, truncf_apply,
    shapeCast_self, Ideal.ofBits_def, Ideal.ofBits_zero_f32]

/-! ## The reference's block at an element -/

/-- The reference's block at row n, column q: the same perceptron on row n, with the host's scale and shift,
    when the running mean and the scale are real numbers. -/
theorem mlpR_apply (h : FVec Ideal S50000x256 .f32) (W1 : FVec Ideal S256x256 .f32) (b1 mm g v be : FVec Ideal S256 .f32)
    (W2 : FVec Ideal S256x256 .f32) (b2 : FVec Ideal S256 .f32)
    (hm : ∀ j, ∃ r : ℝ, mm j = (r : EReal)) (hs : ∀ j, ∃ r : ℝ, scaleOf g v j = (r : EReal))
    (n : Fin 50000) (q : Fin 256) :
    Cert.ReferenceIdeal.Spec.mlpR (F := Ideal) h W1 b1 mm g v be W2 b2 (ValueIdx.ix2 n q)
      = rowMLP (fun j => h (ValueIdx.ix2 n j)) W1 b1 (scaleOf g v) (shiftOf be mm (scaleOf g v)) W2 b2 q := by
  unfold Cert.ReferenceIdeal.Spec.mlpR rowMLP
  simp only [maximumf_apply, addf_apply, mulf_apply, subf_apply, hdot_apply]
  rw [hzero_apply, hrow_apply]
  refine congrArg (fun t => max (t + b2 (ix1 q)) 0) (Finset.sum_congr rfl fun k _ => ?_)
  rw [hzero_apply, hrow_apply, hrow_apply, hrow_apply, hrow_apply]
  refine congrArg (fun t => max t 0 * W2 (ix2 k q)) ?_
  obtain ⟨m, hm'⟩ := hm (ix1 k)
  obtain ⟨s, hs'⟩ := hs (ix1 k)
  show (_ - mm (ix1 k)) * scaleOf g v (ix1 k) + be (ix1 k)
    = _ * scaleOf g v (ix1 k) + (be (ix1 k) - mm (ix1 k) * scaleOf g v (ix1 k))
  rw [hm', hs']
  exact (bn_law _ _ m s).symm

end Cert.Hand

end
-- ==== Proof.Pool.lean ====
/-
  The pooling sums as plain sums.
  * poolR_apply: the reference's pooled feature (g, d) is the sum of h (n, d) over the rows n whose graph id is g
    (ids outside [0, 500), read as signed 32-bit integers, contribute to no row);
  * onehot_sum_eq, sum_core_block_row: the same sum taken as 2 halves of 25 blocks of 1000 rows, row n = (cc · 25 + blk) · 1000 + r,
    each row weighted by the indicator "id of row n = g";
  * partsPool, partsPool_apply: the two halves' partial sums added from zero, rows [0, 500) kept.
  The test "row n's id lands on g" is stated on the id word: batch n = the 32-bit word of g; read signed it is
  (batch n).toInt = g, and the two agree for g < 500 (Pool.toInt_eq_iff).
-/
import proofs.«420545_j11647951307430_3_alg».proof.Proof.Spec
import proofs.«420545_j11647951307430_3_alg».proof.Proof.Gen.KernelIdeal
import Idealize.ShloMosaic.Lib.ValueIdx
import Idealize.ShloMosaic.Lib.Pipeline.Value
import Idealize.ShloMosaic.PureOps.Ideal.Laws
import Mathlib.Algebra.BigOperators.Fin

noncomputable section

open scoped BigOperators

namespace Cert.Hand

open Idealize.ShloMosaic Idealize.ShloMosaic.ValueIdx

namespace Pool

/-! ## Words -/

/-- A 32-bit word read signed is the natural g < 500 exactly when it is the word of g. -/
theorem toInt_eq_iff (b : BitVec 32) (g : ℕ) (hg : g < 500) : b.toInt = (g : ℤ) ↔ b = BitVec.ofNat 32 g := by
  constructor
  · intro h
    apply BitVec.eq_of_toNat_eq
    rw [BitVec.toNat_ofNat]
    have h2 := BitVec.toInt_eq_toNat_cond b
    have hb := b.isLt
    split_ifs at h2 <;> omega
  · rintro rfl
    rw [BitVec.toInt_eq_toNat_cond, BitVec.toNat_ofNat]
    have h3 : g % 2 ^ 32 = g := Nat.mod_eq_of_lt (by omega)
    rw [h3, if_pos (by omega)]

/-! ## Block sums -/

/-- A sum over a · b consecutive naturals, taken block by block. -/
theorem sum_blocks {M : Type*} [AddCommMonoid M] (a b : ℕ) (f : ℕ → M) :
    ∑ i : Fin a, ∑ j : Fin b, f (i.val * b + j.val) = ∑ n : Fin (a * b), f n.val := by
  rw [← Equiv.sum_comp finProdFinEquiv (fun n : Fin (a * b) => f n.val), Fintype.sum_prod_type]
  refine Finset.sum_congr rfl fun i _ => Finset.sum_congr rfl fun j _ => ?_
  congr 1
  simp only [finProdFinEquiv_apply_val]
  rw [Nat.mul_comm, Nat.add_comm]

/-- The 50000 rows as 2 halves of 25 blocks of 1000 rows: row n = (cc · 25 + blk) · 1000 + r. -/
theorem sum_blocks3 {M : Type*} [AddCommMonoid M] (f : ℕ → M) :
    ∑ cc : Fin 2, ∑ blk : Fin 25, ∑ r : Fin 1000, f ((cc.val * 25 + blk.val) * 1000 + r.val)
      = ∑ n : Fin 50000, f n.val := by
  rw [sum_blocks 2 25 (fun k => ∑ r : Fin 1000, f (k * 1000 + r.val))]
  exact sum_blocks (2 * 25) 1000 f

end Pool

/-- A sum over the 50000 rows, taken as 2 halves of 25 blocks of 1000 rows. -/
theorem sum_core_block_row {M : Type*} [AddCommMonoid M] (G : Fin 50000 → M) :
    ∑ cc : Fin 2, ∑ blk : Fin 25, ∑ r : Fin 1000,
        G ⟨(cc.val * 25 + blk.val) * 1000 + r.val, by omega⟩
      = ∑ n : Fin 50000, G n := by
  have key := Pool.sum_blocks3 (fun k => if hk : k < 50000 then G ⟨k, hk⟩ else 0)
  have hR : ∀ n : Fin 50000, (if hk : n.val < 50000 then G ⟨n.val, hk⟩ else 0) = G n :=
    fun n => dif_pos n.isLt
  rw [Finset.sum_congr rfl fun n _ => hR n] at key
  rw [← key]
  refine Finset.sum_congr rfl fun cc _ => Finset.sum_congr rfl fun blk _ => Finset.sum_congr rfl fun r _ => ?_
  have hlt : (cc.val * 25 + blk.val) * 1000 + r.val < 50000 := by omega
  rw [dif_pos hlt]

/-- The indicator-weighted rows of the 50 blocks, summed, are the sum over the rows whose id is g. -/
theorem onehot_sum_eq (batch : IVec Cert.ReferenceIdeal.S50000 32) (g : Fin 500) (w : Fin 50000 → EReal) :
    ∑ cc : Fin 2, ∑ blk : Fin 25, ∑ r : Fin 1000,
        (if batch (ix1 (⟨(cc.val * 25 + blk.val) * 1000 + r.val, by omega⟩ : Fin 50000)) = BitVec.ofNat 32 g.val
          then (1 : EReal) else 0) * w ⟨(cc.val * 25 + blk.val) * 1000 + r.val, by omega⟩
      = ∑ n : Fin 50000, if batch (ix1 n) = BitVec.ofNat 32 g.val then w n else 0 := by
  rw [← sum_core_block_row (fun n => if batch (ix1 n) = BitVec.ofNat 32 g.val then w n else 0)]
  refine Finset.sum_congr rfl fun cc _ => Finset.sum_congr rfl fun blk _ => Finset.sum_congr rfl fun r _ => ?_
  rw [ite_mul, one_mul, zero_mul]

/-! ## The reference's pooling read at an index -/

section PoolR
open Cert.ReferenceIdeal Cert.ReferenceIdeal.Gen

namespace Pool

/-- The pooling's dimension numbers: row taken from the id, column kept. -/
abbrev scat := scatter_S500x256_S50000x1_S50000x256_1_0_0_1

theorem scat_start0 (j : S50000x256.Idx) (idx : IVec S50000x1 32) :
    scat.start j idx (0 : Fin 2) = (idx (ix2 (j 0) (0 : Fin 1))).toInt := by
  unfold ScatterDims.start
  rw [dif_pos (show (0 : Fin 2) ∈ scat.scatterDimsToOperandDims from List.mem_singleton.mpr rfl)]
  congr 2
  funext b
  refine Fin.ext ?_
  match b with
  | ⟨0, _⟩ => rfl
  | ⟨1, _⟩ => rfl

theorem scat_start1 (j : S50000x256.Idx) (idx : IVec S50000x1 32) :
    scat.start j idx (1 : Fin 2) = 0 := by
  unfold ScatterDims.start
  rw [dif_neg (show ¬ (1 : Fin 2) ∈ scat.scatterDimsToOperandDims by decide)]

theorem scat_window0 (j : S50000x256.Idx) : scat.window j (0 : Fin 2) = 0 := by
  unfold ScatterDims.window
  rw [dif_neg (show ¬ (0 : Fin 2) ∈ scat.sKept by decide)]

theorem scat_window1 (j : S50000x256.Idx) : scat.window j (1 : Fin 2) = (j 1).val := by
  unfold ScatterDims.window
  rw [dif_pos (show (1 : Fin 2) ∈ scat.sKept by decide)]
  rfl

/-- Where an update element lands: its row is its id read signed (nowhere when that is outside [0, 500)), its column its own. -/
theorem scat_resultIdx_iff (j : S50000x256.Idx) (idx : IVec S50000x1 32) (i : S500x256.Idx) :
    scat.resultIdx? j idx = some i ↔
      (idx (ix2 (j 0) (0 : Fin 1))).toInt = ((i 0).val : ℤ) ∧ (j 1).val = (i 1).val := by
  have hi0 : (i 0).val < 500 := (i 0).isLt
  have hi1 : (i 1).val < 256 := (i 1).isLt
  have hj1 : (j 1).val < 256 := (j 1).isLt
  unfold ScatterDims.resultIdx?
  split_ifs with h
  · have h0 := h 0
    have h1 := h 1
    rw [scat_start0, scat_window0] at h0
    rw [scat_start1, scat_window1] at h1
    rw [Option.some.injEq]
    constructor
    · intro hfi
      have e0 := congrArg (fun f => (f 0).val) hfi
      have e1 := congrArg (fun f => (f 1).val) hfi
      simp only [scat_start0, scat_window0, scat_start1, scat_window1] at e0 e1
      constructor <;> omega
    · rintro ⟨e0, e1⟩
      funext a
      refine Fin.ext ?_
      match a with
      | ⟨0, _⟩ =>
        show (scat.start j idx (0 : Fin 2) + (scat.window j (0 : Fin 2) : ℤ)).toNat = (i 0).val
        rw [scat_start0, scat_window0]; omega
      | ⟨1, _⟩ =>
        show (scat.start j idx (1 : Fin 2) + (scat.window j (1 : Fin 2) : ℤ)).toNat = (i 1).val
        rw [scat_start1, scat_window1]; omega
  · constructor
    · intro hc; exact absurd hc (by simp)
    · rintro ⟨e0, e1⟩
      exfalso
      apply h
      intro a
      match a with
      | ⟨0, _⟩ =>
        show 0 ≤ scat.start j idx (0 : Fin 2) + (scat.window j (0 : Fin 2) : ℤ) ∧ scat.start j idx (0 : Fin 2) + (scat.window j (0 : Fin 2) : ℤ) < ((500 : ℕ) : ℤ)
        rw [scat_start0, scat_window0]; omega
      | ⟨1, _⟩ =>
        show 0 ≤ scat.start j idx (1 : Fin 2) + (scat.window j (1 : Fin 2) : ℤ) ∧ scat.start j idx (1 : Fin 2) + (scat.window j (1 : Fin 2) : ℤ) < ((256 : ℕ) : ℤ)
        rw [scat_start1, scat_window1]; omega

/-- The ids as a column: entry (n, 0) is the id of row n. -/
theorem idcol_apply (batch : IVec S50000 32) (n : Fin 50000) (z : Fin 1) :
    broadcastInDim S50000x1 ![0] bcast_S50000_S50000x1_0 batch (ix2 n z) = batch (ix1 n) :=
  broadcastInDim_apply _ _ _ _ (ix1 n) (by
    intro a
    match a with
    | ⟨0, _⟩ => rfl)

end Pool

open Pool in
/-- The pooled feature (g, d) is the sum of h (n, d) over the rows n whose id, read signed, is g. -/
theorem poolR_apply_toInt (batch : IVec S50000 32) (h : FVec Ideal S50000x256 .f32) (g : Fin 500) (d : Fin 256) :
    Cert.ReferenceIdeal.Spec.poolR (F := Ideal) batch h (ix2 g d) =
      ∑ n : Fin 50000, if (batch (ix1 n)).toInt = (g.val : ℤ) then h (ix2 n d) else 0 := by
  unfold Cert.ReferenceIdeal.Spec.poolR Host.scatterAdd
  rw [Ideal.hostScatterAdd_def]
  unfold Ideal.hostScatterAdd
  have hz : broadcastInDim S500x256 ![] bcast_S_S500x256 (constant (F := Ideal) S_ .f32 0x00000000#32) (ix2 g d) = 0 := by
    show Ideal.ofBits .f32 0x00000000#32 = 0
    exact Ideal.ofBits_zero_f32
  rw [hz, zero_add, Finset.sum_filter, sum_idx2]
  refine Finset.sum_congr rfl fun n _ => ?_
  have hstep : ∀ q : Fin 256,
      (if scat.resultIdx? (ix2 n q) (broadcastInDim S50000x1 ![0] bcast_S50000_S50000x1_0 batch) = some (ix2 g d)
        then h (ix2 n q) else 0)
      = if q = d then (if (batch (ix1 n)).toInt = (g.val : ℤ) then h (ix2 n d) else 0) else 0 := by
    intro q
    refine (if_congr (scat_resultIdx_iff _ _ _) rfl rfl).trans ?_
    show (if (broadcastInDim S50000x1 ![0] bcast_S50000_S50000x1_0 batch (ix2 n (0 : Fin 1))).toInt = (g.val : ℤ) ∧ q.val = d.val then h (ix2 n q) else 0) = _
    rw [idcol_apply]
    by_cases hq : q = d
    · subst hq; simp
    · have : ¬ q.val = d.val := fun e => hq (Fin.ext e)
      simp [hq, this]
  rw [Finset.sum_congr rfl fun q _ => hstep q, Finset.sum_ite_eq']
  simp

/-- The pooled feature (g, d) is the sum of h (n, d) over the rows n whose id word is the word of g. -/
theorem poolR_apply (batch : IVec S50000 32) (h : FVec Ideal S50000x256 .f32) (g : Fin 500) (d : Fin 256) :
    Cert.ReferenceIdeal.Spec.poolR (F := Ideal) batch h (ix2 g d) =
      ∑ n : Fin 50000, if batch (ix1 n) = BitVec.ofNat 32 g.val then h (ix2 n d) else 0 := by
  rw [poolR_apply_toInt]
  refine Finset.sum_congr rfl fun n _ => ?_
  exact if_congr (Pool.toInt_eq_iff _ _ g.isLt) rfl rfl

end PoolR

/-! ## The two halves' partial sums added -/

section Parts
open Cert.KernelIdeal Cert.KernelIdeal.Gen

/-- The two halves' partial sums added (a sum over the leading axis from zero), rows [0, 500) kept. -/
def partsPool (parts : FVec Ideal S2x512x256 .f32) : FVec Ideal S500x256 .f32 :=
  extractStridedSlice S500x256 ![0, 0] (Host.reduceAdd parts (constant S_ .f32 0x00000000#32) reducesTo_S2x512x256_S512x256_d0 h_S_) slices_S512x256_S500x256_0_0

theorem partsPool_apply (parts : FVec Ideal S2x512x256 .f32) (g : Fin 500) (d : Fin 256) :
    partsPool parts (ix2 g d)
      = 0 + (parts (ix3 (0 : Fin 2) (⟨g.val, by omega⟩ : Fin 512) d) + parts (ix3 (1 : Fin 2) (⟨g.val, by omega⟩ : Fin 512) d)) := by
  have hg : g.val < 512 := by omega
  have hR : S2x512x256.Reduces [0] S512x256 := by decide
  have hl : ∀ k : Fin 2, hR.lift (ix2 (⟨g.val, hg⟩ : Fin 512) d) k = ix3 k (⟨g.val, hg⟩ : Fin 512) d := by
    intro k
    funext a
    refine Fin.ext ?_
    match a with
    | ⟨0, _⟩ => rfl
    | ⟨1, _⟩ => rfl
    | ⟨2, _⟩ => rfl
  have hz : constant (F := Ideal) S_ .f32 0x00000000#32 (Shape.Idx.first h_S_) = 0 := Ideal.ofBits_zero_f32
  unfold partsPool
  refine (extractStridedSlice_apply _ _ _ _ (ix2 (⟨g.val, hg⟩ : Fin 512) d) (by
    intro a
    match a with
    | ⟨0, _⟩ => simp
    | ⟨1, _⟩ => simp)).trans ?_
  unfold Host.reduceAdd
  rw [Ideal.hostReduceAdd_def, Ideal.hostReduceAdd_single reducesTo_S2x512x256_S512x256_d0 hR, hz]
  refine congrArg (fun t : EReal => 0 + t) ?_
  refine (Fin.sum_univ_two _).trans ?_
  exact congrArg₂ (fun s t : EReal => s + t) (congrArg parts (hl 0)) (congrArg parts (hl 1))

end Parts

end Cert.Hand

end
-- ==== Proof.KernelIdeal.HostVals.lean ====
/- What the host stretches of @main before each kernel region leave in the buffers the regions read, in the
   reference's vocabulary. The first stretch computes the neighbour sum of the input rows along the edge list
   (a gather by the wrapped source index, scatter-added by the destination index onto zeros) and the first
   batch norm's scale γ/√(var+ε) and shift β − mean·scale; the second stretch does the same over the rows the
   first region wrote, reshapes the graph ids to a column, and computes the second batch norm's scale and shift.
   No stretch writes an argument, and the first region changes only its output array. -/
import proofs.«420545_j11647951307430_3_alg».proof.Proof.Gen.KernelIdeal.Regions
import proofs.«420545_j11647951307430_3_alg».proof.Proof.Spec
import Idealize.ShloMosaic.Lib.StableHlo.Run
import Idealize.ShloMosaic.Lib.ValueIdx
import Idealize.ShloMosaic.Lib.Pipeline.Value

set_option maxRecDepth 8192

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (outs : Gen.Outs (F := F)) (c : Dev nD)

/-! ## The first stretch: the neighbour sum of the input rows, the first layer's scale and shift -/

/-- The source row of the edge list, as a vector of 800000 indices. -/
theorem V1_v1 : Gen.V1 m c main_v1 = (shapeCast _ (extractStridedSlice S1x800000 ![0, 0] (m ((c : Thread nD τ).loc main_arg1)) slices_S2x800000_S1x800000_0_0) shapeCasts_S1x800000_S800000 : IVec S800000 32) := by
  show StableHlo.after hostOps0 (fun b => m (c, b)) (Proc.devRef .tc main_v1) = _
  after_results_simp <;> rfl

/-- The destination row of the edge list, as a vector of 800000 indices. -/
theorem V1_v3 : Gen.V1 m c main_v3 = (shapeCast _ (extractStridedSlice S1x800000 ![1, 0] (m ((c : Thread nD τ).loc main_arg1)) slices_S2x800000_S1x800000_1_0) shapeCasts_S1x800000_S800000 : IVec S800000 32) := by
  show StableHlo.after hostOps0 (fun b => m (c, b)) (Proc.devRef .tc main_v3) = _
  after_results_simp <;> rfl

set_option maxHeartbeats 4000000 in
/-- The first layer's aggregate is the neighbour sum of the input rows along the edge list. -/
theorem V1_v13 : Gen.V1 m c main_v13 = Cert.ReferenceIdeal.Spec.aggOp (m ((c : Thread nD τ).loc main_arg0)) (m ((c : Thread nD τ).loc main_arg1)) := by
  show StableHlo.after hostOps0 (fun b => m (c, b)) (Proc.devRef .tc main_v13) = _
  after_results_simp <;> rfl

set_option maxHeartbeats 4000000 in
/-- The first layer's scale: γ / √(var + ε). -/
theorem V1_v17 : Gen.V1 m c main_v17 = (Host.divf (m ((c : Thread nD τ).loc main_arg5)) (Host.sqrt (addf (m ((c : Thread nD τ).loc main_arg8)) (broadcastInDim S256 ![] bcast_S_S256 (constant S_ .f32 0x3727C5AC#32)))) : FVec F S256 .f32) := by
  show StableHlo.after hostOps0 (fun b => m (c, b)) (Proc.devRef .tc main_v17) = _
  after_results_simp <;> rfl

set_option maxHeartbeats 4000000 in
/-- The first layer's shift: β − mean · scale. -/
theorem V1_v19 : Gen.V1 m c main_v19 = (subf (m ((c : Thread nD τ).loc main_arg6)) (mulf (m ((c : Thread nD τ).loc main_arg7)) (Gen.V1 m c main_v17)) : FVec F S256 .f32) := by
  rw [V1_v17]
  show StableHlo.after hostOps0 (fun b => m (c, b)) (Proc.devRef .tc main_v19) = _
  after_results_simp <;> rfl

/-- The first stretch writes no argument. -/
theorem V1_arg0 : Gen.V1 m c main_arg0 = m ((c : Thread nD τ).loc main_arg0) := Gen.V1_of m c main_arg0 (by decide)
theorem V1_arg3 : Gen.V1 m c main_arg3 = m ((c : Thread nD τ).loc main_arg3) := Gen.V1_of m c main_arg3 (by decide)
theorem V1_arg4 : Gen.V1 m c main_arg4 = m ((c : Thread nD τ).loc main_arg4) := Gen.V1_of m c main_arg4 (by decide)
theorem V1_arg9 : Gen.V1 m c main_arg9 = m ((c : Thread nD τ).loc main_arg9) := Gen.V1_of m c main_arg9 (by decide)
theorem V1_arg10 : Gen.V1 m c main_arg10 = m ((c : Thread nD τ).loc main_arg10) := Gen.V1_of m c main_arg10 (by decide)

/-! ## The first region changes its output array only -/

theorem V2_v20 : Gen.V2 m outs c main_v20 = outs 2 main_v20 c := by
  simp only [Gen.V2, Function.update_self]

theorem V2_v1 : Gen.V2 m outs c main_v1 = (shapeCast _ (extractStridedSlice S1x800000 ![0, 0] (m ((c : Thread nD τ).loc main_arg1)) slices_S2x800000_S1x800000_0_0) shapeCasts_S1x800000_S800000 : IVec S800000 32) :=
  (Gen.V2_of m outs c main_v1 (by decide)).trans (V1_v1 m c)

theorem V2_v3 : Gen.V2 m outs c main_v3 = (shapeCast _ (extractStridedSlice S1x800000 ![1, 0] (m ((c : Thread nD τ).loc main_arg1)) slices_S2x800000_S1x800000_1_0) shapeCasts_S1x800000_S800000 : IVec S800000 32) :=
  (Gen.V2_of m outs c main_v3 (by decide)).trans (V1_v3 m c)

theorem V2_arg (r : Ref sig .tc) (h2 : r ∉ ([main_v20] : List (Ref sig .tc))) (h1 : r ∉ Gen.hostOps0_W) : Gen.V2 m outs c r = m ((c : Thread nD τ).loc r) :=
  (Gen.V2_of m outs c r h2).trans (Gen.V1_of m c r h1)

/-! ## The second stretch: the neighbour sum of the first layer's rows, the graph ids as a column, the second layer's scale and shift -/

/-- The second stretch leaves the first region's output as the region left it. -/
theorem V3_v20 : Gen.V3 m outs c main_v20 = outs 2 main_v20 c :=
  (Gen.V3_of m outs c main_v20 (by decide)).trans (V2_v20 m outs c)

set_option maxHeartbeats 4000000 in
/-- The second layer's aggregate is the neighbour sum of the first region's output rows along the edge list. -/
theorem V3_v30 : Gen.V3 m outs c main_v30 = Cert.ReferenceIdeal.Spec.aggOp (outs 2 main_v20 c) (m ((c : Thread nD τ).loc main_arg1)) := by
  show StableHlo.after hostOps1 (Gen.V2 m outs c) (Proc.devRef .tc main_v30) = _
  after_results_simp
  rw [V2_v20, V2_v1, V2_v3]
  rfl

/-- The graph ids as a column of 50000 rows. -/
theorem V3_v31 : Gen.V3 m outs c main_v31 = (shapeCast S50000x1 (m ((c : Thread nD τ).loc main_arg2)) shapeCasts_S50000_S50000x1 : IVec S50000x1 32) := by
  show StableHlo.after hostOps1 (Gen.V2 m outs c) (Proc.devRef .tc main_v31) = _
  after_results_simp
  rw [V2_arg m outs c main_arg2 (by decide) (by decide)]
  rfl

/-- Row `n` of the column is node `n`'s graph id. -/
theorem V3_v31_apply (n : Fin 50000) : (Gen.V3 m outs c main_v31 : IVec S50000x1 32) (ValueIdx.ix2 n (0 : Fin 1)) = (m ((c : Thread nD τ).loc main_arg2) : IVec S50000 32) (ValueIdx.ix1 n) := by
  rw [V3_v31]
  exact shapeCast_apply _ _ (ValueIdx.ix2 n (0 : Fin 1)) (ValueIdx.ix1 n) (by
    rw [Shape.rowMajor_val_one, Shape.rowMajor_val_two]; show n.val = n.val * 1 + 0; omega)

set_option maxHeartbeats 4000000 in
/-- The second layer's scale: γ / √(var + ε). -/
theorem V3_v35 : Gen.V3 m outs c main_v35 = (Host.divf (m ((c : Thread nD τ).loc main_arg13)) (Host.sqrt (addf (m ((c : Thread nD τ).loc main_arg16)) (broadcastInDim S256 ![] bcast_S_S256 (constant S_ .f32 0x3727C5AC#32)))) : FVec F S256 .f32) := by
  show StableHlo.after hostOps1 (Gen.V2 m outs c) (Proc.devRef .tc main_v35) = _
  after_results_simp
  rw [V2_arg m outs c main_arg13 (by decide) (by decide), V2_arg m outs c main_arg16 (by decide) (by decide)]

set_option maxHeartbeats 4000000 in
/-- The second layer's shift: β − mean · scale. -/
theorem V3_v37 : Gen.V3 m outs c main_v37 = (subf (m ((c : Thread nD τ).loc main_arg14)) (mulf (m ((c : Thread nD τ).loc main_arg15)) (Gen.V3 m outs c main_v35)) : FVec F S256 .f32) := by
  rw [V3_v35]
  show StableHlo.after hostOps1 (Gen.V2 m outs c) (Proc.devRef .tc main_v37) = _
  after_results_simp
  rw [V2_arg m outs c main_arg13 (by decide) (by decide), V2_arg m outs c main_arg16 (by decide) (by decide), V2_arg m outs c main_arg14 (by decide) (by decide), V2_arg m outs c main_arg15 (by decide) (by decide)]

/-- The second stretch writes no argument, and the first region changes none. -/
theorem V3_arg (r : Ref sig .tc) (h3 : r ∉ Gen.hostOps1_W) (h2 : r ∉ ([main_v20] : List (Ref sig .tc))) (h1 : r ∉ Gen.hostOps0_W) : Gen.V3 m outs c r = m ((c : Thread nD τ).loc r) :=
  (Gen.V3_of m outs c r h3).trans (V2_arg m outs c r h2 h1)
theorem V3_arg11 : Gen.V3 m outs c main_arg11 = m ((c : Thread nD τ).loc main_arg11) := V3_arg m outs c main_arg11 (by decide) (by decide) (by decide)
theorem V3_arg12 : Gen.V3 m outs c main_arg12 = m ((c : Thread nD τ).loc main_arg12) := V3_arg m outs c main_arg12 (by decide) (by decide) (by decide)
theorem V3_arg17 : Gen.V3 m outs c main_arg17 = m ((c : Thread nD τ).loc main_arg17) := V3_arg m outs c main_arg17 (by decide) (by decide) (by decide)
theorem V3_arg18 : Gen.V3 m outs c main_arg18 = m ((c : Thread nD τ).loc main_arg18) := V3_arg m outs c main_arg18 (by decide) (by decide) (by decide)

end Cert.KernelIdeal.Hand

end
-- ==== Proof.KernelIdeal.Value0.lean ====
/- REGION 0 of @main, read as a value: what its 50 write-backs leave in the output array (window 8), as ONE
   whole-array function of the arrays the region finds (`V`), index by index. Point t writes rows 1000·t … 1000·t + 999;
   the body's payload at a row of its block depends on that row of the two row-blocked inputs alone (a hypothesis
   here, `hrow`: the payload at (p, q) is a function of row p of its first two operands), so row n of the array after
   the run is that function of row n of the two input arrays. The input windows' arrays are left as found. -/
import proofs.«420545_j11647951307430_3_alg».proof.Proof.KernelIdeal.Region0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)
open Idealize.ShloMosaic.ValueIdx

variable {F : FTy → Type} [FloatOps F]

section Value0
variable (V : (c : Dev nD) → (b : Ref sig .tc) → Buf (Elt F) ((c : Thread nD τ).loc b))

private theorem zoff2 : (![0, 0] : Fin 2 → Nat) = fun _ => 0 := funext fun a => by fin_cases a <;> rfl
private theorem zoff1 : (![0] : Fin 1 → Nat) = fun _ => 0 := funext fun a => by fin_cases a <;> rfl

/-! ## The index maps over the grid -/

/-- The printed index maps, decided over the 50 points: the two row-blocked inputs and the output sit at block row
    t, column block 0; the six parameter windows sit at block 0 on every axis. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_2.index t (0 : Fin 2) = 0 ∧ win0_2.index t (1 : Fin 2) = 0
    ∧ win0_3.index t (0 : Fin 1) = 0
    ∧ win0_4.index t (0 : Fin 1) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

/-! ## The input windows' blocks, read off their arrays -/

/-- Row p of input window 0's block at point t is row 1000·t + p of its array. -/
theorem iblk0_0_apply (c : Dev nD) (t : Fin cfg0.N) (p : Fin 1000) (k : Fin 256) (n : Fin 50000) (hn : n.val = t.val * 1000 + p.val) :
    (iblk0 V c 0 t : Vec F S1000x256 .f32) (ix2 p k) = (V c main_arg0 : S50000x256.Idx → Elt F .f32) (ix2 n k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 1000 + 1 * p.val = n.val; omega
  | ⟨1, _⟩ => show win0_0.index t (1 : Fin 2) * 256 + 1 * k.val = k.val; omega

/-- Row p of input window 1's block at point t is row 1000·t + p of its array. -/
theorem iblk0_1_apply (c : Dev nD) (t : Fin cfg0.N) (p : Fin 1000) (k : Fin 256) (n : Fin 50000) (hn : n.val = t.val * 1000 + p.val) :
    (iblk0 V c 1 t : Vec F S1000x256 .f32) (ix2 p k) = (V c main_v13 : S50000x256.Idx → Elt F .f32) (ix2 n k) := by
  obtain ⟨-, -, e0, e1, -⟩ := idx_facts0 t
  unfold iblk0
  rw [View.read_apply]
  show V c main_v13 _ = V c main_v13 _
  congr 1
  funext a
  apply Fin.ext
  match a with
  | ⟨0, _⟩ => show win0_1.index t (0 : Fin 2) * 1000 + 1 * p.val = n.val; omega
  | ⟨1, _⟩ => show win0_1.index t (1 : Fin 2) * 256 + 1 * k.val = k.val; omega

/-- The six parameter windows' blocks are their whole arrays at every point. -/
theorem iblk0_2_eq (c : Dev nD) (t : Fin cfg0.N) : (iblk0 V c 2 t : Vec F S256x256 .f32) = V c main_arg3 := by
  obtain ⟨-, -, -, -, -, -, e0, e1, -⟩ := idx_facts0 t
  funext y
  unfold iblk0
  rw [View.read_apply]
  show V c main_arg3 _ = V c main_arg3 _
  congr 1
  funext a
  apply Fin.ext
  match a with
  | ⟨0, _⟩ => show win0_2.index t (0 : Fin 2) * 256 + 1 * (y 0).val = (y 0).val; omega
  | ⟨1, _⟩ => show win0_2.index t (1 : Fin 2) * 256 + 1 * (y 1).val = (y 1).val; omega

theorem iblk0_3_eq (c : Dev nD) (t : Fin cfg0.N) : (iblk0 V c 3 t : Vec F S256 .f32) = V c main_arg4 := by
  obtain ⟨-, -, -, -, -, -, -, -, e0, -⟩ := idx_facts0 t
  funext y
  unfold iblk0
  rw [View.read_apply]
  show V c main_arg4 _ = V c main_arg4 _
  congr 1
  funext a
  apply Fin.ext
  match a with
  | ⟨0, _⟩ => show win0_3.index t (0 : Fin 1) * 256 + 1 * (y 0).val = (y 0).val; omega

theorem iblk0_4_eq (c : Dev nD) (t : Fin cfg0.N) : (iblk0 V c 4 t : Vec F S256 .f32) = V c main_v17 := by
  obtain ⟨-, -, -, -, -, -, -, -, -, e0, -⟩ := idx_facts0 t
  funext y
  unfold iblk0
  rw [View.read_apply]
  show V c main_v17 _ = V c main_v17 _
  congr 1
  funext a
  apply Fin.ext
  match a with
  | ⟨0, _⟩ => show win0_4.index t (0 : Fin 1) * 256 + 1 * (y 0).val = (y 0).val; omega

theorem iblk0_5_eq (c : Dev nD) (t : Fin cfg0.N) : (iblk0 V c 5 t : Vec F S256 .f32) = V c main_v19 := by
  obtain ⟨-, -, -, -, -, -, -, -, -, -, e0, -⟩ := idx_facts0 t
  funext y
  unfold iblk0
  rw [View.read_apply]
  show V c main_v19 _ = V c main_v19 _
  congr 1
  funext a
  apply Fin.ext
  match a with
  | ⟨0, _⟩ => show win0_5.index t (0 : Fin 1) * 256 + 1 * (y 0).val = (y 0).val; omega

theorem iblk0_6_eq (c : Dev nD) (t : Fin cfg0.N) : (iblk0 V c 6 t : Vec F S256x256 .f32) = V c main_arg9 := by
  obtain ⟨-, -, -, -, -, -, -, -, -, -, -, e0, e1, -⟩ := idx_facts0 t
  funext y
  unfold iblk0
  rw [View.read_apply]
  show V c main_arg9 _ = V c main_arg9 _
  congr 1
  funext a
  apply Fin.ext
  match a with
  | ⟨0, _⟩ => show win0_6.index t (0 : Fin 2) * 256 + 1 * (y 0).val = (y 0).val; omega
  | ⟨1, _⟩ => show win0_6.index t (1 : Fin 2) * 256 + 1 * (y 1).val = (y 1).val; omega

theorem iblk0_7_eq (c : Dev nD) (t : Fin cfg0.N) : (iblk0 V c 7 t : Vec F S256 .f32) = V c main_arg10 := by
  obtain ⟨-, -, -, -, -, -, -, -, -, -, -, -, -, e0⟩ := idx_facts0 t
  funext y
  unfold iblk0
  rw [View.read_apply]
  show V c main_arg10 _ = V c main_arg10 _
  congr 1
  funext a
  apply Fin.ext
  match a with
  | ⟨0, _⟩ => show win0_7.index t (0 : Fin 1) * 256 + 1 * (y 0).val = (y 0).val; omega

/-! ## The array the region leaves, row by row -/

/-- Row by row: `R` of the two arrays' rows. -/
def rowsOf (R : (Fin 256 → Elt F .f32) → (Fin 256 → Elt F .f32) → Fin 256 → Elt F .f32)
    (A0 A1 : S50000x256.Idx → Elt F .f32) : S50000x256.Idx → Elt F .f32 :=
  fun i => R (fun k => A0 (ix2 (i 0) k)) (fun k => A1 (ix2 (i 0) k)) (i 1)

theorem rowsOf_apply (R : (Fin 256 → Elt F .f32) → (Fin 256 → Elt F .f32) → Fin 256 → Elt F .f32)
    (A0 A1 : S50000x256.Idx → Elt F .f32) (n : Fin 50000) (q : Fin 256) :
    rowsOf R A0 A1 (ix2 n q) = R (fun k => A0 (ix2 n k)) (fun k => A1 (ix2 n k)) q := rfl

/-- The payload on blocks whose row p is row n of two arrays is, at (p, q), the array function at (n, q). -/
theorem pay_at (R : (Fin 256 → Elt F .f32) → (Fin 256 → Elt F .f32) → Fin 256 → Elt F .f32)
    (x0 x1 : Vec F S1000x256 .f32) (x2 : Vec F S256x256 .f32) (x3 x4 x5 : Vec F S256 .f32) (x6 : Vec F S256x256 .f32) (x7 : Vec F S256 .f32)
    (W1 : Vec F S256x256 .f32) (b1 sc sh : Vec F S256 .f32) (W2 : Vec F S256x256 .f32) (b2 : Vec F S256 .f32)
    (hrow : ∀ (v0 v1 : Vec F S1000x256 .f32) (p : Fin 1000) (q : Fin 256),
      k0_pay1 v0 v1 W1 b1 sc sh W2 b2 (ix2 p q) = R (fun k => v0 (ix2 p k)) (fun k => v1 (ix2 p k)) q)
    (e2 : x2 = W1) (e3 : x3 = b1) (e4 : x4 = sc) (e5 : x5 = sh) (e6 : x6 = W2) (e7 : x7 = b2)
    (A0 A1 : S50000x256.Idx → Elt F .f32) (p : Fin 1000) (q : Fin 256) (n : Fin 50000)
    (h0 : ∀ k : Fin 256, x0 (ix2 p k) = A0 (ix2 n k)) (h1 : ∀ k : Fin 256, x1 (ix2 p k) = A1 (ix2 n k)) :
    k0_pay1 x0 x1 x2 x3 x4 x5 x6 x7 (ix2 p q) = rowsOf R A0 A1 (ix2 n q) := by
  subst e2 e3 e4 e5 e6 e7
  rw [hrow, rowsOf_apply,
    show (fun k => x0 (ix2 p k)) = (fun k => A0 (ix2 n k)) from funext h0,
    show (fun k => x1 (ix2 p k)) = (fun k => A1 (ix2 n k)) from funext h1]

/-! ## The output's blocks tile its array -/

/-- An index of the array is in point t's block iff each coordinate is in the block's range on its axis. -/
theorem mem_blk0_8 (t : Fin cfg0.N) (i : S50000x256.Idx) :
    i ∈ ((cfg0.win 8).blk t).view.set ↔ ∀ a : Fin 2, win0_8.index t a * S1000x256.size a ≤ (i a).val ∧ (i a).val < win0_8.index t a * S1000x256.size a + S1000x256.size a := by
  show i ∈ ((View.whole main_v20).slice (win0_8.rect t)).set ↔ _
  rw [View.set_slice_whole, Rect.mem_set_unit]
  exact Iff.rfl

/-- Row n is in the block of point n / 1000: the 50 blocks tile the array. -/
theorem cover0_8_arr (i : S50000x256.Idx) : ∃ t : Fin cfg0.N, (cfg0.win 8).flush t = true ∧ i ∈ ((cfg0.win 8).blk t).view.set := by
  have hN : cfg0.N = 50 := N_0
  have hi0 : (i 0).val < 50000 := (i 0).isLt
  have hi1 : (i 1).val < 256 := (i 1).isLt
  let t : Fin cfg0.N := ⟨(i 0).val / 1000, by omega⟩
  obtain ⟨-, -, -, -, e0, e1, -⟩ := idx_facts0 t
  have ht : t.val = (i 0).val / 1000 := rfl
  refine ⟨t, flush0_8 t, ?_⟩
  rw [mem_blk0_8]
  intro a
  match a with
  | ⟨0, _⟩ => show win0_8.index t (0 : Fin 2) * 1000 ≤ (i 0).val ∧ (i 0).val < win0_8.index t (0 : Fin 2) * 1000 + 1000; omega
  | ⟨1, _⟩ => show win0_8.index t (1 : Fin 2) * 256 ≤ (i 1).val ∧ (i 1).val < win0_8.index t (1 : Fin 2) * 256 + 256; omega

/-! ## What each point writes back, and the array after the run -/

section Rows
variable (R : (Fin 256 → Elt F .f32) → (Fin 256 → Elt F .f32) → Fin 256 → Elt F .f32) (c : Dev nD)
variable (hrow : ∀ (v0 v1 : Vec F S1000x256 .f32) (p : Fin 1000) (q : Fin 256),
      k0_pay1 v0 v1 (V c main_arg3) (V c main_arg4) (V c main_v17) (V c main_v19) (V c main_arg9) (V c main_arg10) (ix2 p q)
        = R (fun k => v0 (ix2 p k)) (fun k => v1 (ix2 p k)) q)
include hrow

/-- What point t writes back is block t of the row-by-row array function. -/
theorem flushed0_8_eq (t : Fin cfg0.N) :
    (dat0 V c).flushed 8 t = ((cfg0.win 8).blk t).view.read (Elt F) (rowsOf R (V c main_arg0) (V c main_v13)) := by
  show (cfg0.win 8).cut (grid0.coords t) ((dat0 V c).after 8 t) = _
  rw [after0_8]
  unfold out0_8
  rw [View.canon_unit_zero zoff2]
  simp only [View.ld_unit_zero (S := S1000x256) zoff2, View.ld_unit_zero (S := S256x256) zoff2, View.ld_unit_zero (S := S256) zoff1]
  obtain ⟨-, -, -, -, e0, e1, -⟩ := idx_facts0 t
  have hN : cfg0.N = 50 := N_0
  have ht : t.val < 50 := by have := t.isLt; omega
  funext j
  have hj0 : (j 0).val < 1000 := (j 0).isLt
  have hj1 : (j 1).val < 256 := (j 1).isLt
  have hx : (cfg0.win 8).xinj (grid0.coords t) j = (ix2 (⟨(j 0).val, hj0⟩ : Fin 1000) (⟨(j 1).val, hj1⟩ : Fin 256) : S1000x256.Idx) := by
    funext a; apply Fin.ext
    match a with
    | ⟨0, _⟩ => rfl
    | ⟨1, _⟩ => rfl
  have he : ((cfg0.win 8).blk t).view.emb j = (ix2 (⟨t.val * 1000 + (j 0).val, by omega⟩ : Fin 50000) (⟨(j 1).val, hj1⟩ : Fin 256) : S50000x256.Idx) := by
    funext a; apply Fin.ext
    match a with
    | ⟨0, _⟩ => show win0_8.index t (0 : Fin 2) * 1000 + 1 * (j 0).val = t.val * 1000 + (j 0).val; omega
    | ⟨1, _⟩ => show win0_8.index t (1 : Fin 2) * 256 + 1 * (j 1).val = (j 1).val; omega
  show k0_pay1 (iblk0 V c 0 t) (iblk0 V c 1 t) (iblk0 V c 2 t) (iblk0 V c 3 t) (iblk0 V c 4 t) (iblk0 V c 5 t) (iblk0 V c 6 t) (iblk0 V c 7 t) ((cfg0.win 8).xinj (grid0.coords t) j)
    = rowsOf R (V c main_arg0) (V c main_v13) (((cfg0.win 8).blk t).view.emb j)
  rw [hx, he]
  exact pay_at R (iblk0 V c 0 t) (iblk0 V c 1 t) (iblk0 V c 2 t) (iblk0 V c 3 t) (iblk0 V c 4 t) (iblk0 V c 5 t) (iblk0 V c 6 t) (iblk0 V c 7 t)
    (V c main_arg3) (V c main_arg4) (V c main_v17) (V c main_v19) (V c main_arg9) (V c main_arg10) hrow
    (iblk0_2_eq V c t) (iblk0_3_eq V c t) (iblk0_4_eq V c t) (iblk0_5_eq V c t) (iblk0_6_eq V c t) (iblk0_7_eq V c t)
    (V c main_arg0) (V c main_v13) ⟨(j 0).val, hj0⟩ ⟨(j 1).val, hj1⟩ ⟨t.val * 1000 + (j 0).val, by omega⟩
    (fun k => iblk0_0_apply V c t _ k _ rfl) (fun k => iblk0_1_apply V c t _ k _ rfl)

/-- THE OUTPUT ARRAY after the run: the row-by-row function of the two row-blocked input arrays. -/
theorem arr0_eq : (dat0 V c).arrAt 8 cfg0.N = rowsOf R (V c main_arg0) (V c main_v13) :=
  (dat0 V c).arrAt_eq_of_cover 8 (rowsOf R (V c main_arg0) (V c main_v13)) (fun t _ => flushed0_8_eq V R c hrow t) cover0_8_arr

/-- At an index: row n, column q. -/
theorem arr0_rows (n : Fin 50000) (q : Fin 256) :
    ((dat0 V c).arrAt 8 cfg0.N : S50000x256.Idx → Elt F .f32) (ix2 n q)
      = R (fun k => (V c main_arg0 : S50000x256.Idx → Elt F .f32) (ix2 n k)) (fun k => (V c main_v13 : S50000x256.Idx → Elt F .f32) (ix2 n k)) q := by
  rw [arr0_eq V R c hrow]; rfl

end Rows

/-! ## The input windows' arrays are left as the region found them -/

theorem arr0_in0 (c : Dev nD) : (dat0 V c).arrAt 0 cfg0.N = V c main_arg0 := ((dat0 V c).arrAt_in 0 rfl _).trans (A_eq0 V c 0)
theorem arr0_in1 (c : Dev nD) : (dat0 V c).arrAt 1 cfg0.N = V c main_v13 := ((dat0 V c).arrAt_in 1 rfl _).trans (A_eq0 V c 1)
theorem arr0_in2 (c : Dev nD) : (dat0 V c).arrAt 2 cfg0.N = V c main_arg3 := ((dat0 V c).arrAt_in 2 rfl _).trans (A_eq0 V c 2)
theorem arr0_in3 (c : Dev nD) : (dat0 V c).arrAt 3 cfg0.N = V c main_arg4 := ((dat0 V c).arrAt_in 3 rfl _).trans (A_eq0 V c 3)
theorem arr0_in4 (c : Dev nD) : (dat0 V c).arrAt 4 cfg0.N = V c main_v17 := ((dat0 V c).arrAt_in 4 rfl _).trans (A_eq0 V c 4)
theorem arr0_in5 (c : Dev nD) : (dat0 V c).arrAt 5 cfg0.N = V c main_v19 := ((dat0 V c).arrAt_in 5 rfl _).trans (A_eq0 V c 5)
theorem arr0_in6 (c : Dev nD) : (dat0 V c).arrAt 6 cfg0.N = V c main_arg9 := ((dat0 V c).arrAt_in 6 rfl _).trans (A_eq0 V c 6)
theorem arr0_in7 (c : Dev nD) : (dat0 V c).arrAt 7 cfg0.N = V c main_arg10 := ((dat0 V c).arrAt_in 7 rfl _).trans (A_eq0 V c 7)

end Value0

/-! ## At the extended reals: the row function of the SUM of the two rows -/

/-- When the payload at (p, q) is `ROW` of the sum of row p of its first two operands,
    entry (n, q) of the output array after the run is `ROW` of the sum of row n of the two input arrays (named `x`, `a`). -/
theorem arr0_row (V : (c : Dev nD) → (b : Ref sig .tc) → Buf (Elt Ideal) ((c : Thread nD τ).loc b)) (c : Dev nD)
    (ROW : (Fin 256 → EReal) → Fin 256 → EReal)
    (hrow : ∀ (v0 v1 : Vec Ideal S1000x256 .f32) (p : Fin 1000) (q : Fin 256),
      k0_pay1 (F := Ideal) v0 v1 (V c main_arg3) (V c main_arg4) (V c main_v17) (V c main_v19) (V c main_arg9) (V c main_arg10) (ix2 p q)
        = ROW (fun k => v0 (ix2 p k) + v1 (ix2 p k)) q)
    (x a : S50000x256.Idx → EReal) (hx : V c main_arg0 = x) (ha : V c main_v13 = a)
    (n : Fin 50000) (q : Fin 256) :
    ((dat0 (F := Ideal) V c).arrAt 8 cfg0.N : S50000x256.Idx → EReal) (ix2 n q)
      = ROW (fun k => x (ix2 n k) + a (ix2 n k)) q := by
  subst hx ha
  exact arr0_rows (F := Ideal) V (fun r0 r1 => ROW (fun k => r0 k + r1 k)) c hrow n q

end Cert.KernelIdeal.Hand

end
-- ==== Proof.Pay1.lean ====
/- The payloads of the second region's kernel read at an index, at the ideal values: the one-hot
   selector, the two pooled accumulations (an accumulator plus a sum over the block's 1000 rows of
   selector times feature), the two shape casts onto a leading unit axis, and the two zero resets. -/
import proofs.«420545_j11647951307430_3_alg».proof.Proof.Gen.KernelIdeal.Skeleton
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.Hand

open Cert.KernelIdeal Cert.KernelIdeal.Gen Idealize.ShloMosaic Idealize.SL.Sem

/-- The word of a one-bit comparison, zero-extended to 32 bits and read as a signed integer, is the
    real 1 when the compared words are equal and 0 otherwise. -/
theorem onehot_word (a b : BitVec 32) :
    (FloatOps.sitofp (F := Ideal) .f32 ((IntOp.cmpi .eq a b).setWidth 32) : EReal) = if a = b then (1 : EReal) else 0 := by
  by_cases h : a = b
  · rw [if_pos h, (StableHlo.Predicate.cmpi_eq_iff).2 h]
    show (((BitVec.setWidth 32 1#1).toInt : ℝ) : EReal) = 1
    have : (BitVec.setWidth 32 1#1).toInt = 1 := by decide
    rw [this]; norm_num
  · rw [if_neg h]
    have h0 : IntOp.cmpi .eq a b = 0#1 := ValueIdx.eq_zero_of_ne_one (fun h1 => h ((StableHlo.Predicate.cmpi_eq_iff).1 h1))
    rw [h0]
    show (((BitVec.setWidth 32 0#1).toInt : ℝ) : EReal) = 0
    have : (BitVec.setWidth 32 0#1).toInt = 0 := by decide
    rw [this]; norm_num

/-- The selector at row r and graph slot g: 1 when the row's graph id is g, else 0. -/
theorem k1_pay1_apply (v38 : Vec Ideal S1000x1 .i32) (r : Fin 1000) (g : Fin 512) :
    Cert.KernelIdeal.Gen.k1_pay1 (F := Ideal) v38 (ValueIdx.ix2 r g)
      = if v38 (ValueIdx.ix2 r 0) = BitVec.ofNat 32 g.val then (1 : EReal) else 0 := by
  unfold Cert.KernelIdeal.Gen.k1_pay1
  rw [ValueIdx.truncf_apply, ValueIdx.sitofp_apply, ValueIdx.extui_apply]
  show FloatOps.sitofp (F := Ideal) .f32 ((IntOp.cmpi .eq
      (broadcastTo S1000x512 (shapeCast S1000x1 v38 shapeCasts_S1000x1_S1000x1) broadcasts_S1000x1_S1000x512 (ValueIdx.ix2 r g))
      (iota .tc S1000x512 32 [1] iota_S1000x512_d1_w32 (ValueIdx.ix2 r g))).setWidth 32) = _
  rw [shapeCast_self, iota_single_apply,
    broadcastTo_apply v38 broadcasts_S1000x1_S1000x512 (ValueIdx.ix2 r g) (ValueIdx.ix2 r 0) (fun a => by
      match a with
      | ⟨0, _⟩ => rfl
      | ⟨1, _⟩ => rfl)]
  exact onehot_word _ _

/-! ## The pooled product: both operands are contracted along their ROW axis -/

/-- The selector operand's row coordinate is the contraction position. -/
theorem pool_lhs_0 (i : S512x256.Idx) (q : dot_S1000x512_S1000x256_S512x256_0_0_1_1_n_n.contr.Idx) :
    (dot_S1000x512_S1000x256_S512x256_0_0_1_1_n_n.lhsIdx i q 0).val = (q ⟨0, by decide⟩).val :=
  dot_S1000x512_S1000x256_S512x256_0_0_1_1_n_n.lhsIdx_val_of_single rfl i q
/-- The selector operand's column coordinate is the result's row. -/
theorem pool_lhs_1 (i : S512x256.Idx) (q : dot_S1000x512_S1000x256_S512x256_0_0_1_1_n_n.contr.Idx) :
    (dot_S1000x512_S1000x256_S512x256_0_0_1_1_n_n.lhsIdx i q 1).val = (i 0).val := by
  unfold DotDims.lhsIdx
  rw [dif_neg (show ¬(1 : Fin S1000x512.rank) ∈ dot_S1000x512_S1000x256_S512x256_0_0_1_1_n_n.lhsBatch by decide), dif_pos (show (1 : Fin S1000x512.rank) ∈ dot_S1000x512_S1000x256_S512x256_0_0_1_1_n_n.lhsNonContracting by decide)]
  rfl
/-- The feature operand's row coordinate is the contraction position. -/
theorem pool_rhs_0 (i : S512x256.Idx) (q : dot_S1000x512_S1000x256_S512x256_0_0_1_1_n_n.contr.Idx) :
    (dot_S1000x512_S1000x256_S512x256_0_0_1_1_n_n.rhsIdx i q 0).val = (q ⟨0, by decide⟩).val :=
  dot_S1000x512_S1000x256_S512x256_0_0_1_1_n_n.rhsIdx_val_of_single rfl i q
/-- The feature operand's column coordinate is the result's column. -/
theorem pool_rhs_1 (i : S512x256.Idx) (q : dot_S1000x512_S1000x256_S512x256_0_0_1_1_n_n.contr.Idx) :
    (dot_S1000x512_S1000x256_S512x256_0_0_1_1_n_n.rhsIdx i q 1).val = (i 1).val := by
  unfold DotDims.rhsIdx
  rw [dif_neg (show ¬(1 : Fin S1000x256.rank) ∈ dot_S1000x512_S1000x256_S512x256_0_0_1_1_n_n.rhsBatch by decide), dif_pos (show (1 : Fin S1000x256.rank) ∈ dot_S1000x512_S1000x256_S512x256_0_0_1_1_n_n.rhsNonContracting by decide)]
  rfl

/-- The product of a [1000,512] operand and a [1000,256] operand contracted along their rows, onto
    the zero accumulator, at (g, d): the sum over the 1000 rows of the products. -/
theorem pool_matmul_apply (A : FVec Ideal S1000x512 .bf16) (B : FVec Ideal S1000x256 .bf16) (g : Fin 512) (d : Fin 256) :
    matmul dot_S1000x512_S1000x256_S512x256_0_0_1_1_n_n none A B (constant S512x256 .f32 0x00000000#32) (ValueIdx.ix2 g d)
      = ∑ r : Fin 1000, A (ValueIdx.ix2 r g) * B (ValueIdx.ix2 r d) := by
  simp only [matmul]
  rw [Ideal.matmul_constant_zero_apply, ← Equiv.sum_comp (ValueIdx.contrEquiv1 dot_S1000x512_S1000x256_S512x256_0_0_1_1_n_n 1000 rfl rfl).symm]
  refine Finset.sum_congr rfl fun k _ => ?_
  have hk := ValueIdx.contrEquiv1_symm_val dot_S1000x512_S1000x256_S512x256_0_0_1_1_n_n 1000 rfl rfl k
  have el : dot_S1000x512_S1000x256_S512x256_0_0_1_1_n_n.lhsIdx (ValueIdx.ix2 g d) ((ValueIdx.contrEquiv1 dot_S1000x512_S1000x256_S512x256_0_0_1_1_n_n 1000 rfl rfl).symm k) = ValueIdx.ix2 k g := funext fun a => Fin.ext (by
    match a with
    | ⟨0, _⟩ => exact (pool_lhs_0 _ _).trans hk
    | ⟨1, _⟩ => exact pool_lhs_1 _ _)
  have er : dot_S1000x512_S1000x256_S512x256_0_0_1_1_n_n.rhsIdx (ValueIdx.ix2 g d) ((ValueIdx.contrEquiv1 dot_S1000x512_S1000x256_S512x256_0_0_1_1_n_n 1000 rfl rfl).symm k) = ValueIdx.ix2 k d := funext fun a => Fin.ext (by
    match a with
    | ⟨0, _⟩ => exact (pool_rhs_0 _ _).trans hk
    | ⟨1, _⟩ => exact pool_rhs_1 _ _)
  rw [el, er]

/-- The first accumulation at (g, d): the accumulator there plus the sum over the block's rows of
    selector times feature. -/
theorem k1_pay2_apply (v4 : FVec Ideal S1000x256 .f32) (v38 : Vec Ideal S1000x1 .i32) (v48 : Vec Ideal S512x256 .f32)
    (g : Fin 512) (d : Fin 256) :
    Cert.KernelIdeal.Gen.k1_pay2 (F := Ideal) v4 v38 v48 (ValueIdx.ix2 g d)
      = v48 (ValueIdx.ix2 g d) + ∑ r : Fin 1000, Cert.KernelIdeal.Gen.k1_pay1 (F := Ideal) v38 (ValueIdx.ix2 r g) * v4 (ValueIdx.ix2 r d) := by
  unfold Cert.KernelIdeal.Gen.k1_pay2
  rw [shapeCast_self, ValueIdx.addf_apply, pool_matmul_apply]
  rfl

/-- The second accumulation at (g, d), likewise. -/
theorem k1_pay3_apply (v37 : FVec Ideal S1000x256 .f32) (v38 : Vec Ideal S1000x1 .i32) (v54 : Vec Ideal S512x256 .f32)
    (g : Fin 512) (d : Fin 256) :
    Cert.KernelIdeal.Gen.k1_pay3 (F := Ideal) v37 v38 v54 (ValueIdx.ix2 g d)
      = v54 (ValueIdx.ix2 g d) + ∑ r : Fin 1000, Cert.KernelIdeal.Gen.k1_pay1 (F := Ideal) v38 (ValueIdx.ix2 r g) * v37 (ValueIdx.ix2 r d) := by
  unfold Cert.KernelIdeal.Gen.k1_pay3
  rw [shapeCast_self, ValueIdx.addf_apply, pool_matmul_apply]
  rfl

/-! ## The stores to the outputs and the resets -/

/-- A [512,256] value stored as a [1,512,256] block reads (0, g, d) at (g, d). -/
theorem k1_pay4_apply (v63 : Vec Ideal S512x256 .f32) (g : Fin 512) (d : Fin 256) :
    Cert.KernelIdeal.Gen.k1_pay4 (F := Ideal) v63 (ValueIdx.ix3 0 g d) = v63 (ValueIdx.ix2 g d) := by
  unfold Cert.KernelIdeal.Gen.k1_pay4
  exact ValueIdx.shapeCast_ab_1ab_apply v63 shapeCasts_S512x256_S1x512x256 0 g d

theorem k1_pay5_apply (v67 : Vec Ideal S512x256 .f32) (g : Fin 512) (d : Fin 256) :
    Cert.KernelIdeal.Gen.k1_pay5 (F := Ideal) v67 (ValueIdx.ix3 0 g d) = v67 (ValueIdx.ix2 g d) := by
  unfold Cert.KernelIdeal.Gen.k1_pay5
  exact ValueIdx.shapeCast_ab_1ab_apply v67 shapeCasts_S512x256_S1x512x256 0 g d

/-- The reset value is zero everywhere. -/
theorem k1_pay6_apply (g : Fin 512) (d : Fin 256) :
    Cert.KernelIdeal.Gen.k1_pay6 (F := Ideal) (ValueIdx.ix2 g d) = 0 := by
  unfold Cert.KernelIdeal.Gen.k1_pay6
  rw [shapeCast_self]
  exact Ideal.ofBits_zero_f32

theorem k1_pay7_apply (g : Fin 512) (d : Fin 256) :
    Cert.KernelIdeal.Gen.k1_pay7 (F := Ideal) (ValueIdx.ix2 g d) = 0 := by
  unfold Cert.KernelIdeal.Gen.k1_pay7
  rw [shapeCast_self]
  exact Ideal.ofBits_zero_f32

end Cert.Hand
-- ==== Proof.KernelIdeal.Value1.lean ====
/- What REGION 1 of @main (the second layer's MLP and the add-pool, over 2 groups of 25 row blocks of 1000 rows) leaves
   in its two output arrays, index by index, at the ideal values. Each accumulator restarts at the first point of a
   group from zero plus that point's pooled product — the sum over the block's rows of the row's one-hot selector times
   the row's features — and adds the point's pooled product at every later point; the outputs are the accumulators'
   copies at the last point of the group, the only one written back. So entry (cc, g, d) of an output array is the
   sum, over the 25 row blocks of group cc and the 1000 rows of each, of the selector of slot g times the row's
   feature d: for output 9 the feature is the first layer's result, for output 10 the second layer's MLP of the row. -/
import proofs.«420545_j11647951307430_3_alg».proof.Proof.KernelIdeal.Region1
import proofs.«420545_j11647951307430_3_alg».proof.Proof.Pay1
import Idealize.ShloMosaic.Lib.Pipeline.Value
import Idealize.ShloMosaic.Lib.ValueIdx
import Idealize.ShloMosaic.PureOps.Ideal.Laws

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! ## The accumulation over a group of 25 points, once -/

/-- Point k of group cc is a point of the grid. -/
theorem pool_lt_N (cc : Fin 2) (k : ℕ) (hk : k < 25) : cc.val * 25 + k < cfg1.N := by
  have hN : cfg1.N = 50 := N_1
  have := cc.isLt
  omega

/-- A point-indexed accumulator that restarts, at the first point of a group of 25, from a zero block plus the point's
    pooled product, and adds the point's pooled product at every later point, holds after point k of group cc the sum
    of the pooled products of points 0..k of the group. `P` is the accumulating payload, known only by its value at an
    index (`hP`); `Y` the features' block and `B` the graph ids' block at a point. -/
theorem pooled_acc
    (P : FVec Ideal S1000x256 .f32 → Vec Ideal S1000x1 .i32 → Vec Ideal S512x256 .f32 → FVec Ideal S512x256 .f32)
    (hP : ∀ (v4 : FVec Ideal S1000x256 .f32) (v38 : Vec Ideal S1000x1 .i32) (v48 : Vec Ideal S512x256 .f32) (g : Fin 512) (d : Fin 256),
      P v4 v38 v48 (ValueIdx.ix2 g d) = v48 (ValueIdx.ix2 g d) + ∑ r : Fin 1000, k1_pay1 (F := Ideal) v38 (ValueIdx.ix2 r g) * v4 (ValueIdx.ix2 r d))
    (Y : Fin cfg1.N → FVec Ideal S1000x256 .f32) (B : Fin cfg1.N → Vec Ideal S1000x1 .i32)
    (Z0 : Vec Ideal S512x256 .f32) (hZ : ∀ (g : Fin 512) (d : Fin 256), Z0 (ValueIdx.ix2 g d) = 0)
    (f : (n : ℕ) → n < cfg1.N → Vec Ideal S512x256 .f32)
    (h0 : ∀ (n : ℕ) (h : n < cfg1.N), n % 25 = 0 → f n h = P (Y ⟨n, h⟩) (B ⟨n, h⟩) Z0)
    (hs : ∀ (n : ℕ) (h : n + 1 < cfg1.N), ¬(n + 1) % 25 = 0 →
      f (n + 1) h = P (Y ⟨n + 1, h⟩) (B ⟨n + 1, h⟩) (f n (Nat.lt_of_succ_lt h)))
    (cc : Fin 2) (g : Fin 512) (d : Fin 256) :
    ∀ (k : ℕ) (hk : k < 25), f (cc.val * 25 + k) (pool_lt_N cc k hk) (ValueIdx.ix2 g d)
      = ∑ s : Fin (k + 1), ∑ r : Fin 1000,
          k1_pay1 (F := Ideal) (B ⟨cc.val * 25 + s.val, pool_lt_N cc s.val (by have := s.isLt; omega)⟩) (ValueIdx.ix2 r g)
            * Y ⟨cc.val * 25 + s.val, pool_lt_N cc s.val (by have := s.isLt; omega)⟩ (ValueIdx.ix2 r d)
  | 0, hk => by
    rw [h0 (cc.val * 25 + 0) (pool_lt_N cc 0 hk) (by omega), hP, hZ, zero_add, Fin.sum_univ_one]
    rfl
  | k + 1, hk => by
    have ih := pooled_acc P hP Y B Z0 hZ f h0 hs cc g d k (by omega)
    rw [show f (cc.val * 25 + (k + 1)) (pool_lt_N cc (k + 1) hk) = f (cc.val * 25 + k + 1) (pool_lt_N cc (k + 1) hk) from rfl,
      hs (cc.val * 25 + k) (pool_lt_N cc (k + 1) hk) (by omega), hP, ih, Fin.sum_univ_castSucc (n := k + 1)]
    rfl

/-- The same-shape cast of the features' block is the block. -/
theorem k1_pay8_eq (v3 : Vec Ideal S1000x256 .f32) : k1_pay8 (F := Ideal) v3 = v3 := by
  unfold k1_pay8
  exact shapeCast_self _ _

/-- Two blocks of shape (1, 512, 256) that agree at every (0, g, d) are equal. -/
theorem ext_1x512x256 {α : Type} (u v : S1x512x256.Idx → α)
    (h : ∀ (g : Fin 512) (d : Fin 256), u (ValueIdx.ix3 0 g d) = v (ValueIdx.ix3 0 g d)) : u = v := by
  funext y
  have e := ValueIdx.eq_ix3 y
  have h0 : (y 0 : Nat) < 1 := (y 0).isLt
  have e0 : y 0 = (0 : Fin 1) := Fin.ext (by show (y 0 : Nat) = 0; omega)
  rw [e0] at e
  rw [e]
  exact h _ _

section Value1

-- the TensorCore's buffer contents when the region is entered, at the ideal values
variable (V : (c : Dev nD) → (b : Ref sig .tc) → Buf (Elt Ideal) ((c : Thread nD τ).loc b))

/-! ## The arrays and the blocks, by their literal types -/

/-- The first layer's result, the second layer's neighbour sum and the graph ids' column, as the region finds them. -/
abbrev h1A (c : Dev nD) : Vec Ideal S50000x256 .f32 := V c main_v20
abbrev aggA (c : Dev nD) : Vec Ideal S50000x256 .f32 := V c main_v30
abbrev batA (c : Dev nD) : Vec Ideal S50000x1 .i32 := V c main_v31
/-- Their blocks of 1000 rows at point `t`. -/
abbrev xB1 (c : Dev nD) (t : Fin cfg1.N) : Vec Ideal S1000x256 .f32 := iblk1 V c 0 t
abbrev aB1 (c : Dev nD) (t : Fin cfg1.N) : Vec Ideal S1000x256 .f32 := iblk1 V c 1 t
abbrev bB1 (c : Dev nD) (t : Fin cfg1.N) : Vec Ideal S1000x1 .i32 := iblk1 V c 2 t

/-- Row p of the row block of point t is a row of the arrays. -/
theorem row_lt1 (t : Fin cfg1.N) (p : Fin 1000) : t.val * 1000 + p.val < 50000 := by
  have hN : cfg1.N = 50 := N_1
  have := t.isLt; have := p.isLt; omega

/-- Row r of row block blk of group cc, as a row of the arrays. -/
abbrev poolRow (cc : Fin 2) (blk : Fin 25) (r : Fin 1000) : Fin 50000 :=
  ⟨(cc.val * 25 + blk.val) * 1000 + r.val, by have := cc.isLt; have := blk.isLt; have := r.isLt; omega⟩

/-- The group of a point. -/
abbrev groupOf1 (t : Fin cfg1.N) : Fin 2 := ⟨t.val / 25, by have hN : cfg1.N = 50 := N_1; have := t.isLt; omega⟩

/-- The one-hot selector: 1 when row i's graph id is slot g, else 0. -/
abbrev selOf1 (c : Dev nD) (i : Fin 50000) (g : Fin 512) : EReal :=
  if batA V c (ValueIdx.ix2 i 0) = BitVec.ofNat 32 g.val then (1 : EReal) else 0

/-! ## From blocks to the arrays -/

/-- The index maps of the three row-blocked inputs, decided over the grid: the row block is the point's. -/
theorem idx_in1 : ∀ t : Fin cfg1.N, (win1_0.index t 0 = t.val ∧ win1_0.index t 1 = 0) ∧ (win1_1.index t 0 = t.val ∧ win1_1.index t 1 = 0)
    ∧ (win1_2.index t 0 = t.val ∧ win1_2.index t 1 = 0) :=
  (by decide +kernel : ∀ t : Fin grid1.N, (win1_0.index t 0 = t.val ∧ win1_0.index t 1 = 0) ∧ (win1_1.index t 0 = t.val ∧ win1_1.index t 1 = 0)
    ∧ (win1_2.index t 0 = t.val ∧ win1_2.index t 1 = 0))
/-- The index maps of the two outputs: the block is the point's group's. -/
theorem idx_out1 : ∀ t : Fin cfg1.N, (win1_9.index t 0 = t.val / 25 ∧ win1_9.index t 1 = 0 ∧ win1_9.index t 2 = 0)
    ∧ (win1_10.index t 0 = t.val / 25 ∧ win1_10.index t 1 = 0 ∧ win1_10.index t 2 = 0) :=
  (by decide +kernel : ∀ t : Fin grid1.N, (win1_9.index t 0 = t.val / 25 ∧ win1_9.index t 1 = 0 ∧ win1_9.index t 2 = 0)
    ∧ (win1_10.index t 0 = t.val / 25 ∧ win1_10.index t 1 = 0 ∧ win1_10.index t 2 = 0))

/-- A row-blocked input's block at point t, read at (p, j), is its array at row t·1000 + p. -/
theorem iblk1_0_apply (c : Dev nD) (t : Fin cfg1.N) (p : Fin 1000) (j : Fin 256) :
    xB1 V c t (ValueIdx.ix2 p j) = h1A V c (ValueIdx.ix2 ⟨t.val * 1000 + p.val, row_lt1 t p⟩ j) := by
  have hi := (idx_in1 t).1
  unfold xB1 iblk1
  rw [View.read_apply]
  show V c main_v20 _ = V c main_v20 _
  congr 1
  funext a
  apply Fin.ext
  match a with
  | ⟨0, _⟩ => show win1_0.index t 0 * 1000 + 1 * p.val = t.val * 1000 + p.val; rw [hi.1]; omega
  | ⟨1, _⟩ => show win1_0.index t 1 * 256 + 1 * j.val = j.val; rw [hi.2]; omega

theorem iblk1_1_apply (c : Dev nD) (t : Fin cfg1.N) (p : Fin 1000) (j : Fin 256) :
    aB1 V c t (ValueIdx.ix2 p j) = aggA V c (ValueIdx.ix2 ⟨t.val * 1000 + p.val, row_lt1 t p⟩ j) := by
  have hi := (idx_in1 t).2.1
  unfold aB1 iblk1
  rw [View.read_apply]
  show V c main_v30 _ = V c main_v30 _
  congr 1
  funext a
  apply Fin.ext
  match a with
  | ⟨0, _⟩ => show win1_1.index t 0 * 1000 + 1 * p.val = t.val * 1000 + p.val; rw [hi.1]; omega
  | ⟨1, _⟩ => show win1_1.index t 1 * 256 + 1 * j.val = j.val; rw [hi.2]; omega

theorem iblk1_2_apply (c : Dev nD) (t : Fin cfg1.N) (p : Fin 1000) :
    bB1 V c t (ValueIdx.ix2 p 0) = batA V c (ValueIdx.ix2 ⟨t.val * 1000 + p.val, row_lt1 t p⟩ 0) := by
  have hi := (idx_in1 t).2.2
  unfold bB1 iblk1
  rw [View.read_apply]
  show V c main_v31 _ = V c main_v31 _
  congr 1
  funext a
  apply Fin.ext
  match a with
  | ⟨0, _⟩ => show win1_2.index t 0 * 1000 + 1 * p.val = t.val * 1000 + p.val; rw [hi.1]; omega
  | ⟨1, _⟩ => show win1_2.index t 1 * 1 + 1 * (0 : Fin 1).val = (0 : Fin 1).val; rw [hi.2]; rfl

/-- A window whose block is its whole array reads the array, at every point. -/
theorem iblk1_3_eq (c : Dev nD) (t : Fin cfg1.N) : (iblk1 V c 3 t : Vec Ideal S256x256 .f32) = V c main_arg11 := by
  have hi : win1_3.index t 0 = 0 ∧ win1_3.index t 1 = 0 := (by decide +kernel : ∀ t : Fin grid1.N, win1_3.index t 0 = 0 ∧ win1_3.index t 1 = 0) t
  funext y
  unfold iblk1
  rw [View.read_apply]
  show V c main_arg11 _ = V c main_arg11 _
  congr 1
  funext a
  apply Fin.ext
  match a with
  | ⟨0, _⟩ => show win1_3.index t 0 * 256 + 1 * (y 0).val = (y 0).val; rw [hi.1]; omega
  | ⟨1, _⟩ => show win1_3.index t 1 * 256 + 1 * (y 1).val = (y 1).val; rw [hi.2]; omega

theorem iblk1_4_eq (c : Dev nD) (t : Fin cfg1.N) : (iblk1 V c 4 t : Vec Ideal S256 .f32) = V c main_arg12 := by
  have hi : win1_4.index t 0 = 0 := (by decide +kernel : ∀ t : Fin grid1.N, win1_4.index t 0 = 0) t
  funext y
  unfold iblk1
  rw [View.read_apply]
  show V c main_arg12 _ = V c main_arg12 _
  congr 1
  funext a
  apply Fin.ext
  match a with
  | ⟨0, _⟩ => show win1_4.index t 0 * 256 + 1 * (y 0).val = (y 0).val; rw [hi]; omega

theorem iblk1_5_eq (c : Dev nD) (t : Fin cfg1.N) : (iblk1 V c 5 t : Vec Ideal S256 .f32) = V c main_v35 := by
  have hi : win1_5.index t 0 = 0 := (by decide +kernel : ∀ t : Fin grid1.N, win1_5.index t 0 = 0) t
  funext y
  unfold iblk1
  rw [View.read_apply]
  show V c main_v35 _ = V c main_v35 _
  congr 1
  funext a
  apply Fin.ext
  match a with
  | ⟨0, _⟩ => show win1_5.index t 0 * 256 + 1 * (y 0).val = (y 0).val; rw [hi]; omega

theorem iblk1_6_eq (c : Dev nD) (t : Fin cfg1.N) : (iblk1 V c 6 t : Vec Ideal S256 .f32) = V c main_v37 := by
  have hi : win1_6.index t 0 = 0 := (by decide +kernel : ∀ t : Fin grid1.N, win1_6.index t 0 = 0) t
  funext y
  unfold iblk1
  rw [View.read_apply]
  show V c main_v37 _ = V c main_v37 _
  congr 1
  funext a
  apply Fin.ext
  match a with
  | ⟨0, _⟩ => show win1_6.index t 0 * 256 + 1 * (y 0).val = (y 0).val; rw [hi]; omega

theorem iblk1_7_eq (c : Dev nD) (t : Fin cfg1.N) : (iblk1 V c 7 t : Vec Ideal S256x256 .f32) = V c main_arg17 := by
  have hi : win1_7.index t 0 = 0 ∧ win1_7.index t 1 = 0 := (by decide +kernel : ∀ t : Fin grid1.N, win1_7.index t 0 = 0 ∧ win1_7.index t 1 = 0) t
  funext y
  unfold iblk1
  rw [View.read_apply]
  show V c main_arg17 _ = V c main_arg17 _
  congr 1
  funext a
  apply Fin.ext
  match a with
  | ⟨0, _⟩ => show win1_7.index t 0 * 256 + 1 * (y 0).val = (y 0).val; rw [hi.1]; omega
  | ⟨1, _⟩ => show win1_7.index t 1 * 256 + 1 * (y 1).val = (y 1).val; rw [hi.2]; omega

theorem iblk1_8_eq (c : Dev nD) (t : Fin cfg1.N) : (iblk1 V c 8 t : Vec Ideal S256 .f32) = V c main_arg18 := by
  have hi : win1_8.index t 0 = 0 := (by decide +kernel : ∀ t : Fin grid1.N, win1_8.index t 0 = 0) t
  funext y
  unfold iblk1
  rw [View.read_apply]
  show V c main_arg18 _ = V c main_arg18 _
  congr 1
  funext a
  apply Fin.ext
  match a with
  | ⟨0, _⟩ => show win1_8.index t 0 * 256 + 1 * (y 0).val = (y 0).val; rw [hi]; omega

/-- Output block 9 of a whole-array contents `G`, read at (0, g, d), is `G` at (t / 25, g, d): the block index is the
    group's. -/
theorem blk1_9_read (G : Vec Ideal S2x512x256 .f32) (t : Fin cfg1.N) (g : Fin 512) (d : Fin 256) :
    (((cfg1.win 9).blk t).view.read (Elt Ideal) G : Vec Ideal S1x512x256 .f32) (ValueIdx.ix3 0 g d)
      = G (ValueIdx.ix3 (groupOf1 t) g d) := by
  have hi := (idx_out1 t).1
  rw [View.read_apply]
  show G _ = G _
  congr 1
  funext a
  apply Fin.ext
  match a with
  | ⟨0, _⟩ => show win1_9.index t 0 * 1 + 1 * (0 : Fin 1).val = t.val / 25; rw [hi.1]; show t.val / 25 * 1 + 1 * 0 = _; omega
  | ⟨1, _⟩ => show win1_9.index t 1 * 512 + 1 * g.val = g.val; rw [hi.2.1]; omega
  | ⟨2, _⟩ => show win1_9.index t 2 * 256 + 1 * d.val = d.val; rw [hi.2.2]; omega

/-- Every index of output array 9 lies in the block of the last point of its group, which is written back. -/
theorem cover1_9_arr (i : S2x512x256.Idx) :
    ∃ t : Fin cfg1.N, (cfg1.win 9).flush t = true ∧ i ∈ ((cfg1.win 9).blk t).view.set := by
  have hN : cfg1.N = 50 := N_1
  have h0 : (i 0 : Nat) < 2 := (i 0).isLt
  have h1 : (i 1 : Nat) < 512 := (i 1).isLt
  have h2 : (i 2 : Nat) < 256 := (i 2).isLt
  let t : Fin cfg1.N := ⟨(i 0).val * 25 + 24, by omega⟩
  have ht : t.val = (i 0).val * 25 + 24 := rfl
  refine ⟨t, (flush1_9 t).mpr (by rw [ht]; omega), ?_⟩
  have hi := (idx_out1 t).1
  show i ∈ ((View.whole main_v38_0).slice (win1_9.rect t)).set
  rw [View.set_slice_whole, Rect.mem_set_unit]
  intro a
  match a with
  | ⟨0, _⟩ => show win1_9.index t 0 * win1_9.size 0 ≤ (i 0 : Nat) ∧ (i 0 : Nat) < win1_9.index t 0 * win1_9.size 0 + win1_9.xsize (grid1.coords t) 0
              rw [hi.1, show win1_9.size 0 = 1 from rfl, show win1_9.xsize (grid1.coords t) 0 = 1 from rfl, ht]; omega
  | ⟨1, _⟩ => show win1_9.index t 1 * win1_9.size 1 ≤ (i 1 : Nat) ∧ (i 1 : Nat) < win1_9.index t 1 * win1_9.size 1 + win1_9.xsize (grid1.coords t) 1
              rw [hi.2.1, show win1_9.xsize (grid1.coords t) 1 = 512 from rfl]; omega
  | ⟨2, _⟩ => show win1_9.index t 2 * win1_9.size 2 ≤ (i 2 : Nat) ∧ (i 2 : Nat) < win1_9.index t 2 * win1_9.size 2 + win1_9.xsize (grid1.coords t) 2
              rw [hi.2.2, show win1_9.xsize (grid1.coords t) 2 = 256 from rfl]; omega

/-- Output block 10 of a whole-array contents `G`, read at (0, g, d), is `G` at (t / 25, g, d): the block index is the
    group's. -/
theorem blk1_10_read (G : Vec Ideal S2x512x256 .f32) (t : Fin cfg1.N) (g : Fin 512) (d : Fin 256) :
    (((cfg1.win 10).blk t).view.read (Elt Ideal) G : Vec Ideal S1x512x256 .f32) (ValueIdx.ix3 0 g d)
      = G (ValueIdx.ix3 (groupOf1 t) g d) := by
  have hi := (idx_out1 t).2
  rw [View.read_apply]
  show G _ = G _
  congr 1
  funext a
  apply Fin.ext
  match a with
  | ⟨0, _⟩ => show win1_10.index t 0 * 1 + 1 * (0 : Fin 1).val = t.val / 25; rw [hi.1]; show t.val / 25 * 1 + 1 * 0 = _; omega
  | ⟨1, _⟩ => show win1_10.index t 1 * 512 + 1 * g.val = g.val; rw [hi.2.1]; omega
  | ⟨2, _⟩ => show win1_10.index t 2 * 256 + 1 * d.val = d.val; rw [hi.2.2]; omega

/-- Every index of output array 10 lies in the block of the last point of its group, which is written back. -/
theorem cover1_10_arr (i : S2x512x256.Idx) :
    ∃ t : Fin cfg1.N, (cfg1.win 10).flush t = true ∧ i ∈ ((cfg1.win 10).blk t).view.set := by
  have hN : cfg1.N = 50 := N_1
  have h0 : (i 0 : Nat) < 2 := (i 0).isLt
  have h1 : (i 1 : Nat) < 512 := (i 1).isLt
  have h2 : (i 2 : Nat) < 256 := (i 2).isLt
  let t : Fin cfg1.N := ⟨(i 0).val * 25 + 24, by omega⟩
  have ht : t.val = (i 0).val * 25 + 24 := rfl
  refine ⟨t, (flush1_10 t).mpr (by rw [ht]; omega), ?_⟩
  have hi := (idx_out1 t).2
  show i ∈ ((View.whole main_v38_1).slice (win1_10.rect t)).set
  rw [View.set_slice_whole, Rect.mem_set_unit]
  intro a
  match a with
  | ⟨0, _⟩ => show win1_10.index t 0 * win1_10.size 0 ≤ (i 0 : Nat) ∧ (i 0 : Nat) < win1_10.index t 0 * win1_10.size 0 + win1_10.xsize (grid1.coords t) 0
              rw [hi.1, show win1_10.size 0 = 1 from rfl, show win1_10.xsize (grid1.coords t) 0 = 1 from rfl, ht]; omega
  | ⟨1, _⟩ => show win1_10.index t 1 * win1_10.size 1 ≤ (i 1 : Nat) ∧ (i 1 : Nat) < win1_10.index t 1 * win1_10.size 1 + win1_10.xsize (grid1.coords t) 1
              rw [hi.2.1, show win1_10.xsize (grid1.coords t) 1 = 512 from rfl]; omega
  | ⟨2, _⟩ => show win1_10.index t 2 * win1_10.size 2 ≤ (i 2 : Nat) ∧ (i 2 : Nat) < win1_10.index t 2 * win1_10.size 2 + win1_10.xsize (grid1.coords t) 2
              rw [hi.2.2, show win1_10.xsize (grid1.coords t) 2 = 256 from rfl]; omega

/-! ## The accumulators after each point -/

/-- Accumulator 13 restarts at the first point of a group, -/
theorem acc13_reset (c : Dev nD) (n : ℕ) (h : n < cfg1.N) (h0 : n % 25 = 0) :
    (outsAt1 V c n h).2.1 = k1_pay2 (F := Ideal) (k1_pay8 (xB1 V c ⟨n, h⟩)) (bB1 V c ⟨n, h⟩) (k1_pay6 (F := Ideal)) := by
  have e := outsAt1_A V c ⟨n, h⟩ h0
  exact congrArg Prod.fst e
/-- and goes on from the point before at every other point. -/
theorem acc13_step (c : Dev nD) (n : ℕ) (h : n + 1 < cfg1.N) (hne : ¬(n + 1) % 25 = 0) :
    (outsAt1 V c (n + 1) h).2.1
      = k1_pay2 (F := Ideal) (k1_pay8 (xB1 V c ⟨n + 1, h⟩)) (bB1 V c ⟨n + 1, h⟩) (outsAt1 V c n (Nat.lt_of_succ_lt h)).2.1 := by
  by_cases h1 : (n + 1) % 25 = 24
  · have e := outsAt1_C V c ⟨n + 1, h⟩ h1
    exact congrArg (fun z => z.2.1) e
  · have e := outsAt1_B V c ⟨n + 1, h⟩ hne h1
    exact congrArg (fun z => z.2.1) e

/-- The second layer's MLP of the point's rows: the features accumulator 14 pools. -/
abbrev yB1 (c : Dev nD) (t : Fin cfg1.N) : FVec Ideal S1000x256 .f32 :=
  k1_pay9 (F := Ideal) (iblk1 V c 0 t) (iblk1 V c 1 t) (iblk1 V c 3 t) (iblk1 V c 4 t) (iblk1 V c 5 t) (iblk1 V c 6 t) (iblk1 V c 7 t) (iblk1 V c 8 t)

/-- Accumulator 14 restarts at the first point of a group, -/
theorem acc14_reset (c : Dev nD) (n : ℕ) (h : n < cfg1.N) (h0 : n % 25 = 0) :
    (outsAt1 V c n h).2.2 = k1_pay3 (F := Ideal) (yB1 V c ⟨n, h⟩) (bB1 V c ⟨n, h⟩) (k1_pay7 (F := Ideal)) := by
  have e := outsAt1_A V c ⟨n, h⟩ h0
  exact congrArg Prod.snd e
/-- and goes on from the point before at every other point. -/
theorem acc14_step (c : Dev nD) (n : ℕ) (h : n + 1 < cfg1.N) (hne : ¬(n + 1) % 25 = 0) :
    (outsAt1 V c (n + 1) h).2.2
      = k1_pay3 (F := Ideal) (yB1 V c ⟨n + 1, h⟩) (bB1 V c ⟨n + 1, h⟩) (outsAt1 V c n (Nat.lt_of_succ_lt h)).2.2 := by
  by_cases h1 : (n + 1) % 25 = 24
  · have e := outsAt1_C V c ⟨n + 1, h⟩ h1
    exact congrArg (fun z => z.2.2) e
  · have e := outsAt1_B V c ⟨n + 1, h⟩ hne h1
    exact congrArg (fun z => z.2.2) e

/-- The accumulators' contents depend on the point only. -/
theorem outsAt1_congr (c : Dev nD) (u v : ℕ) (hu : u < cfg1.N) (hv : v < cfg1.N) (e : u = v) :
    outsAt1 V c u hu = outsAt1 V c v hv := by
  subst e; rfl

/-- At the last point of a group, the point is 24 past the group's first. -/
theorem last_eq1 (t : Fin cfg1.N) (h24 : t.val % 25 = 24) : t.val = (groupOf1 t).val * 25 + 24 := by
  show t.val = t.val / 25 * 25 + 24
  omega

/-- ACCUMULATOR 13 AFTER THE LAST POINT OF A GROUP: the pooled first-layer result of the group's 25000 rows. -/
theorem acc13_last (c : Dev nD) (t : Fin cfg1.N) (h24 : t.val % 25 = 24) (g : Fin 512) (d : Fin 256) :
    (outsAt1 V c t.val t.isLt).2.1 (ValueIdx.ix2 g d)
      = ∑ blk : Fin 25, ∑ r : Fin 1000, selOf1 V c (poolRow (groupOf1 t) blk r) g * h1A V c (ValueIdx.ix2 (poolRow (groupOf1 t) blk r) d) := by
  rw [outsAt1_congr V c t.val ((groupOf1 t).val * 25 + 24) t.isLt (pool_lt_N (groupOf1 t) 24 (by decide)) (last_eq1 t h24)]
  refine (pooled_acc (k1_pay2 (F := Ideal)) Cert.Hand.k1_pay2_apply (fun t => k1_pay8 (F := Ideal) (xB1 V c t)) (fun t => bB1 V c t)
    (k1_pay6 (F := Ideal)) Cert.Hand.k1_pay6_apply (fun n h => (outsAt1 V c n h).2.1) (acc13_reset V c) (acc13_step V c)
    (groupOf1 t) g d 24 (by decide)).trans ?_
  refine Finset.sum_congr rfl fun blk _ => Finset.sum_congr rfl fun r _ => ?_
  dsimp only
  rw [Cert.Hand.k1_pay1_apply, k1_pay8_eq, iblk1_2_apply, iblk1_0_apply]

/-- ACCUMULATOR 14 AFTER THE LAST POINT OF A GROUP: the pooled second-layer MLP of the group's 25000 rows, the MLP of
    a row known by `hrow` as a function `ROW` of the row's sum of the first layer's result and its neighbour sum. -/
theorem acc14_last (c : Dev nD) (ROW : (Fin 256 → EReal) → Fin 256 → EReal)
    (hrow : ∀ (v3 v5 : Vec Ideal S1000x256 .f32) (p : Fin 1000) (q : Fin 256),
      k1_pay9 (F := Ideal) v3 v5 (V c main_arg11) (V c main_arg12) (V c main_v35) (V c main_v37) (V c main_arg17) (V c main_arg18) (ValueIdx.ix2 p q)
        = ROW (fun j => v3 (ValueIdx.ix2 p j) + v5 (ValueIdx.ix2 p j)) q)
    (t : Fin cfg1.N) (h24 : t.val % 25 = 24) (g : Fin 512) (d : Fin 256) :
    (outsAt1 V c t.val t.isLt).2.2 (ValueIdx.ix2 g d)
      = ∑ blk : Fin 25, ∑ r : Fin 1000, selOf1 V c (poolRow (groupOf1 t) blk r) g
          * ROW (fun j => h1A V c (ValueIdx.ix2 (poolRow (groupOf1 t) blk r) j) + aggA V c (ValueIdx.ix2 (poolRow (groupOf1 t) blk r) j)) d := by
  rw [outsAt1_congr V c t.val ((groupOf1 t).val * 25 + 24) t.isLt (pool_lt_N (groupOf1 t) 24 (by decide)) (last_eq1 t h24)]
  refine (pooled_acc (k1_pay3 (F := Ideal)) Cert.Hand.k1_pay3_apply (fun t => yB1 V c t) (fun t => bB1 V c t)
    (k1_pay7 (F := Ideal)) Cert.Hand.k1_pay7_apply (fun n h => (outsAt1 V c n h).2.2) (acc14_reset V c) (acc14_step V c)
    (groupOf1 t) g d 24 (by decide)).trans ?_
  refine Finset.sum_congr rfl fun blk _ => Finset.sum_congr rfl fun r _ => ?_
  dsimp only
  rw [Cert.Hand.k1_pay1_apply, iblk1_2_apply]
  unfold yB1
  rw [iblk1_3_eq, iblk1_4_eq, iblk1_5_eq, iblk1_6_eq, iblk1_7_eq, iblk1_8_eq, hrow]
  simp only [iblk1_0_apply, iblk1_1_apply]

/-! ## The two output arrays -/

/-- Output array 9 after the region: entry (cc, g, d) is the pooled first-layer result of group cc. -/
def G9 (c : Dev nD) : Vec Ideal S2x512x256 .f32 := fun i =>
  ∑ blk : Fin 25, ∑ r : Fin 1000, selOf1 V c (poolRow (i 0) blk r) (i 1) * h1A V c (ValueIdx.ix2 (poolRow (i 0) blk r) (i 2))

/-- Output array 10 after the region: entry (cc, g, d) is the pooled second-layer MLP of group cc. -/
def G10 (c : Dev nD) (ROW : (Fin 256 → EReal) → Fin 256 → EReal) : Vec Ideal S2x512x256 .f32 := fun i =>
  ∑ blk : Fin 25, ∑ r : Fin 1000, selOf1 V c (poolRow (i 0) blk r) (i 1)
    * ROW (fun j => h1A V c (ValueIdx.ix2 (poolRow (i 0) blk r) j) + aggA V c (ValueIdx.ix2 (poolRow (i 0) blk r) j)) (i 2)

/-- What the write-back of output 9 writes, at a point that writes back (the last of a group), is its block of `G9`. -/
theorem flushed1_9_eq (c : Dev nD) (t : Fin cfg1.N) (hf : (cfg1.win 9).flush t = true) :
    (dat1 V c).flushed 9 t = ((cfg1.win 9).blk t).view.read (Elt Ideal) (G9 V c) := by
  have h24 : t.val % 25 = 24 := (flush1_9 t).mp hf
  show (cfg1.win 9).cut (grid1.coords t) ((dat1 V c).after 9 t) = _
  rw [after1_9]
  refine ext_1x512x256 (α := Elt Ideal .f32) _ _ fun g d => ?_
  rw [blk1_9_read]
  show (outsAt1 V c t.val t.isLt).1.1 (ValueIdx.ix3 0 g d) = _
  have e1 : (outsAt1 V c t.val t.isLt).1.1 = k1_pay4 (F := Ideal) (outsAt1 V c t.val t.isLt).2.1 := by
    have e := outsAt1_C V c t h24
    rw [e]
  rw [e1, Cert.Hand.k1_pay4_apply, acc13_last V c t h24 g d]
  rfl

/-- What the write-back of output 10 writes, at a point that writes back, is its block of `G10`. -/
theorem flushed1_10_eq (c : Dev nD) (ROW : (Fin 256 → EReal) → Fin 256 → EReal)
    (hrow : ∀ (v3 v5 : Vec Ideal S1000x256 .f32) (p : Fin 1000) (q : Fin 256),
      k1_pay9 (F := Ideal) v3 v5 (V c main_arg11) (V c main_arg12) (V c main_v35) (V c main_v37) (V c main_arg17) (V c main_arg18) (ValueIdx.ix2 p q)
        = ROW (fun j => v3 (ValueIdx.ix2 p j) + v5 (ValueIdx.ix2 p j)) q)
    (t : Fin cfg1.N) (hf : (cfg1.win 10).flush t = true) :
    (dat1 V c).flushed 10 t = ((cfg1.win 10).blk t).view.read (Elt Ideal) (G10 V c ROW) := by
  have h24 : t.val % 25 = 24 := (flush1_10 t).mp hf
  show (cfg1.win 10).cut (grid1.coords t) ((dat1 V c).after 10 t) = _
  rw [after1_10]
  refine ext_1x512x256 (α := Elt Ideal .f32) _ _ fun g d => ?_
  rw [blk1_10_read]
  show (outsAt1 V c t.val t.isLt).1.2 (ValueIdx.ix3 0 g d) = _
  have e1 : (outsAt1 V c t.val t.isLt).1.2 = k1_pay5 (F := Ideal) (outsAt1 V c t.val t.isLt).2.2 := by
    have e := outsAt1_C V c t h24
    rw [e]
  rw [e1, Cert.Hand.k1_pay5_apply, acc14_last V c ROW hrow t h24 g d]
  rfl

/-- Output array 9 ends holding `G9`: the last points of the two groups write its two blocks, which cover it. -/
theorem arr9_eq (c : Dev nD) : (dat1 V c).arrAt 9 cfg1.N = G9 V c :=
  (dat1 V c).arrAt_eq_of_cover 9 (G9 V c) (flushed1_9_eq V c) cover1_9_arr

/-- Output array 10 ends holding `G10`. -/
theorem arr10_eq (c : Dev nD) (ROW : (Fin 256 → EReal) → Fin 256 → EReal)
    (hrow : ∀ (v3 v5 : Vec Ideal S1000x256 .f32) (p : Fin 1000) (q : Fin 256),
      k1_pay9 (F := Ideal) v3 v5 (V c main_arg11) (V c main_arg12) (V c main_v35) (V c main_v37) (V c main_arg17) (V c main_arg18) (ValueIdx.ix2 p q)
        = ROW (fun j => v3 (ValueIdx.ix2 p j) + v5 (ValueIdx.ix2 p j)) q) :
    (dat1 V c).arrAt 10 cfg1.N = G10 V c ROW :=
  (dat1 V c).arrAt_eq_of_cover 10 (G10 V c ROW) (flushed1_10_eq V c ROW hrow) cover1_10_arr

/-- OUTPUT 9, INDEX BY INDEX: entry (cc, g, d) is the sum over the 25 row blocks of group cc and the 1000 rows of each
    of the row's selector for slot g times the first layer's result at (row, d). -/
theorem arr9_apply (c : Dev nD) (cc : Fin 2) (g : Fin 512) (d : Fin 256) :
    (dat1 V c).arrAt 9 cfg1.N (ValueIdx.ix3 cc g d)
      = ∑ blk : Fin 25, ∑ r : Fin 1000,
          (if V c main_v31 (ValueIdx.ix2 (poolRow cc blk r) 0) = BitVec.ofNat 32 g.val then (1 : EReal) else 0)
            * V c main_v20 (ValueIdx.ix2 (poolRow cc blk r) d) := by
  rw [arr9_eq]
  rfl

/-- OUTPUT 10, INDEX BY INDEX: entry (cc, g, d) is the sum over the 25 row blocks of group cc and the 1000 rows of each
    of the row's selector for slot g times the row's second-layer MLP at d, the MLP a function `ROW` of the row's sum of
    the first layer's result and its neighbour sum (`hrow`). -/
theorem arr10_row (c : Dev nD) (cc : Fin 2) (g : Fin 512) (d : Fin 256) (ROW : (Fin 256 → EReal) → Fin 256 → EReal)
    (hrow : ∀ (v3 v5 : Vec Ideal S1000x256 .f32) (p : Fin 1000) (q : Fin 256),
      k1_pay9 (F := Ideal) v3 v5 (V c main_arg11) (V c main_arg12) (V c main_v35) (V c main_v37) (V c main_arg17) (V c main_arg18) (ValueIdx.ix2 p q)
        = ROW (fun j => v3 (ValueIdx.ix2 p j) + v5 (ValueIdx.ix2 p j)) q) :
    (dat1 V c).arrAt 10 cfg1.N (ValueIdx.ix3 cc g d)
      = ∑ blk : Fin 25, ∑ r : Fin 1000,
          (if V c main_v31 (ValueIdx.ix2 (poolRow cc blk r) 0) = BitVec.ofNat 32 g.val then (1 : EReal) else 0)
            * ROW (fun j => h1A V c (ValueIdx.ix2 (poolRow cc blk r) j) + aggA V c (ValueIdx.ix2 (poolRow cc blk r) j)) d := by
  rw [arr10_eq V c ROW hrow]
  rfl

end Value1

end Cert.KernelIdeal.Hand

end
-- ==== Proof.KernelIdeal.HostTail.lean ====
/- The host operations after the second kernel: the two per-core partial pools are summed over the
   core axis and cut to the first 500 rows, the two results are joined along the feature axis, and
   the classifier and the log-softmax are applied. The final result is the specification's tail map
   on the joined pools. -/
import proofs.«420545_j11647951307430_3_alg».proof.Proof.Gen.KernelIdeal.Regions
import proofs.«420545_j11647951307430_3_alg».proof.Proof.Spec
import Idealize.ShloMosaic.Lib.StableHlo.Run

set_option maxRecDepth 8192

noncomputable section

namespace Cert.KernelIdeal.Hand

open Cert.KernelIdeal Cert.KernelIdeal.Gen Idealize.ShloMosaic Idealize.ShloMosaic.TcCoe Idealize.SL.Sem

variable {F : FTy → Type} [FloatOps F]

/-- The sum of the per-core partial pools over the core axis, rows [0, 500) kept. -/
def partsPoolK (parts : FVec F S2x512x256 .f32) : FVec F S500x256 .f32 :=
  extractStridedSlice S500x256 ![0, 0] (Host.reduceAdd parts (constant S_ .f32 0x00000000#32) reducesTo_S2x512x256_S512x256_d0 h_S_) slices_S512x256_S500x256_0_0

variable (W : Valuation τ sig (Elt F))

/-- The first stretch: the hidden layer's pre-activation from the two partial pools. -/
theorem after2_v47 :
    (StableHlo.after hostOps2 W (Proc.devRef .tc main_v47) : FVec F S500x768 .f32)
      = addf (Host.dotGeneral dot_S500x512_S512x768_S500x768_1_0_0_1_n_n none
          (concatenate S500x512 1 [⟨S500x256, partsPoolK (W (Proc.devRef .tc main_v38_0))⟩, ⟨S500x256, partsPoolK (W (Proc.devRef .tc main_v38_1))⟩] concatenates_S500x256_S500x256_S500x512_d1)
          (W (Proc.devRef .tc main_arg19)))
        (broadcastInDim S500x768 ![0, 1] bcast_S1x768_S500x768_0_1 (broadcastInDim S1x768 ![1] bcast_S768_S1x768_1 (W (Proc.devRef .tc main_arg20)))) := by
  after_results
  rfl

/-- The second stretch: the ReLU. -/
theorem after2_1_v48 :
    (StableHlo.after hostOps2_1 W (Proc.devRef .tc main_v48) : FVec F S500x768 .f32)
      = maximumf (W (Proc.devRef .tc main_v47)) (broadcastInDim S500x768 ![] bcast_S_S500x768 (constant S_ .f32 0x00000000#32)) := by
  after_results
  simp only [StableHlo.TRef.ofBuf, StableHlo.TRef.toBuf, cast_eq]

/-- The third stretch: the output layer. -/
theorem after2_2_v52 :
    (StableHlo.after hostOps2_2 W (Proc.devRef .tc main_v52) : FVec F S500x10 .f32)
      = addf (Host.dotGeneral dot_S500x768_S768x10_S500x10_1_0_0_1_n_n none (W (Proc.devRef .tc main_v48)) (W (Proc.devRef .tc main_arg21)))
          (broadcastInDim S500x10 ![0, 1] bcast_S1x10_S500x10_0_1 (broadcastInDim S1x10 ![1] bcast_S10_S1x10_1 (W (Proc.devRef .tc main_arg22)))) := by
  after_results

/-- The log-softmax of a [500,10] array over its columns, in the kernel program's spelling. -/
def logSoftmaxK (v52 : FVec F S500x10 .f32) : FVec F S500x10 .f32 :=
  subf (subf v52 (broadcastInDim S500x10 ![0, 1] bcast_S500x1_S500x10_0_1 (broadcastInDim S500x1 ![0] bcast_S500_S500x1_0 (maximumf (broadcastInDim S500 ![] bcast_S_S500 (constant S_ .f32 0xFF800000#32)) (Host.reduce FloatOps.maximumf v52 (constant S_ .f32 0xFF800000#32) reducesTo_S500x10_S500_d1 h_S_)))))
    (broadcastInDim S500x10 ![0, 1] bcast_S500x1_S500x10_0_1 (Host.log (broadcastInDim S500x1 ![0] bcast_S500_S500x1_0 (Host.reduceAdd (Host.exp (subf v52 (broadcastInDim S500x10 ![0, 1] bcast_S500x1_S500x10_0_1 (broadcastInDim S500x1 ![0] bcast_S500_S500x1_0 (maximumf (broadcastInDim S500 ![] bcast_S_S500 (constant S_ .f32 0xFF800000#32)) (Host.reduce FloatOps.maximumf v52 (constant S_ .f32 0xFF800000#32) reducesTo_S500x10_S500_d1 h_S_)))))) (constant S_ .f32 0x00000000#32) reducesTo_S500x10_S500_d1 h_S_))))

/-- The fourth stretch: the log-softmax. -/
theorem after2_3_v53 :
    (StableHlo.after hostOps2_3 W (Proc.devRef .tc main_v53) : FVec F S500x10 .f32)
      = logSoftmaxK (W (Proc.devRef .tc main_v52)) := by
  after_results
  simp only [StableHlo.TRef.ofBuf, StableHlo.TRef.toBuf, cast_eq]
  rfl

variable (m : (ℓ : Loc nD τ sig) → Buf (Elt F) ℓ) (outs : Outs (F := F))

/-- What the second kernel leaves in its first output is read back after it. -/
theorem V4_v38_0 (c : Dev nD) : V4 m outs c main_v38_0 = outs 4 main_v38_0 c := by
  show Function.update (Function.update (V3 m outs c) (Proc.devRef .tc main_v38_0) (outs 4 main_v38_0 c)) (Proc.devRef .tc main_v38_1) (outs 4 main_v38_1 c) (Proc.devRef .tc main_v38_0) = _
  rw [Function.update_of_ne (StableHlo.devRef_ne_of_ne (by decide)), Function.update_self]

/-- What the second kernel leaves in its second output is read back after it. -/
theorem V4_v38_1 (c : Dev nD) : V4 m outs c main_v38_1 = outs 4 main_v38_1 c := by
  show Function.update (Function.update (V3 m outs c) (Proc.devRef .tc main_v38_0) (outs 4 main_v38_0 c)) (Proc.devRef .tc main_v38_1) (outs 4 main_v38_1 c) (Proc.devRef .tc main_v38_1) = _
  rw [Function.update_self]

theorem V4_arg19 (c : Dev nD) : V4 m outs c main_arg19 = m ((c : Thread nD τ).loc main_arg19) :=
  (V4_of m outs c main_arg19 (by decide)).trans <| (V3_of m outs c main_arg19 (by decide)).trans <| (V2_of m outs c main_arg19 (by decide)).trans <| (V1_of m c main_arg19 (by decide)).trans rfl
theorem V4_arg20 (c : Dev nD) : V4 m outs c main_arg20 = m ((c : Thread nD τ).loc main_arg20) :=
  (V4_of m outs c main_arg20 (by decide)).trans <| (V3_of m outs c main_arg20 (by decide)).trans <| (V2_of m outs c main_arg20 (by decide)).trans <| (V1_of m c main_arg20 (by decide)).trans rfl
theorem V6_arg21 (c : Dev nD) : V6 m outs c main_arg21 = m ((c : Thread nD τ).loc main_arg21) :=
  (V6_of m outs c main_arg21 (by decide)).trans <| (V5_of m outs c main_arg21 (by decide)).trans <| (V4_of m outs c main_arg21 (by decide)).trans <| (V3_of m outs c main_arg21 (by decide)).trans <| (V2_of m outs c main_arg21 (by decide)).trans <| (V1_of m c main_arg21 (by decide)).trans rfl
theorem V6_arg22 (c : Dev nD) : V6 m outs c main_arg22 = m ((c : Thread nD τ).loc main_arg22) :=
  (V6_of m outs c main_arg22 (by decide)).trans <| (V5_of m outs c main_arg22 (by decide)).trans <| (V4_of m outs c main_arg22 (by decide)).trans <| (V3_of m outs c main_arg22 (by decide)).trans <| (V2_of m outs c main_arg22 (by decide)).trans <| (V1_of m c main_arg22 (by decide)).trans rfl

/-- The joined pools: the two kernel outputs summed over the cores and cut to 500 rows, side by side. -/
abbrev catK (c : Dev nD) : FVec F S500x512 .f32 :=
  concatenate S500x512 1 [⟨S500x256, partsPoolK (outs 4 main_v38_0 c)⟩, ⟨S500x256, partsPoolK (outs 4 main_v38_1 c)⟩] concatenates_S500x256_S500x256_S500x512_d1

/-- The hidden layer's pre-activation after the first stretch. -/
theorem V5_v47 (c : Dev nD) :
    (V5 m outs c main_v47 : FVec F S500x768 .f32)
      = addf (Host.dotGeneral dot_S500x512_S512x768_S500x768_1_0_0_1_n_n none (catK outs c) (m ((c : Thread nD τ).loc main_arg19)))
          (broadcastInDim S500x768 ![0, 1] bcast_S1x768_S500x768_0_1 (broadcastInDim S1x768 ![1] bcast_S768_S1x768_1 (m ((c : Thread nD τ).loc main_arg20)))) := by
  show StableHlo.after hostOps2 (V4 m outs c) (Proc.devRef .tc main_v47) = _
  rw [after2_v47]
  show addf (Host.dotGeneral _ none (concatenate S500x512 1 [⟨S500x256, partsPoolK (V4 m outs c main_v38_0)⟩, ⟨S500x256, partsPoolK (V4 m outs c main_v38_1)⟩] _) (V4 m outs c main_arg19)) (broadcastInDim S500x768 ![0, 1] _ (broadcastInDim S1x768 ![1] _ (V4 m outs c main_arg20))) = _
  rw [V4_v38_0, V4_v38_1, V4_arg19, V4_arg20]

/-- The output layer after the third stretch. -/
theorem V7_v52 (c : Dev nD) :
    (V7 m outs c main_v52 : FVec F S500x10 .f32)
      = addf (Host.dotGeneral dot_S500x768_S768x10_S500x10_1_0_0_1_n_n none
            (maximumf (addf (Host.dotGeneral dot_S500x512_S512x768_S500x768_1_0_0_1_n_n none (catK outs c) (m ((c : Thread nD τ).loc main_arg19)))
                (broadcastInDim S500x768 ![0, 1] bcast_S1x768_S500x768_0_1 (broadcastInDim S1x768 ![1] bcast_S768_S1x768_1 (m ((c : Thread nD τ).loc main_arg20)))))
              (broadcastInDim S500x768 ![] bcast_S_S500x768 (constant S_ .f32 0x00000000#32)))
            (m ((c : Thread nD τ).loc main_arg21)))
          (broadcastInDim S500x10 ![0, 1] bcast_S1x10_S500x10_0_1 (broadcastInDim S1x10 ![1] bcast_S10_S1x10_1 (m ((c : Thread nD τ).loc main_arg22)))) := by
  show StableHlo.after hostOps2_2 (V6 m outs c) (Proc.devRef .tc main_v52) = _
  rw [after2_2_v52]
  show addf (Host.dotGeneral _ none (StableHlo.after hostOps2_1 (V5 m outs c) (Proc.devRef .tc main_v48)) (V6 m outs c main_arg21)) (broadcastInDim S500x10 ![0, 1] _ (broadcastInDim S1x10 ![1] _ (V6 m outs c main_arg22))) = _
  rw [after2_1_v48, V6_arg21, V6_arg22]
  show addf (Host.dotGeneral _ none (maximumf (V5 m outs c main_v47) _) _) _ = _
  rw [V5_v47]

/-- The specification's tail map is the kernel program's last two layers and log-softmax. -/
theorem tailOp_eq (cat : FVec F S500x512 .f32) (a19 : FVec F S512x768 .f32) (a20 : FVec F S768 .f32) (a21 : FVec F S768x10 .f32) (a22 : FVec F S10 .f32) :
    Cert.ReferenceIdeal.Spec.tailOp cat a19 a20 a21 a22
      = logSoftmaxK (addf (Host.dotGeneral dot_S500x768_S768x10_S500x10_1_0_0_1_n_n none
            (maximumf (addf (Host.dotGeneral dot_S500x512_S512x768_S500x768_1_0_0_1_n_n none cat a19)
                (broadcastInDim S500x768 ![0, 1] bcast_S1x768_S500x768_0_1 (broadcastInDim S1x768 ![1] bcast_S768_S1x768_1 a20)))
              (broadcastInDim S500x768 ![] bcast_S_S500x768 (constant S_ .f32 0x00000000#32)))
            a21)
          (broadcastInDim S500x10 ![0, 1] bcast_S1x10_S500x10_0_1 (broadcastInDim S1x10 ![1] bcast_S10_S1x10_1 a22))) := by
  unfold Cert.ReferenceIdeal.Spec.tailOp logSoftmaxK
  rfl

/-- The program's result on core c: the specification's tail map on the joined pools. -/
theorem V8_v53 (c : Dev nD) :
    (V8 m outs c main_v53 : FVec F S500x10 .f32)
      = Cert.ReferenceIdeal.Spec.tailOp
          (concatenate S500x512 1 [⟨S500x256, partsPoolK (outs 4 main_v38_0 c)⟩, ⟨S500x256, partsPoolK (outs 4 main_v38_1 c)⟩] concatenates_S500x256_S500x256_S500x512_d1)
          (m ((c : Thread nD τ).loc main_arg19)) (m ((c : Thread nD τ).loc main_arg20))
          (m ((c : Thread nD τ).loc main_arg21)) (m ((c : Thread nD τ).loc main_arg22)) := by
  rw [tailOp_eq]
  show StableHlo.after hostOps2_3 (V7 m outs c) (Proc.devRef .tc main_v53) = _
  rw [after2_3_v53]
  show logSoftmaxK (V7 m outs c main_v52) = _
  rw [V7_v52]

end Cert.KernelIdeal.Hand
-- ==== Proof.Bridge.lean ====
/- The kernel program's result is the reference's composed term on the kernel program's own arguments.

   The first region leaves, row by row, the first GIN block of the reference: each row of its output is the
   two-layer perceptron of the row of x + (neighbour sum of x), with the batch norm folded into a scale γ/√(var+ε)
   and a shift β − mean·scale; on real statistics (the precondition) this is the reference's centred form.
   The second region leaves, per half of the rows, the sums over its 25 blocks of 1000 rows of the one-hot
   selector of the graph id times a row: of the first block's rows in one output, of the second block's rows in
   the other. Adding the two halves and keeping rows [0, 500) gives the sum of the rows per graph id, the
   reference's pooling. The classifier and the log-softmax are the same operations on both sides. -/
import proofs.«420545_j11647951307430_3_alg».proof.Defs
import proofs.«420545_j11647951307430_3_alg».proof.Proof.Gen.Pre_finite_inputs
import proofs.«420545_j11647951307430_3_alg».proof.Proof.Spec
import proofs.«420545_j11647951307430_3_alg».proof.Proof.PreFacts
import proofs.«420545_j11647951307430_3_alg».proof.Proof.MlpRow
import proofs.«420545_j11647951307430_3_alg».proof.Proof.Pool
import proofs.«420545_j11647951307430_3_alg».proof.Proof.KernelIdeal.HostVals
import proofs.«420545_j11647951307430_3_alg».proof.Proof.KernelIdeal.Run
import proofs.«420545_j11647951307430_3_alg».proof.Proof.KernelIdeal.Value0
import proofs.«420545_j11647951307430_3_alg».proof.Proof.KernelIdeal.Value1
import proofs.«420545_j11647951307430_3_alg».proof.Proof.KernelIdeal.HostTail
import Idealize.ShloMosaic.Lib.ValueIdx
import Mathlib.Algebra.BigOperators.Fin

set_option maxRecDepth 8192

noncomputable section

open scoped BigOperators

namespace Cert.Proof.Bridge

open Cert.KernelIdeal Cert.KernelIdeal.Gen Cert.KernelIdeal.Hand Cert.Hand
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The arguments, and the reference's two hidden layers on them -/

/-- The node features. -/
abbrev x0 : FVec Ideal S50000x256 .f32 := m ((c : Thread nD τ).loc main_arg0)
/-- The edge list. -/
abbrev e1 : IVec S2x800000 32 := m ((c : Thread nD τ).loc main_arg1)
/-- The graph ids. -/
abbrev b2 : IVec S50000 32 := m ((c : Thread nD τ).loc main_arg2)
/-- The neighbour sum of the node features. -/
abbrev agg1 : FVec Ideal S50000x256 .f32 := Cert.ReferenceIdeal.Spec.aggOp (x0 m c) (e1 m c)

/-- The first layer's rows. -/
def h1 : FVec Ideal S50000x256 .f32 :=
  Cert.ReferenceIdeal.Spec.h1R (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The second layer's rows. -/
def h2 : FVec Ideal S50000x256 .f32 :=
  Cert.ReferenceIdeal.Spec.mlpR (addf (h1 m c) (Cert.ReferenceIdeal.Spec.aggOp (h1 m c) (m ((c : Thread nD τ).loc main_arg1)))) (m ((c : Thread nD τ).loc main_arg11)) (m ((c : Thread nD τ).loc main_arg12)) (m ((c : Thread nD τ).loc main_arg15)) (m ((c : Thread nD τ).loc main_arg13)) (m ((c : Thread nD τ).loc main_arg16)) (m ((c : Thread nD τ).loc main_arg14)) (m ((c : Thread nD τ).loc main_arg17)) (m ((c : Thread nD τ).loc main_arg18))

/-! ## The scales are real -/

theorem scale1_real (hpre : Cert.Pre_KernelIdeal m) : ∀ j, ∃ r : ℝ, scaleOf (m ((c : Thread nD τ).loc main_arg5)) (m ((c : Thread nD τ).loc main_arg8)) j = (r : EReal) :=
  scale_real (m ((c : Thread nD τ).loc main_arg5)) (m ((c : Thread nD τ).loc main_arg8)) ![] bcast_S_S256 (pre_real5 (hpre c)) (pre_real8 (hpre c)) (pre_pos8 (hpre c))

theorem scale2_real (hpre : Cert.Pre_KernelIdeal m) : ∀ j, ∃ r : ℝ, scaleOf (m ((c : Thread nD τ).loc main_arg13)) (m ((c : Thread nD τ).loc main_arg16)) j = (r : EReal) :=
  scale_real (m ((c : Thread nD τ).loc main_arg13)) (m ((c : Thread nD τ).loc main_arg16)) ![] bcast_S_S256 (pre_real13 (hpre c)) (pre_real16 (hpre c)) (pre_pos16 (hpre c))

/-! ## One row through a layer -/

/-- Row `n` of the first layer, from the row of the input plus its neighbour sum, with the host's scale and shift. -/
theorem row1_eq (hpre : Cert.Pre_KernelIdeal m) (n : Fin 50000) (q : Fin 256) :
    rowMLP (fun k => x0 m c (ix2 n k) + agg1 m c (ix2 n k))
      (Gen.V1 m c main_arg3) (Gen.V1 m c main_arg4) (Gen.V1 m c main_v17) (Gen.V1 m c main_v19) (Gen.V1 m c main_arg9) (Gen.V1 m c main_arg10) q
      = h1 m c (ix2 n q) := by
  rw [V1_arg3, V1_arg4, V1_arg9, V1_arg10, V1_v19, V1_v17]
  unfold h1 Cert.ReferenceIdeal.Spec.h1R
  rw [mlpR_apply _ _ _ _ _ _ _ _ _ (pre_real7 (hpre c)) (scale1_real m c hpre)]
  rfl

/-- Row `n` of the second layer, from the row of the first layer's rows `x` plus its neighbour sum. -/
theorem row2_eq (hpre : Cert.Pre_KernelIdeal m) (outs : Gen.Outs (F := Ideal)) (x a : FVec Ideal S50000x256 .f32)
    (ha : a = Cert.ReferenceIdeal.Spec.aggOp x (e1 m c)) (n : Fin 50000) (q : Fin 256) :
    rowMLP (fun k => x (ix2 n k) + a (ix2 n k))
      (Gen.V3 m outs c main_arg11) (Gen.V3 m outs c main_arg12) (Gen.V3 m outs c main_v35) (Gen.V3 m outs c main_v37) (Gen.V3 m outs c main_arg17) (Gen.V3 m outs c main_arg18) q
      = Cert.ReferenceIdeal.Spec.mlpR (addf x (Cert.ReferenceIdeal.Spec.aggOp x (e1 m c))) (m ((c : Thread nD τ).loc main_arg11)) (m ((c : Thread nD τ).loc main_arg12)) (m ((c : Thread nD τ).loc main_arg15)) (m ((c : Thread nD τ).loc main_arg13)) (m ((c : Thread nD τ).loc main_arg16)) (m ((c : Thread nD τ).loc main_arg14)) (m ((c : Thread nD τ).loc main_arg17)) (m ((c : Thread nD τ).loc main_arg18)) (ix2 n q) := by
  subst ha
  rw [V3_arg11, V3_arg12, V3_arg17, V3_arg18, V3_v37, V3_v35]
  rw [mlpR_apply _ _ _ _ _ _ _ _ _ (pre_real15 (hpre c)) (scale2_real m c hpre)]
  rfl

/-! ## The pooled sums -/

/-- Partial sums per half whose entries are the indicator-weighted sums of the rows of `w` over the half's 25 blocks
    of 1000 rows add up, rows [0, 500) kept, to the sum of the rows of `w` per graph id. -/
theorem pool_of_parts (batch : IVec S50000 32) (w : FVec Ideal S50000x256 .f32) (parts : FVec Ideal S2x512x256 .f32)
    (hparts : ∀ (cc : Fin 2) (g : Fin 512) (d : Fin 256), parts (ix3 cc g d)
      = ∑ blk : Fin 25, ∑ r : Fin 1000,
          (if batch (ix1 (⟨(cc.val * 25 + blk.val) * 1000 + r.val, by omega⟩ : Fin 50000)) = BitVec.ofNat 32 g.val then (1 : EReal) else 0)
            * w (ix2 (⟨(cc.val * 25 + blk.val) * 1000 + r.val, by omega⟩ : Fin 50000) d)) :
    partsPool parts = Cert.ReferenceIdeal.Spec.poolR batch w := by
  funext j
  obtain ⟨g, d, rfl⟩ : ∃ (g : Fin 500) (d : Fin 256), j = ix2 g d := ⟨j 0, j 1, eq_ix2 j⟩
  rw [poolR_apply, partsPool_apply, hparts, hparts, zero_add, ← onehot_sum_eq batch g (fun n => w (ix2 n d)), Fin.sum_univ_two]

/-! ## What the first region leaves is the first layer's rows -/

theorem h1K_eq (hpre : Cert.Pre_KernelIdeal m) : (outs m ρ 2 main_v20 c : FVec Ideal S50000x256 .f32) = h1 m c := by
  funext j
  obtain ⟨n, q, rfl⟩ : ∃ (n : Fin 50000) (q : Fin 256), j = ix2 n q := ⟨j 0, j 1, eq_ix2 j⟩
  rw [outs_v20 m ρ c]
  exact (arr0_row (fun c b => Gen.V1 m c b) c
    (fun hr q => rowMLP hr (Gen.V1 m c main_arg3) (Gen.V1 m c main_arg4) (Gen.V1 m c main_v17) (Gen.V1 m c main_v19) (Gen.V1 m c main_arg9) (Gen.V1 m c main_arg10) q)
    (fun v0 v1 p q => k0_pay1_apply v0 v1 _ _ _ _ _ _ p q)
    (x0 m c) (agg1 m c) (V1_arg0 m c) (V1_v13 m c) n q).trans (row1_eq m c hpre n q)

/-- The second stretch finds the first layer's rows in the first region's output array. -/
theorem V3_v20_eq (hpre : Cert.Pre_KernelIdeal m) : ((Gen.V3 m (outs m ρ) c main_v20) : FVec Ideal S50000x256 .f32) = h1 m c :=
  (V3_v20 m (outs m ρ) c).trans (h1K_eq m ρ c hpre)

/-- The second layer's aggregate is the neighbour sum of the first layer's rows. -/
theorem V3_v30_eq (hpre : Cert.Pre_KernelIdeal m) :
    ((Gen.V3 m (outs m ρ) c main_v30) : FVec Ideal S50000x256 .f32) = Cert.ReferenceIdeal.Spec.aggOp (h1 m c) (e1 m c) := by
  rw [V3_v30, h1K_eq m ρ c hpre]

/-! ## The two pools -/

theorem pool1_eq (hpre : Cert.Pre_KernelIdeal m) :
    partsPool (outs m ρ 4 main_v38_0 c) = Cert.ReferenceIdeal.Spec.poolR (b2 m c) (h1 m c) := by
  refine pool_of_parts (b2 m c) (h1 m c) _ (fun cc g d => ?_)
  rw [outs_v38_0 m ρ c, arr9_apply (fun c b => Gen.V3 m (outs m ρ) c b) c cc g d]
  refine Finset.sum_congr rfl fun blk _ => Finset.sum_congr rfl fun r _ => ?_
  rw [V3_v31_apply, V3_v20_eq m ρ c hpre]

theorem pool2_eq (hpre : Cert.Pre_KernelIdeal m) :
    partsPool (outs m ρ 4 main_v38_1 c) = Cert.ReferenceIdeal.Spec.poolR (b2 m c) (h2 m c) := by
  refine pool_of_parts (b2 m c) (h2 m c) _ (fun cc g d => ?_)
  rw [outs_v38_1 m ρ c, arr10_row (fun c b => Gen.V3 m (outs m ρ) c b) c cc g d
    (fun hr q => rowMLP hr (Gen.V3 m (outs m ρ) c main_arg11) (Gen.V3 m (outs m ρ) c main_arg12) (Gen.V3 m (outs m ρ) c main_v35) (Gen.V3 m (outs m ρ) c main_v37) (Gen.V3 m (outs m ρ) c main_arg17) (Gen.V3 m (outs m ρ) c main_arg18) q)
    (fun v3 v5 p q => k1_pay9_apply v3 v5 _ _ _ _ _ _ p q)]
  refine Finset.sum_congr rfl fun blk _ => Finset.sum_congr rfl fun r _ => ?_
  dsimp only [h1A, aggA]
  rw [V3_v31_apply, V3_v20_eq m ρ c hpre, V3_v30_eq m ρ c hpre]
  exact congrArg (fun t => (if b2 m c (ix1 (poolRow cc blk r)) = BitVec.ofNat 32 g.val then (1 : EReal) else 0) * t)
    (row2_eq m c hpre (outs m ρ) (h1 m c) _ rfl (poolRow cc blk r) d)

/-! ## The result -/

/-- The kernel program's result is the classifier and log-softmax on the two pools of the reference's hidden layers. -/
theorem result_eq (hpre : Cert.Pre_KernelIdeal m) :
    (Gen.V8 m (outs m ρ) c main_v53 : FVec Ideal S500x10 .f32)
      = Cert.ReferenceIdeal.Spec.tailOp
          (concatenate S500x512 1 [⟨S500x256, Cert.ReferenceIdeal.Spec.poolR (b2 m c) (h1 m c)⟩, ⟨S500x256, Cert.ReferenceIdeal.Spec.poolR (b2 m c) (h2 m c)⟩] concatenates_S500x256_S500x256_S500x512_d1)
          (m ((c : Thread nD τ).loc main_arg19)) (m ((c : Thread nD τ).loc main_arg20)) (m ((c : Thread nD τ).loc main_arg21)) (m ((c : Thread nD τ).loc main_arg22)) := by
  have p1 : partsPoolK (outs m ρ 4 main_v38_0 c) = Cert.ReferenceIdeal.Spec.poolR (b2 m c) (h1 m c) := pool1_eq m ρ c hpre
  have p2 : partsPoolK (outs m ρ 4 main_v38_1 c) = Cert.ReferenceIdeal.Spec.poolR (b2 m c) (h2 m c) := pool2_eq m ρ c hpre
  rw [V8_v53 m (outs m ρ) c, p1, p2]

end Cert.Proof.Bridge

namespace Cert.Proof.Bridge

open Cert.KernelIdeal Cert.KernelIdeal.Gen Idealize.ShloMosaic Idealize.ShloMosaic.TcCoe Idealize.SL.Sem

/-- THE BRIDGE: under the precondition, what the kernel program leaves in its result buffer is the reference's composed
    term on the kernel program's own arguments. -/
theorem kernel_result_eq (m : (ℓ : Loc nD τ sig) → Buf (Elt Ideal) ℓ) (ρ : Dev nD → PrngReg) (hpre : Cert.Pre_KernelIdeal m) (c : Dev nD) :
    Gen.V8 m (Cert.KernelIdeal.Hand.outs m ρ) c main_v53 =
      (let a (r : Ref sig .tc) := m ((c.tc : Thread nD τ).loc r)
       let h1 : FVec Ideal S50000x256 .f32 := Cert.ReferenceIdeal.Spec.h1R (a main_arg0) (a main_arg1) (a main_arg3) (a main_arg4) (a main_arg5) (a main_arg6) (a main_arg7) (a main_arg8) (a main_arg9) (a main_arg10)
       let h2 : FVec Ideal S50000x256 .f32 := Cert.ReferenceIdeal.Spec.mlpR (addf h1 (Cert.ReferenceIdeal.Spec.aggOp h1 (a main_arg1))) (a main_arg11) (a main_arg12) (a main_arg15) (a main_arg13) (a main_arg16) (a main_arg14) (a main_arg17) (a main_arg18)
       Cert.ReferenceIdeal.Spec.tailOp (concatenate S500x512 1 [⟨S500x256, Cert.ReferenceIdeal.Spec.poolR (a main_arg2) h1⟩, ⟨S500x256, Cert.ReferenceIdeal.Spec.poolR (a main_arg2) h2⟩] concatenates_S500x256_S500x256_S500x512_d1) (a main_arg19) (a main_arg20) (a main_arg21) (a main_arg22)) :=
  result_eq m ρ c hpre

end Cert.Proof.Bridge

end
-- ==== Proof.Algebraic.lean ====
/-
  The claims, assembled.

  The three frame claims are the three runs with their posts cut down to the unchanged arguments. The
  value claim: the kernel's run leaves in its result array the value of the last host stretch applied to
  the contents the two regions leave; the reference's run leaves its composed term, which is the
  composition of the specification's maps (layer 1, aggregation and layer 2, add-pooling of both, the
  classifier) of the argument arrays. Over memories that agree on the arguments the two are one value:
  the kernel's result is that same composition of its own argument arrays, under the precondition.
-/
import proofs.«420545_j11647951307430_3_alg».proof.Defs
import proofs.«420545_j11647951307430_3_alg».proof.Proof.Gen.Kernel
import proofs.«420545_j11647951307430_3_alg».proof.Proof.Gen.KernelIdeal
import proofs.«420545_j11647951307430_3_alg».proof.Proof.Gen.ReferenceIdeal
import proofs.«420545_j11647951307430_3_alg».proof.Proof.Gen.Pre_finite_inputs
import proofs.«420545_j11647951307430_3_alg».proof.Proof.Gen.ReferenceIdeal.Run
import proofs.«420545_j11647951307430_3_alg».proof.Proof.SpecEq
import proofs.«420545_j11647951307430_3_alg».proof.Proof.KernelIdeal.Run
import proofs.«420545_j11647951307430_3_alg».proof.Proof.Kernel.Run
import proofs.«420545_j11647951307430_3_alg».proof.Proof.Bridge

noncomputable section

namespace Cert.Proof.Claims

open Idealize.ShloMosaic Idealize.ShloMosaic.TcCoe Idealize.SL.Sem

/-- The word-level program runs and leaves its arguments unchanged. -/
theorem frame_k : Cert.frame_Kernel := fun m ρ _ => Cert.Kernel.Hand.frame m ρ

/-- The program at the extended reals runs and leaves its arguments unchanged. -/
theorem frame_ki : Cert.frame_KernelIdeal := fun m ρ _ => Cert.KernelIdeal.Hand.frame m ρ

/-- The reference at the extended reals runs and leaves its arguments unchanged. -/
theorem frame_ri : Cert.frame_ReferenceIdeal := fun m ρ _ =>
  (θ_run Cert.ReferenceIdeal.defs _ _).mono (fun _ h c => (h c).2)
    (Cert.ReferenceIdeal.Value.run (F := Ideal) m ρ)

/-- At the extended reals, from memories that agree on the arguments, both programs run, leave their
    arguments unchanged and end with one result: the specification's composition of the arguments. -/
theorem algebraic : Cert.algebraic_KernelIdeal_ReferenceIdeal := by
  intro m ρ m' ρ' hpre hagree
  refine ⟨fun c => Cert.KernelIdeal.Gen.V8 m (Cert.KernelIdeal.Hand.outs m ρ) c Cert.KernelIdeal.main_v53,
    Cert.KernelIdeal.Hand.result_v53 m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22⟩ := hagree c
  rw [Cert.ReferenceIdeal.Spec.res_eq]
  dsimp only
  rw [e0, e1, e2, e3, e4, e5, e6, e7, e8, e9, e10, e11, e12, e13, e14, e15, e16, e17, e18, e19, e20, e21, e22]
  exact (Cert.Proof.Bridge.kernel_result_eq m ρ hpre c).symm

end Cert.Proof.Claims

end
-- ==== Proof.lean ====
/-
  A two-layer graph-isomorphism network with add-pooling and a linear classifier: the kernel computes
  each layer blockwise over the nodes, with the batch-norm folded into one affine map (scale
  `g / √(v + ε)`, shift `β − m · scale`) and the per-graph sums taken as a product with a one-hot matrix
  accumulated over the blocks; it is proved equal, entry by entry on the extended reals, to the reference's
  layerwise computation, for finite inputs whose variances satisfy `v + ε > 0`. The word-level and the
  idealized program run and leave their arguments unchanged by the launch of the two regions in turn,
  the second under an invariant that tracks its two accumulators from block to block.
-/
import proofs.«420545_j11647951307430_3_alg».proof.Defs
import proofs.«420545_j11647951307430_3_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
